-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S100000 : Shape := ⟨1, ![100000]⟩
abbrev S64x60 : Shape := ⟨2, ![64, 60]⟩
abbrev S60 : Shape := ⟨1, ![60]⟩
abbrev S60x50 : Shape := ⟨2, ![60, 50]⟩
abbrev S50 : Shape := ⟨1, ![50]⟩
abbrev S50x30 : Shape := ⟨2, ![50, 30]⟩
abbrev S30 : Shape := ⟨1, ![30]⟩
abbrev S30x20 : Shape := ⟨2, ![30, 20]⟩
abbrev S20 : Shape := ⟨1, ![20]⟩
abbrev S20x10 : Shape := ⟨2, ![20, 10]⟩
abbrev S10 : Shape := ⟨1, ![10]⟩
abbrev S10x1 : Shape := ⟨2, ![10, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x60 : S_.BroadcastsInDim S64x60 (![] : Fin 0 → Fin S64x60.rank)
  reducesTo_S64x60_S_d0_1 : S64x60.ReducesTo [0, 1] S_
  bcast_S_S60 : S_.BroadcastsInDim S60 (![] : Fin 0 → Fin S60.rank)
  reducesTo_S60_S_d0 : S60.ReducesTo [0] S_
  bcast_S_S60x50 : S_.BroadcastsInDim S60x50 (![] : Fin 0 → Fin S60x50.rank)
  reducesTo_S60x50_S_d0_1 : S60x50.ReducesTo [0, 1] S_
  bcast_S_S50 : S_.BroadcastsInDim S50 (![] : Fin 0 → Fin S50.rank)
  reducesTo_S50_S_d0 : S50.ReducesTo [0] S_
  bcast_S_S50x30 : S_.BroadcastsInDim S50x30 (![] : Fin 0 → Fin S50x30.rank)
  reducesTo_S50x30_S_d0_1 : S50x30.ReducesTo [0, 1] S_
  bcast_S_S30 : S_.BroadcastsInDim S30 (![] : Fin 0 → Fin S30.rank)
  reducesTo_S30_S_d0 : S30.ReducesTo [0] S_
  bcast_S_S30x20 : S_.BroadcastsInDim S30x20 (![] : Fin 0 → Fin S30x20.rank)
  reducesTo_S30x20_S_d0_1 : S30x20.ReducesTo [0, 1] S_
  bcast_S_S20 : S_.BroadcastsInDim S20 (![] : Fin 0 → Fin S20.rank)
  reducesTo_S20_S_d0 : S20.ReducesTo [0] S_
  bcast_S_S20x10 : S_.BroadcastsInDim S20x10 (![] : Fin 0 → Fin S20x10.rank)
  reducesTo_S20x10_S_d0_1 : S20x10.ReducesTo [0, 1] S_
  bcast_S_S10 : S_.BroadcastsInDim S10 (![] : Fin 0 → Fin S10.rank)
  reducesTo_S10_S_d0 : S10.ReducesTo [0] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S10x1 .f32) (main_arg14 : FVec F S1 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S10x1 .f32 := Host.absf main_arg13
  let main_cst_20 : FVec F S_ .f32 := constant S_ .f32 0x7F800000#32
  let main_v55 : FVec F S10x1 .f32 := broadcastInDim S10x1 ![] bcast_S_S10x1 main_cst_20
  let main_v56 : IVec S10x1 1 := cmpf .olt main_v54 main_v55
  let main_c_21 : IVec S_ 1 := constantI S_ 1 1#1
  let main_v57 : IVec S_ 1 := (fun x v => Host.reduce IntOp.andi x v reducesTo_S10x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S30x20 .f32) (main_arg10 : FVec F S20 .f32) (main_arg11 : FVec F S20x10 .f32) (main_arg12 : FVec F S10 .f32) (main_arg13 : FVec F S10x1 .f32) (main_arg14 : FVec F S1 .f32) (main_v33 : IVec S_ 1) : IVec S_ 1 :=
  let main_v34 : FVec F S30x20 .f32 := Host.absf main_arg9
  let main_cst_12 : FVec F S_ .f32 := constant S_ .f32 0x7F800000#32
  let main_v35 : FVec F S30x20 .f32 := broadcastInDim S30x20 ![] bcast_S_S30x20 main_cst_12
  let main_v36 : IVec S30x20 1 := cmpf .olt main_v34 main_v35
  let main_c_13 : IVec S_ 1 := constantI S_ 1 1#1
  let main_v37 : IVec S_ 1 := (fun x v => Host.reduce IntOp.andi x v reducesTo_S30x20_S_d0_1 h_S_) main_v36 main_c_13
  let main_v38 : IVec S_ 1 := andi main_v33 main_v37
  let main_v39 : FVec F S20 .f32 := Host.absf main_arg10
  let main_cst_14 : FVec F S_ .f32 := constant S_ .f32 0x7F800000#32
  let main_v40 : FVec F S20 .f32 := broadcastInDim S20 ![] bcast_S_S20 main_cst_14
  let main_v41 : IVec S20 1 := cmpf .olt main_v39 main_v40
  let main_c_15 : IVec S_ 1 := constantI S_ 1 1#1
  let main_v42 : IVec S_ 1 := (fun x v => Host.reduce IntOp.andi x v reducesTo_S20_S_d0 h_S_) main_v41 main_c_15
  let main_v43 : IVec S_ 1 := andi main_v38 main_v42
  let main_v44 : FVec F S20x10 .f32 := Host.absf main_arg11
  let main_cst_16 : FVec F S_ .f32 := constant S_ .f32 0x7F800000#32
  let main_v45 : FVec F S20x10 .f32 := broadcastInDim S20x10 ![] bcast_S_S20x10 main_cst_16
  let main_v46 : IVec S20x10 1 := cmpf .olt main_v44 main_v45
  let main_c_17 : IVec S_ 1 := constantI S_ 1 1#1
  let main_v47 : IVec S_ 1 := (fun x v => Host.reduce IntOp.andi x v reducesTo_S20x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_arg13 main_arg14 main_v48 main_v49 main_v50

def fn_part1 {F : FTy → Type} [FloatOps F] (main_arg6 : FVec F S50 .f32) (main_arg7 : FVec F S50x30 .f32) (main_arg8 : FVec F S30 .f32) (main_arg9 : FVec F S30x20 .f32) (main_arg10 : FVec F S20 .f32) (main_arg11 : FVec F S20x10 .f32) (main_arg12 : FVec F S10 .f32) (main_arg13 : FVec F S10x1 .f32) (main_arg14 : FVec F S1 .f32) (main_v13 : IVec S_ 1) (main_v16 : IVec S60x50 1) : IVec S_ 1 :=
  let main_c_5 : IVec S_ 1 := constantI S_ 1 1#1
  let main_v17 : IVec S_ 1 := (fun x v => Host.reduce IntOp.andi x v reducesTo_S60x50_S_d0_1 h_S_) main_v16 main_c_5
  let main_v18 : IVec S_ 1 := andi main_v13 main_v17
  let main_v19 : FVec F S50 .f32 := Host.absf main_arg6
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S50x30 .f32 := Host.absf main_arg7
  let main_cst_8 : FVec F S_ .f32 := constant S_ .f32 0x7F800000#32
  let main_v25 : FVec F S50x30 .f32 := broadcastInDim S50x30 ![] bcast_S_S50x30 main_cst_8
  let main_v26 : IVec S50x30 1 := cmpf .olt main_v24 main_v25
  let main_c_9 : IVec S_ 1 := constantI S_ 1 1#1
  let main_v27 : IVec S_ 1 := (fun x v => Host.reduce IntOp.andi x v reducesTo_S50x30_S_d0_1 h_S_) main_v26 main_c_9
  let main_v28 : IVec S_ 1 := andi main_v23 main_v27
  let main_v29 : FVec F S30 .f32 := Host.absf main_arg8
  let main_cst_10 : FVec F S_ .f32 := constant S_ .f32 0x7F800000#32
  let main_v30 : FVec F S30 .f32 := broadcastInDim S30 ![] bcast_S_S30 main_cst_10
  let main_v31 : IVec S30 1 := cmpf .olt main_v29 main_v30
  let main_c_11 : IVec S_ 1 := constantI S_ 1 1#1
  let main_v32 : IVec S_ 1 := (fun x v => Host.reduce IntOp.andi x v reducesTo_S30_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x64 .f32) (main_arg1 : IVec S2x3200000 32) (main_arg2 : IVec S100000 32) (main_arg3 : FVec F S64x60 .f32) (main_arg4 : FVec F S60 .f32) (main_arg5 : FVec F S60x50 .f32) (main_arg6 : FVec F S50 .f32) (main_arg7 : FVec F S50x30 .f32) (main_arg8 : FVec F S30 .f32) (main_arg9 : FVec F S30x20 .f32) (main_arg10 : FVec F S20 .f32) (main_arg11 : FVec F S20x10 .f32) (main_arg12 : FVec F S10 .f32) (main_arg13 : FVec F S10x1 .f32) (main_arg14 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x60 .f32 := Host.absf main_arg3
  let main_cst_0 : FVec F S_ .f32 := constant S_ .f32 0x7F800000#32
  let main_v5 : FVec F S64x60 .f32 := broadcastInDim S64x60 ![] bcast_S_S64x60 main_cst_0
  let main_v6 : IVec S64x60 1 := cmpf .olt main_v4 main_v5
  let main_c_1 : IVec S_ 1 := constantI S_ 1 1#1
  let main_v7 : IVec S_ 1 := (fun x v => Host.reduce IntOp.andi x v reducesTo_S64x60_S_d0_1 h_S_) main_v6 main_c_1
  let main_v8 : IVec S_ 1 := andi main_v3 main_v7
  let main_v9 : FVec F S60 .f32 := Host.absf main_arg4
  let main_cst_2 : FVec F S_ .f32 := constant S_ .f32 0x7F800000#32
  let main_v10 : FVec F S60 .f32 := broadcastInDim S60 ![] bcast_S_S60 main_cst_2
  let main_v11 : IVec S60 1 := cmpf .olt main_v9 main_v10
  let main_c_3 : IVec S_ 1 := constantI S_ 1 1#1
  let main_v12 : IVec S_ 1 := (fun x v => Host.reduce IntOp.andi x v reducesTo_S60_S_d0 h_S_) main_v11 main_c_3
  let main_v13 : IVec S_ 1 := andi main_v8 main_v12
  let main_v14 : FVec F S60x50 .f32 := Host.absf main_arg5
  let main_cst_4 : FVec F S_ .f32 := constant S_ .f32 0x7F800000#32
  let main_v15 : FVec F S60x50 .f32 := broadcastInDim S60x50 ![] bcast_S_S60x50 main_cst_4
  let main_v16 : IVec S60x50 1 := cmpf .olt main_v14 main_v15
  fn_part1 (F := F) main_arg6 main_arg7 main_arg8 main_arg9 main_arg10 main_arg11 main_arg12 main_arg13 main_arg14 main_v13 main_v16
-- ==== Kernel.lean ====
abbrev S100000x64 : Shape := ⟨2, ![100000, 64]⟩
abbrev S2x3200000 : Shape := ⟨2, ![2, 3200000]⟩
abbrev S100000 : Shape := ⟨1, ![100000]⟩
abbrev S64x60 : Shape := ⟨2, ![64, 60]⟩
abbrev S60 : Shape := ⟨1, ![60]⟩
abbrev S60x50 : Shape := ⟨2, ![60, 50]⟩
abbrev S50 : Shape := ⟨1, ![50]⟩
abbrev S50x30 : Shape := ⟨2, ![50, 30]⟩
abbrev S30 : Shape := ⟨1, ![30]⟩
abbrev S30x20 : Shape := ⟨2, ![30, 20]⟩
abbrev S20 : Shape := ⟨1, ![20]⟩
abbrev S20x10 : Shape := ⟨2, ![20, 10]⟩
abbrev S10 : Shape := ⟨1, ![10]⟩
abbrev S10x1 : Shape := ⟨2, ![10, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x60 : Shape := ⟨2, ![100000, 60]⟩
abbrev S10000x64 : Shape := ⟨2, ![10000, 64]⟩
abbrev S10000x60 : Shape := ⟨2, ![10000, 60]⟩
abbrev S3300000x60 : Shape := ⟨2, ![3300000, 60]⟩
abbrev S1x60 : Shape := ⟨2, ![1, 60]⟩
abbrev S100000x50 : Shape := ⟨2, ![100000, 50]⟩
abbrev S10000x50 : Shape := ⟨2, ![10000, 50]⟩
abbrev S3300000x50 : Shape := ⟨2, ![3300000, 50]⟩
abbrev S100000x1 : Shape := ⟨2, ![100000, 1]⟩
abbrev S1x50 : Shape := ⟨2, ![1, 50]⟩
abbrev S1x30 : Shape := ⟨2, ![1, 30]⟩
abbrev S1x20 : Shape := ⟨2, ![1, 20]⟩
abbrev S1x10 : Shape := ⟨2, ![1, 10]⟩
abbrev S1x1 : Shape := ⟨2, ![1, 1]⟩
abbrev S256x1 : Shape := ⟨2, ![256, 1]⟩
abbrev S5000x50 : Shape := ⟨2, ![5000, 50]⟩
abbrev S5000x1 : Shape := ⟨2, ![5000, 1]⟩
abbrev S256x50 : Shape := ⟨2, ![256, 50]⟩
abbrev S5000x256 : Shape := ⟨2, ![5000, 256]⟩
abbrev S256x5000 : Shape := ⟨2, ![256, 5000]⟩
abbrev S256x30 : Shape := ⟨2, ![256, 30]⟩
abbrev S256x20 : Shape := ⟨2, ![256, 20]⟩
abbrev S256x10 : Shape := ⟨2, ![256, 10]⟩

abbrev nBuf : Space → Nat
  | .hbm => 90
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S100000, .i32⟩
  | .hbm, ⟨3, _⟩ => ⟨S64x60, .f32⟩
  | .hbm, ⟨4, _⟩ => ⟨S60, .f32⟩
  | .hbm, ⟨5, _⟩ => ⟨S60x50, .f32⟩
  | .hbm, ⟨6, _⟩ => ⟨S50, .f32⟩
  | .hbm, ⟨7, _⟩ => ⟨S50x30, .f32⟩
  | .hbm, ⟨8, _⟩ => ⟨S30, .f32⟩
  | .hbm, ⟨9, _⟩ => ⟨S30x20, .f32⟩
  | .hbm, ⟨10, _⟩ => ⟨S20, .f32⟩
  | .hbm, ⟨11, _⟩ => ⟨S20x10, .f32⟩
  | .hbm, ⟨12, _⟩ => ⟨S10, .f32⟩
  | .hbm, ⟨13, _⟩ => ⟨S10x1, .f32⟩
  | .hbm, ⟨14, _⟩ => ⟨S1, .f32⟩
  | .hbm, ⟨15, _⟩ => ⟨S100000, .i32⟩
  | .hbm, ⟨16, _⟩ => ⟨S1x3200000, .i32⟩
  | .hbm, ⟨17, _⟩ => ⟨S3200000, .i32⟩
  | .hbm, ⟨18, _⟩ => ⟨S3300000, .i32⟩
  | .hbm, ⟨19, _⟩ => ⟨S1x3200000, .i32⟩
  | .hbm, ⟨20, _⟩ => ⟨S3200000, .i32⟩
  | .hbm, ⟨21, _⟩ => ⟨S3300000, .i32⟩
  | .hbm, ⟨22, _⟩ => ⟨S_, .f32⟩
  | .hbm, ⟨23, _⟩ => ⟨S3300000, .f32⟩
  | .hbm, ⟨24, _⟩ => ⟨S_, .f32⟩
  | .hbm, ⟨25, _⟩ => ⟨S100000, .f32⟩
  | .hbm, ⟨26, _⟩ => ⟨S3300000x1, .i32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x60, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x60, .f32⟩
  | .hbm, ⟨58, _⟩ => ⟨S3300000x1, .f32⟩
  | .hbm, ⟨59, _⟩ => ⟨S3300000x60, .f32⟩
  | .hbm, ⟨60, _⟩ => ⟨S3300000x60, .f32⟩
  | .hbm, ⟨61, _⟩ => ⟨S_, .f32⟩
  | .hbm, ⟨62, _⟩ => ⟨S100000x60, .f32⟩
  | .hbm, ⟨63, _⟩ => ⟨S3300000x1, .i32⟩
  | .hbm, ⟨64, _⟩ => ⟨S100000x60, .f32⟩
  | .hbm, ⟨65, _⟩ => ⟨S1x60, .f32⟩
  | .hbm, ⟨66, _⟩ => ⟨S100000x50, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x50, .f32⟩
  | .hbm, ⟨76, _⟩ => ⟨S3300000x1, .f32⟩
  | .hbm, ⟨77, _⟩ => ⟨S3300000x50, .f32⟩
  | .hbm, ⟨78, _⟩ => ⟨S3300000x50, .f32⟩
  | .hbm, ⟨79, _⟩ => ⟨S_, .f32⟩
  | .hbm, ⟨80, _⟩ => ⟨S100000x50, .f32⟩
  | .hbm, ⟨81, _⟩ => ⟨S3300000x1, .i32⟩
  | .hbm, ⟨82, _⟩ => ⟨S100000x50, .f32⟩
  | .hbm, ⟨83, _⟩ => ⟨S100000x1, .i32⟩
  | .hbm, ⟨84, _⟩ => ⟨S1x50, .f32⟩
  | .hbm, ⟨85, _⟩ => ⟨S1x30, .f32⟩
  | .hbm, ⟨86, _⟩ => ⟨S1x20, .f32⟩
  | .hbm, ⟨87, _⟩ => ⟨S1x10, .f32⟩
  | .hbm, ⟨88, _⟩ => ⟨S1x1, .f32⟩
  | .hbm, ⟨89, _⟩ => ⟨S256x1, .f32⟩
  | .local _ .vmem, ⟨0, _⟩ => ⟨S10000x64, .f32⟩
  | .local _ .vmem, ⟨1, _⟩ => ⟨S10000x64, .f32⟩
  | .local _ .vmem, ⟨2, _⟩ => ⟨S64x60, .f32⟩
  | .local _ .vmem, ⟨3, _⟩ => ⟨S10000x60, .f32⟩
  | .local _ .vmem, ⟨4, _⟩ => ⟨S10000x60, .f32⟩
  | .local _ .vmem, ⟨5, _⟩ => ⟨S10000x60, .f32⟩
  | .local _ .vmem, ⟨6, _⟩ => ⟨S10000x60, .f32⟩
  | .local _ .vmem, ⟨7, _⟩ => ⟨S1x60, .f32⟩
  | .local _ .vmem, ⟨8, _⟩ => ⟨S60x50, .f32⟩
  | .local _ .vmem, ⟨9, _⟩ => ⟨S10000x50, .f32⟩
  | .local _ .vmem, ⟨10, _⟩ => ⟨S10000x50, .f32⟩
  | .local _ .vmem, ⟨11, _⟩ => ⟨S5000x50, .f32⟩
  | .local _ .vmem, ⟨12, _⟩ => ⟨S5000x50, .f32⟩
  | .local _ .vmem, ⟨13, _⟩ => ⟨S1x50, .f32⟩
  | .local _ .vmem, ⟨14, _⟩ => ⟨S5000x1, .i32⟩
  | .local _ .vmem, ⟨15, _⟩ => ⟨S5000x1, .i32⟩
  | .local _ .vmem, ⟨16, _⟩ => ⟨S50x30, .f32⟩
  | .local _ .vmem, ⟨17, _⟩ => ⟨S1x30, .f32⟩
  | .local _ .vmem, ⟨18, _⟩ => ⟨S30x20, .f32⟩
  | .local _ .vmem, ⟨19, _⟩ => ⟨S1x20, .f32⟩
  | .local _ .vmem, ⟨20, _⟩ => ⟨S20x10, .f32⟩
  | .local _ .vmem, ⟨21, _⟩ => ⟨S1x10, .f32⟩
  | .local _ .vmem, ⟨22, _⟩ => ⟨S10x1, .f32⟩
  | .local _ .vmem, ⟨23, _⟩ => ⟨S1x1, .f32⟩
  | .local _ .vmem, ⟨24, _⟩ => ⟨S256x1, .f32⟩
  | .local _ .vmem, ⟨25, _⟩ => ⟨S256x50, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_7 : Ref sig .tc := ⟨.hbm, 67, rfl⟩
abbrev main_v43 : Ref sig .tc := ⟨.hbm, 68, rfl⟩
abbrev main_v44 : Ref sig .tc := ⟨.hbm, 69, rfl⟩
abbrev main_c_8 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg8_0 : Ref sig .tc := ⟨.vmem, 21, rfl⟩
abbrev cc2_stg9_0 : Ref sig .tc := ⟨.vmem, 22, rfl⟩
abbrev cc2_stg10_0 : Ref sig .tc := ⟨.vmem, 23, rfl⟩
abbrev cc2_stg11_0 : Ref sig .tc := ⟨.vmem, 24, rfl⟩
abbrev cc2_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem9_0 : DmaSem sig := 22
abbrev cc2_sem10_0 : DmaSem sig := 23
abbrev cc2_sem11_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x60 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x60 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x60 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x60 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S60x50 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x50 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v25 : BitVec 1 := Scalar.cmpi .eq arg0 c19_i32
  let v26 : BitVec 32 := Scalar.extui v25
  let c0_i32_10 : BitVec 32 := 0#32
  let v27 : BitVec 1 := Scalar.cmpi .ne v26 c0_i32_10
  v27

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x50 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x50 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S50x30 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x30 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S30x20 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x20 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S20x10 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x10 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S10x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S256x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x60_S64x60_0_0 : ∀ a, (![0, 0] : Fin 2 → Nat) a + S64x60.size a ≤ S64x60.size a
  h_S64x60 : 0 < S64x60.numel
  inb_S10000x60_S10000x60_0_0 : ∀ a, (![0, 0] : Fin 2 → Nat) a + S10000x60.size a ≤ S10000x60.size a
  h_S10000x60 : 0 < S10000x60.numel
  bcast_S3300000x1_S3300000x60_0_1 : S3300000x1.BroadcastsInDim S3300000x60 (![0, 1] : Fin 2 → Fin S3300000x60.rank)
  bcast_S_S100000x60 : S_.BroadcastsInDim S100000x60 (![] : Fin 0 → Fin S100000x60.rank)
  shapeCasts_S60_S1x60 : S60.ShapeCasts S1x60
  shapeCasts_S10000x60_S10000x60 : S10000x60.ShapeCasts S10000x60
  inb_S1x60_S1x60_0_0 : ∀ a, (![0, 0] : Fin 2 → Nat) a + S1x60.size a ≤ S1x60.size a
  h_S1x60 : 0 < S1x60.numel
  shapeCasts_S1x60_S1x60 : S1x60.ShapeCasts S1x60
  broadcasts_S1x60_S10000x60 : S1x60.Broadcasts S10000x60
  inb_S60x50_S60x50_0_0 : ∀ a, (![0, 0] : Fin 2 → Nat) a + S60x50.size a ≤ S60x50.size a
  h_S60x50 : 0 < S60x50.numel
  inb_S10000x50_S10000x50_0_0 : ∀ a, (![0, 0] : Fin 2 → Nat) a + S10000x50.size a ≤ S10000x50.size a
  h_S10000x50 : 0 < S10000x50.numel
  bcast_S3300000x1_S3300000x50_0_1 : S3300000x1.BroadcastsInDim S3300000x50 (![0, 1] : Fin 2 → Fin S3300000x50.rank)
  bcast_S_S100000x50 : S_.BroadcastsInDim S100000x50 (![] : Fin 0 → Fin S100000x50.rank)
  shapeCasts_S100000_S100000x1 : S100000.ShapeCasts S100000x1
  shapeCasts_S50_S1x50 : S50.ShapeCasts S1x50
  shapeCasts_S30_S1x30 : S30.ShapeCasts S1x30
  shapeCasts_S20_S1x20 : S20.ShapeCasts S1x20
  shapeCasts_S10_S1x10 : S10.ShapeCasts S1x10
  shapeCasts_S1_S1x1 : S1.ShapeCasts S1x1
  inb_S256x50_S256x50_0_0 : ∀ a, (![0, 0] : Fin 2 → Nat) a + S256x50.size a ≤ S256x50.size a
  h_S256x50 : 0 < S256x50.numel
  shapeCasts_S256x50_S256x50 : S256x50.ShapeCasts S256x50
  inb_S5000x50_S5000x50_0_0 : ∀ a, (![0, 0] : Fin 2 → Nat) a + S5000x50.size a ≤ S5000x50.size a
  h_S5000x50 : 0 < S5000x50.numel
  shapeCasts_S5000x50_S5000x50 : S5000x50.ShapeCasts S5000x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S5000x50 : S1x50.Broadcasts S5000x50
  iota_S5000x256_d1_w32 : S5000x256.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  natLt_1_32 : 1 < 32
  transposes_S5000x256_p1_0_S256x5000 : S5000x256.Transposes [1, 0] S256x5000
  inb_S50x30_S50x30_0_0 : ∀ a, (![0, 0] : Fin 2 → Nat) a + S50x30.size a ≤ S50x30.size a
  h_S50x30 : 0 < S50x30.numel
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S256x30 : S1x30.Broadcasts S256x30
  inb_S30x20_S30x20_0_0 : ∀ a, (![0, 0] : Fin 2 → Nat) a + S30x20.size a ≤ S30x20.size a
  h_S30x20 : 0 < S30x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S256x20 : S1x20.Broadcasts S256x20
  inb_S20x10_S20x10_0_0 : ∀ a, (![0, 0] : Fin 2 → Nat) a + S20x10.size a ≤ S20x10.size a
  h_S20x10 : 0 < S20x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  inb_S10x1_S10x1_0_0 : ∀ a, (![0, 0] : Fin 2 → Nat) a + S10x1.size a ≤ S10x1.size a
  h_S10x1 : 0 < S10x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x64_S64x60_S10000x60_1_0_0_1_n_n_wf : DotDims.WF S10000x64 S64x60 S10000x60 [1] [0] [0] [1] [] []
  gather_S100000x60_S3300000x1_S3300000x60_1_0_n_n_0_1_160_wf : GatherDims.WF S100000x60 S3300000x1 S3300000x60 [1] [0] [] [0] [] 1 ![1, 60]
  scatter_S100000x60_S3300000x1_S3300000x60_1_0_0_1_wf : ScatterDims.WF S100000x60 S3300000x1 S3300000x60 [1] [0] [0] 1
  dot_S10000x60_S60x50_S10000x50_1_0_0_1_n_n_wf : DotDims.WF S10000x60 S60x50 S10000x50 [1] [0] [0] [1] [] []
  gather_S100000x50_S3300000x1_S3300000x50_1_0_n_n_0_1_150_wf : GatherDims.WF S100000x50 S3300000x1 S3300000x50 [1] [0] [] [0] [] 1 ![1, 50]
  scatter_S100000x50_S3300000x1_S3300000x50_1_0_0_1_wf : ScatterDims.WF S100000x50 S3300000x1 S3300000x50 [1] [0] [0] 1
  dot_S256x5000_S5000x50_S256x50_1_0_0_1_n_n_wf : DotDims.WF S256x5000 S5000x50 S256x50 [1] [0] [0] [1] [] []
  dot_S256x50_S50x30_S256x30_1_0_0_1_n_n_wf : DotDims.WF S256x50 S50x30 S256x30 [1] [0] [0] [1] [] []
  dot_S256x30_S30x20_S256x20_1_0_0_1_n_n_wf : DotDims.WF S256x30 S30x20 S256x20 [1] [0] [0] [1] [] []
  dot_S256x20_S20x10_S256x10_1_0_0_1_n_n_wf : DotDims.WF S256x20 S20x10 S256x10 [1] [0] [0] [1] [] []
  dot_S256x10_S10x1_S256x1_1_0_0_1_n_n_wf : DotDims.WF S256x10 S10x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x60.size a ≤ S64x60.size a
  hwx0_1 : ∀ i : grid0.Coords, EltTy.bits .f32 = 32 ∨ (Rect.block (s := S64x60) S64x60.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x60.size a ≤ S100000x60.size a
  hwx0_2 : ∀ i : grid0.Coords, EltTy.bits .f32 = 32 ∨ (Rect.block (s := S100000x60) S10000x60.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x60.size a ≤ S100000x60.size a
  hwx1_0 : ∀ i : grid1.Coords, EltTy.bits .f32 = 32 ∨ (Rect.block (s := S100000x60) S10000x60.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x60.size a ≤ S1x60.size a
  hwx1_1 : ∀ i : grid1.Coords, EltTy.bits .f32 = 32 ∨ (Rect.block (s := S1x60) S1x60.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S60x50.size a ≤ S60x50.size a
  hwx1_2 : ∀ i : grid1.Coords, EltTy.bits .f32 = 32 ∨ (Rect.block (s := S60x50) S60x50.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x50.size a ≤ S100000x50.size a
  hwx1_3 : ∀ i : grid1.Coords, EltTy.bits .f32 = 32 ∨ (Rect.block (s := S100000x50) S10000x50.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x50.size a ≤ S100000x50.size a
  hwx2_0 : ∀ i : grid2.Coords, EltTy.bits .f32 = 32 ∨ (Rect.block (s := S100000x50) S5000x50.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x50.size a ≤ S1x50.size a
  hwx2_1 : ∀ i : grid2.Coords, EltTy.bits .f32 = 32 ∨ (Rect.block (s := S1x50) S1x50.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .i32 = 32 ∨ (Rect.block (s := S100000x1) S5000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S50x30.size a ≤ S50x30.size a
  hwx2_3 : ∀ i : grid2.Coords, EltTy.bits .f32 = 32 ∨ (Rect.block (s := S50x30) S50x30.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x30.size a ≤ S1x30.size a
  hwx2_4 : ∀ i : grid2.Coords, EltTy.bits .f32 = 32 ∨ (Rect.block (s := S1x30) S1x30.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S30x20.size a ≤ S30x20.size a
  hwx2_5 : ∀ i : grid2.Coords, EltTy.bits .f32 = 32 ∨ (Rect.block (s := S30x20) S30x20.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x20.size a ≤ S1x20.size a
  hwx2_6 : ∀ i : grid2.Coords, EltTy.bits .f32 = 32 ∨ (Rect.block (s := S1x20) S1x20.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S20x10.size a ≤ S20x10.size a
  hwx2_7 : ∀ i : grid2.Coords, EltTy.bits .f32 = 32 ∨ (Rect.block (s := S20x10) S20x10.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x10.size a ≤ S1x10.size a
  hwx2_8 : ∀ i : grid2.Coords, EltTy.bits .f32 = 32 ∨ (Rect.block (s := S1x10) S1x10.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S10x1.size a ≤ S10x1.size a
  hwx2_9 : ∀ i : grid2.Coords, EltTy.bits .f32 = 32 ∨ (Rect.block (s := S10x1) S10x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x1.size a ≤ S1x1.size a
  hwx2_10 : ∀ i : grid2.Coords, EltTy.bits .f32 = 32 ∨ (Rect.block (s := S1x1) S1x1.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S256x1.size a ≤ S256x1.size a
  hwx2_11 : ∀ i : grid2.Coords, EltTy.bits .f32 = 32 ∨ (Rect.block (s := S256x1) S256x1.size (cc2_transform_11 i) (hinb2_11 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x64_S64x60_S10000x60_1_0_0_1_n_n : DotDims S10000x64 S64x60 S10000x60 where
  lhsContracting := [1]
  rhsContracting := [0]
  lhsNonContracting := [0]
  rhsNonContracting := [1]
  lhsBatch := []
  rhsBatch := []
  wf := dot_S10000x64_S64x60_S10000x60_1_0_0_1_n_n_wf
def gather_S100000x60_S3300000x1_S3300000x60_1_0_n_n_0_1_160 : GatherDims S100000x60 S3300000x1 S3300000x60 where
  offsetDims := [1]
  collapsedSliceDims := [0]
  operandBatchingDims := []
  startIndicesBatchingDims := []
  startIndexMap := [0]
  indexVectorDim := 1
  sliceSizes := ![1, 60]
  wf := gather_S100000x60_S3300000x1_S3300000x60_1_0_n_n_0_1_160_wf
def scatter_S100000x60_S3300000x1_S3300000x60_1_0_0_1 : ScatterDims S100000x60 S3300000x1 S3300000x60 where
  updateWindowDims := [1]
  insertedWindowDims := [0]
  scatterDimsToOperandDims := [0]
  indexVectorDim := 1
  wf := scatter_S100000x60_S3300000x1_S3300000x60_1_0_0_1_wf
def dot_S10000x60_S60x50_S10000x50_1_0_0_1_n_n : DotDims S10000x60 S60x50 S10000x50 where
  lhsContracting := [1]
  rhsContracting := [0]
  lhsNonContracting := [0]
  rhsNonContracting := [1]
  lhsBatch := []
  rhsBatch := []
  wf := dot_S10000x60_S60x50_S10000x50_1_0_0_1_n_n_wf
def gather_S100000x50_S3300000x1_S3300000x50_1_0_n_n_0_1_150 : GatherDims S100000x50 S3300000x1 S3300000x50 where
  offsetDims := [1]
  collapsedSliceDims := [0]
  operandBatchingDims := []
  startIndicesBatchingDims := []
  startIndexMap := [0]
  indexVectorDim := 1
  sliceSizes := ![1, 50]
  wf := gather_S100000x50_S3300000x1_S3300000x50_1_0_n_n_0_1_150_wf
def scatter_S100000x50_S3300000x1_S3300000x50_1_0_0_1 : ScatterDims S100000x50 S3300000x1 S3300000x50 where
  updateWindowDims := [1]
  insertedWindowDims := [0]
  scatterDimsToOperandDims := [0]
  indexVectorDim := 1
  wf := scatter_S100000x50_S3300000x1_S3300000x50_1_0_0_1_wf
def dot_S256x5000_S5000x50_S256x50_1_0_0_1_n_n : DotDims S256x5000 S5000x50 S256x50 where
  lhsContracting := [1]
  rhsContracting := [0]
  lhsNonContracting := [0]
  rhsNonContracting := [1]
  lhsBatch := []
  rhsBatch := []
  wf := dot_S256x5000_S5000x50_S256x50_1_0_0_1_n_n_wf
def dot_S256x50_S50x30_S256x30_1_0_0_1_n_n : DotDims S256x50 S50x30 S256x30 where
  lhsContracting := [1]
  rhsContracting := [0]
  lhsNonContracting := [0]
  rhsNonContracting := [1]
  lhsBatch := []
  rhsBatch := []
  wf := dot_S256x50_S50x30_S256x30_1_0_0_1_n_n_wf
def dot_S256x30_S30x20_S256x20_1_0_0_1_n_n : DotDims S256x30 S30x20 S256x20 where
  lhsContracting := [1]
  rhsContracting := [0]
  lhsNonContracting := [0]
  rhsNonContracting := [1]
  lhsBatch := []
  rhsBatch := []
  wf := dot_S256x30_S30x20_S256x20_1_0_0_1_n_n_wf
def dot_S256x20_S20x10_S256x10_1_0_0_1_n_n : DotDims S256x20 S20x10 S256x10 where
  lhsContracting := [1]
  rhsContracting := [0]
  lhsNonContracting := [0]
  rhsNonContracting := [1]
  lhsBatch := []
  rhsBatch := []
  wf := dot_S256x20_S20x10_S256x10_1_0_0_1_n_n_wf
def dot_S256x10_S10x1_S256x1_1_0_0_1_n_n : DotDims S256x10 S10x1 S256x1 where
  lhsContracting := [1]
  rhsContracting := [0]
  lhsNonContracting := [0]
  rhsNonContracting := [1]
  lhsBatch := []
  rhsBatch := []
  wf := dot_S256x10_S10x1_S256x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x60.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x60.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x60.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x60.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S60x50.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S10000x50.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S5000x50.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x50.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S50x30.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x30.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S30x20.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S1x20.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg11) S20x10.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v60) S1x10.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg13) S10x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v61) S1x1.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v62) S256x1.size cc2_transform_11 reads2_11 true true 1 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev idle2 : Fin 12 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k2_cond2 i == 1#1) | ⟨_ + 12, h⟩ => absurd h (Nat.not_lt.2 (Nat.le_add_left _ _))

class Facts : Prop extends Facts₀ where

variable [Facts]
-- ==== ReferenceIdeal.lean ====
abbrev S100000x64 : Shape := ⟨2, ![100000, 64]⟩
abbrev S2x3200000 : Shape := ⟨2, ![2, 3200000]⟩
abbrev S100000 : Shape := ⟨1, ![100000]⟩
abbrev S64x60 : Shape := ⟨2, ![64, 60]⟩
abbrev S60 : Shape := ⟨1, ![60]⟩
abbrev S60x50 : Shape := ⟨2, ![60, 50]⟩
abbrev S50 : Shape := ⟨1, ![50]⟩
abbrev S50x30 : Shape := ⟨2, ![50, 30]⟩
abbrev S30 : Shape := ⟨1, ![30]⟩
abbrev S30x20 : Shape := ⟨2, ![30, 20]⟩
abbrev S20 : Shape := ⟨1, ![20]⟩
abbrev S20x10 : Shape := ⟨2, ![20, 10]⟩
abbrev S10 : Shape := ⟨1, ![10]⟩
abbrev S10x1 : Shape := ⟨2, ![10, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x60 : Shape := ⟨2, ![100000, 60]⟩
abbrev S3300000x60 : Shape := ⟨2, ![3300000, 60]⟩
abbrev S1x60 : Shape := ⟨2, ![1, 60]⟩
abbrev S100000x50 : Shape := ⟨2, ![100000, 50]⟩
abbrev S3300000x50 : Shape := ⟨2, ![3300000, 50]⟩
abbrev S1x50 : Shape := ⟨2, ![1, 50]⟩
abbrev S256x50 : Shape := ⟨2, ![256, 50]⟩
abbrev S100000x1 : Shape := ⟨2, ![100000, 1]⟩
abbrev S256x30 : Shape := ⟨2, ![256, 30]⟩
abbrev S1x30 : Shape := ⟨2, ![1, 30]⟩
abbrev S256x20 : Shape := ⟨2, ![256, 20]⟩
abbrev S1x20 : Shape := ⟨2, ![1, 20]⟩
abbrev S256x10 : Shape := ⟨2, ![256, 10]⟩
abbrev S1x10 : Shape := ⟨2, ![1, 10]⟩
abbrev S256x1 : Shape := ⟨2, ![256, 1]⟩
abbrev S1x1 : Shape := ⟨2, ![1, 1]⟩

abbrev nBuf : Space → Nat
  | .hbm => 108
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S100000, .i32⟩
  | .hbm, ⟨3, _⟩ => ⟨S64x60, .f32⟩
  | .hbm, ⟨4, _⟩ => ⟨S60, .f32⟩
  | .hbm, ⟨5, _⟩ => ⟨S60x50, .f32⟩
  | .hbm, ⟨6, _⟩ => ⟨S50, .f32⟩
  | .hbm, ⟨7, _⟩ => ⟨S50x30, .f32⟩
  | .hbm, ⟨8, _⟩ => ⟨S30, .f32⟩
  | .hbm, ⟨9, _⟩ => ⟨S30x20, .f32⟩
  | .hbm, ⟨10, _⟩ => ⟨S20, .f32⟩
  | .hbm, ⟨11, _⟩ => ⟨S20x10, .f32⟩
  | .hbm, ⟨12, _⟩ => ⟨S10, .f32⟩
  | .hbm, ⟨13, _⟩ => ⟨S10x1, .f32⟩
  | .hbm, ⟨14, _⟩ => ⟨S1, .f32⟩
  | .hbm, ⟨15, _⟩ => ⟨S100000, .i32⟩
  | .hbm, ⟨16, _⟩ => ⟨S1x3200000, .i32⟩
  | .hbm, ⟨17, _⟩ => ⟨S3200000, .i32⟩
  | .hbm, ⟨18, _⟩ => ⟨S3300000, .i32⟩
  | .hbm, ⟨19, _⟩ => ⟨S1x3200000, .i32⟩
  | .hbm, ⟨20, _⟩ => ⟨S3200000, .i32⟩
  | .hbm, ⟨21, _⟩ => ⟨S3300000, .i32⟩
  | .hbm, ⟨22, _⟩ => ⟨S_, .f32⟩
  | .hbm, ⟨23, _⟩ => ⟨S3300000, .f32⟩
  | .hbm, ⟨24, _⟩ => ⟨S_, .f32⟩
  | .hbm, ⟨25, _⟩ => ⟨S100000, .f32⟩
  | .hbm, ⟨26, _⟩ => ⟨S3300000x1, .i32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x60, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x60, .f32⟩
  | .hbm, ⟨58, _⟩ => ⟨S3300000x1, .f32⟩
  | .hbm, ⟨59, _⟩ => ⟨S3300000x60, .f32⟩
  | .hbm, ⟨60, _⟩ => ⟨S3300000x60, .f32⟩
  | .hbm, ⟨61, _⟩ => ⟨S_, .f32⟩
  | .hbm, ⟨62, _⟩ => ⟨S100000x60, .f32⟩
  | .hbm, ⟨63, _⟩ => ⟨S3300000x1, .i32⟩
  | .hbm, ⟨64, _⟩ => ⟨S100000x60, .f32⟩
  | .hbm, ⟨65, _⟩ => ⟨S1x60, .f32⟩
  | .hbm, ⟨66, _⟩ => ⟨S100000x60, .f32⟩
  | .hbm, ⟨67, _⟩ => ⟨S100000x60, .f32⟩
  | .hbm, ⟨68, _⟩ => ⟨S100000x50, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x50, .f32⟩
  | .hbm, ⟨78, _⟩ => ⟨S3300000x1, .f32⟩
  | .hbm, ⟨79, _⟩ => ⟨S3300000x50, .f32⟩
  | .hbm, ⟨80, _⟩ => ⟨S3300000x50, .f32⟩
  | .hbm, ⟨81, _⟩ => ⟨S_, .f32⟩
  | .hbm, ⟨82, _⟩ => ⟨S100000x50, .f32⟩
  | .hbm, ⟨83, _⟩ => ⟨S3300000x1, .i32⟩
  | .hbm, ⟨84, _⟩ => ⟨S100000x50, .f32⟩
  | .hbm, ⟨85, _⟩ => ⟨S1x50, .f32⟩
  | .hbm, ⟨86, _⟩ => ⟨S100000x50, .f32⟩
  | .hbm, ⟨87, _⟩ => ⟨S100000x50, .f32⟩
  | .hbm, ⟨88, _⟩ => ⟨S_, .f32⟩
  | .hbm, ⟨89, _⟩ => ⟨S256x50, .f32⟩
  | .hbm, ⟨90, _⟩ => ⟨S100000x1, .i32⟩
  | .hbm, ⟨91, _⟩ => ⟨S256x50, .f32⟩
  | .hbm, ⟨92, _⟩ => ⟨S256x30, .f32⟩
  | .hbm, ⟨93, _⟩ => ⟨S1x30, .f32⟩
  | .hbm, ⟨94, _⟩ => ⟨S256x30, .f32⟩
  | .hbm, ⟨95, _⟩ => ⟨S256x30, .f32⟩
  | .hbm, ⟨96, _⟩ => ⟨S256x20, .f32⟩
  | .hbm, ⟨97, _⟩ => ⟨S1x20, .f32⟩
  | .hbm, ⟨98, _⟩ => ⟨S256x20, .f32⟩
  | .hbm, ⟨99, _⟩ => ⟨S256x20, .f32⟩
  | .hbm, ⟨100, _⟩ => ⟨S256x10, .f32⟩
  | .hbm, ⟨101, _⟩ => ⟨S1x10, .f32⟩
  | .hbm, ⟨102, _⟩ => ⟨S256x10, .f32⟩
  | .hbm, ⟨103, _⟩ => ⟨S256x10, .f32⟩
  | .hbm, ⟨104, _⟩ => ⟨S256x1, .f32⟩
  | .hbm, ⟨105, _⟩ => ⟨S1x1, .f32⟩
  | .hbm, ⟨106, _⟩ => ⟨S256x1, .f32⟩
  | .hbm, ⟨107, _⟩ => ⟨S256x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_7 : Ref sig .tc := ⟨.hbm, 69, rfl⟩
abbrev main_v45 : Ref sig .tc := ⟨.hbm, 70, rfl⟩
abbrev main_v46 : Ref sig .tc := ⟨.hbm, 71, rfl⟩
abbrev main_c_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_10 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x60_0_1 : S3300000x1.BroadcastsInDim S3300000x60 (![0, 1] : Fin 2 → Fin S3300000x60.rank)
  bcast_S_S100000x60 : S_.BroadcastsInDim S100000x60 (![] : Fin 0 → Fin S100000x60.rank)
  bcast_S60_S1x60_1 : S60.BroadcastsInDim S1x60 (![1] : Fin 1 → Fin S1x60.rank)
  bcast_S1x60_S100000x60_0_1 : S1x60.BroadcastsInDim S100000x60 (![0, 1] : Fin 2 → Fin S100000x60.rank)
  bcast_S3300000x1_S3300000x50_0_1 : S3300000x1.BroadcastsInDim S3300000x50 (![0, 1] : Fin 2 → Fin S3300000x50.rank)
  bcast_S_S100000x50 : S_.BroadcastsInDim S100000x50 (![] : Fin 0 → Fin S100000x50.rank)
  bcast_S50_S1x50_1 : S50.BroadcastsInDim S1x50 (![1] : Fin 1 → Fin S1x50.rank)
  bcast_S1x50_S100000x50_0_1 : S1x50.BroadcastsInDim S100000x50 (![0, 1] : Fin 2 → Fin S100000x50.rank)
  bcast_S_S256x50 : S_.BroadcastsInDim S256x50 (![] : Fin 0 → Fin S256x50.rank)
  bcast_S100000_S100000x1_0 : S100000.BroadcastsInDim S100000x1 (![0] : Fin 1 → Fin S100000x1.rank)
  bcast_S30_S1x30_1 : S30.BroadcastsInDim S1x30 (![1] : Fin 1 → Fin S1x30.rank)
  bcast_S1x30_S256x30_0_1 : S1x30.BroadcastsInDim S256x30 (![0, 1] : Fin 2 → Fin S256x30.rank)
  bcast_S20_S1x20_1 : S20.BroadcastsInDim S1x20 (![1] : Fin 1 → Fin S1x20.rank)
  bcast_S1x20_S256x20_0_1 : S1x20.BroadcastsInDim S256x20 (![0, 1] : Fin 2 → Fin S256x20.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x64_S64x60_S100000x60_1_0_0_1_n_n_wf : DotDims.WF S100000x64 S64x60 S100000x60 [1] [0] [0] [1] [] []
  gather_S100000x60_S3300000x1_S3300000x60_1_0_n_n_0_1_160_wf : GatherDims.WF S100000x60 S3300000x1 S3300000x60 [1] [0] [] [0] [] 1 ![1, 60]
  scatter_S100000x60_S3300000x1_S3300000x60_1_0_0_1_wf : ScatterDims.WF S100000x60 S3300000x1 S3300000x60 [1] [0] [0] 1
  dot_S100000x60_S60x50_S100000x50_1_0_0_1_n_n_wf : DotDims.WF S100000x60 S60x50 S100000x50 [1] [0] [0] [1] [] []
  gather_S100000x50_S3300000x1_S3300000x50_1_0_n_n_0_1_150_wf : GatherDims.WF S100000x50 S3300000x1 S3300000x50 [1] [0] [] [0] [] 1 ![1, 50]
  scatter_S100000x50_S3300000x1_S3300000x50_1_0_0_1_wf : ScatterDims.WF S100000x50 S3300000x1 S3300000x50 [1] [0] [0] 1
  scatter_S256x50_S100000x1_S100000x50_1_0_0_1_wf : ScatterDims.WF S256x50 S100000x1 S100000x50 [1] [0] [0] 1
  dot_S256x50_S50x30_S256x30_1_0_0_1_n_n_wf : DotDims.WF S256x50 S50x30 S256x30 [1] [0] [0] [1] [] []
  dot_S256x30_S30x20_S256x20_1_0_0_1_n_n_wf : DotDims.WF S256x30 S30x20 S256x20 [1] [0] [0] [1] [] []
  dot_S256x20_S20x10_S256x10_1_0_0_1_n_n_wf : DotDims.WF S256x20 S20x10 S256x10 [1] [0] [0] [1] [] []
  dot_S256x10_S10x1_S256x1_1_0_0_1_n_n_wf : DotDims.WF S256x10 S10x1 S256x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x64_S64x60_S100000x60_1_0_0_1_n_n : DotDims S100000x64 S64x60 S100000x60 where
  lhsContracting := [1]
  rhsContracting := [0]
  lhsNonContracting := [0]
  rhsNonContracting := [1]
  lhsBatch := []
  rhsBatch := []
  wf := dot_S100000x64_S64x60_S100000x60_1_0_0_1_n_n_wf
def gather_S100000x60_S3300000x1_S3300000x60_1_0_n_n_0_1_160 : GatherDims S100000x60 S3300000x1 S3300000x60 where
  offsetDims := [1]
  collapsedSliceDims := [0]
  operandBatchingDims := []
  startIndicesBatchingDims := []
  startIndexMap := [0]
  indexVectorDim := 1
  sliceSizes := ![1, 60]
  wf := gather_S100000x60_S3300000x1_S3300000x60_1_0_n_n_0_1_160_wf
def scatter_S100000x60_S3300000x1_S3300000x60_1_0_0_1 : ScatterDims S100000x60 S3300000x1 S3300000x60 where
  updateWindowDims := [1]
  insertedWindowDims := [0]
  scatterDimsToOperandDims := [0]
  indexVectorDim := 1
  wf := scatter_S100000x60_S3300000x1_S3300000x60_1_0_0_1_wf
def dot_S100000x60_S60x50_S100000x50_1_0_0_1_n_n : DotDims S100000x60 S60x50 S100000x50 where
  lhsContracting := [1]
  rhsContracting := [0]
  lhsNonContracting := [0]
  rhsNonContracting := [1]
  lhsBatch := []
  rhsBatch := []
  wf := dot_S100000x60_S60x50_S100000x50_1_0_0_1_n_n_wf
def gather_S100000x50_S3300000x1_S3300000x50_1_0_n_n_0_1_150 : GatherDims S100000x50 S3300000x1 S3300000x50 where
  offsetDims := [1]
  collapsedSliceDims := [0]
  operandBatchingDims := []
  startIndicesBatchingDims := []
  startIndexMap := [0]
  indexVectorDim := 1
  sliceSizes := ![1, 50]
  wf := gather_S100000x50_S3300000x1_S3300000x50_1_0_n_n_0_1_150_wf
def scatter_S100000x50_S3300000x1_S3300000x50_1_0_0_1 : ScatterDims S100000x50 S3300000x1 S3300000x50 where
  updateWindowDims := [1]
  insertedWindowDims := [0]
  scatterDimsToOperandDims := [0]
  indexVectorDim := 1
  wf := scatter_S100000x50_S3300000x1_S3300000x50_1_0_0_1_wf
def scatter_S256x50_S100000x1_S100000x50_1_0_0_1 : ScatterDims S256x50 S100000x1 S100000x50 where
  updateWindowDims := [1]
  insertedWindowDims := [0]
  scatterDimsToOperandDims := [0]
  indexVectorDim := 1
  wf := scatter_S256x50_S100000x1_S100000x50_1_0_0_1_wf
def dot_S256x50_S50x30_S256x30_1_0_0_1_n_n : DotDims S256x50 S50x30 S256x30 where
  lhsContracting := [1]
  rhsContracting := [0]
  lhsNonContracting := [0]
  rhsNonContracting := [1]
  lhsBatch := []
  rhsBatch := []
  wf := dot_S256x50_S50x30_S256x30_1_0_0_1_n_n_wf
def dot_S256x30_S30x20_S256x20_1_0_0_1_n_n : DotDims S256x30 S30x20 S256x20 where
  lhsContracting := [1]
  rhsContracting := [0]
  lhsNonContracting := [0]
  rhsNonContracting := [1]
  lhsBatch := []
  rhsBatch := []
  wf := dot_S256x30_S30x20_S256x20_1_0_0_1_n_n_wf
def dot_S256x20_S20x10_S256x10_1_0_0_1_n_n : DotDims S256x20 S20x10 S256x10 where
  lhsContracting := [1]
  rhsContracting := [0]
  lhsNonContracting := [0]
  rhsNonContracting := [1]
  lhsBatch := []
  rhsBatch := []
  wf := dot_S256x20_S20x10_S256x10_1_0_0_1_n_n_wf
def dot_S256x10_S10x1_S256x1_1_0_0_1_n_n : DotDims S256x10 S10x1 S256x1 where
  lhsContracting := [1]
  rhsContracting := [0]
  lhsNonContracting := [0]
  rhsNonContracting := [1]
  lhsBatch := []
  rhsBatch := []
  wf := dot_S256x10_S10x1_S256x1_1_0_0_1_n_n_wf

class Facts : Prop extends Facts₀ where

variable [Facts]
-- ==== Proof.Kernel.R0.lean ====
/- The first launch: a row-blocked product of the node features with the first layer's weights.
   The grid walks ten blocks of 10000 rows; at each point the body reads the block of 10000 × 64 features and the whole
   64 × 60 weight matrix and overwrites the output block of 10000 × 60 with their product into a zero accumulator.
   This module states, at any contents `V` of the buffers when the launch is entered, what each window's staging
   buffer holds after the body at each point, and proves the body's obligation against it. -/
import proofs.«415449_j35734127903067_1_alg».proof.Proof.Gen.Kernel.Launch
import proofs.«415449_j35734127903067_1_alg».proof.Proof.Gen.Kernel.Skeleton
import proofs.«415449_j35734127903067_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the whole weight matrix at every point: it is fetched once and its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The whole output block, the one rectangle the body stores through. -/
abbrev rOut0 : Rect S10000x60 := Rect.unit (s := S10000x60) ![0, 0] S10000x60.size inb_S10000x60_S10000x60_0_0

/-- The whole feature block and the whole weight matrix, the rectangles the body loads through. -/
abbrev rIn0_0 : Rect S10000x64 := Rect.unit (s := S10000x64) ![0, 0] S10000x64.size inb_S10000x64_S10000x64_0_0
abbrev rIn0_1 : Rect S64x60 := Rect.unit (s := S64x60) ![0, 0] S64x60.size inb_S64x60_S64x60_0_0

/-- The output block after the body: the product of the feature block with the weights, stored whole. -/
def out0_2 (x0 : Vec F S10000x64 .f32) (x1 : Vec F S64x60 .f32) : Vec F S10000x60 .f32 :=
  View.canon [⟨rOut0, k0_pay1 (View.ld x0 rIn0_0) (View.ld x1 rIn0_1)⟩]

/-- The one store covers the block. -/
theorem cover0_2 (p0 : Vec F S10000x60 .f32) (y : S10000x60.Idx) :
    ∃ pc ∈ ([⟨rOut0, p0⟩] : List (View.Piece (Elt F) S10000x60 .f32)), y ∈ pc.1.set :=
  View.cover_of_tiled [⟨rOut0, p0⟩] S10000x60.size (by rfl) y

/-! ## The body's triple -/

set_option maxHeartbeats 1000000 in
/-- On whole staging memrefs holding a feature block `x0` and the weights `x1`, the output's holding anything, the body runs
    and leaves the inputs as they were and the output at `out0_2 x0 x1`. -/
theorem sound_kernel0 (c : Dev nD) (E : Set ℕ) (i : grid0.Coords)
    (arg1 : Memref sig .tc .vmem S10000x64 .f32) (harg1 : arg1.IsWhole) (arg2 : Memref sig .tc .vmem S64x60 .f32) (harg2 : arg2.IsWhole)
    (arg3 : Memref sig .tc .vmem S10000x60 .f32) (harg3 : arg3.IsWhole)
    (x0 : Vec F S10000x64 .f32) (x1 : Vec F S64x60 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The launch's proof data -/

/-- After the body at point `t` each input's buffer holds its block and the output's the product of the two; the launch
    keeps no state of its own between points and owes nothing. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.R1.lean ====
/- The second launch: the second layer's feature product, with the first layer's bias folded into its input.
   The grid walks ten blocks of 10000 rows; at each point the body reads a block of 10000 × 60 aggregated features, the
   1 × 60 bias row and the whole 60 × 50 weight matrix, adds the bias to every row of the block and overwrites the output
   block of 10000 × 50 with the product of that sum and the weights into a zero accumulator.
   This module states, at any contents `V` of the buffers when the launch is entered, what each window's staging
   buffer holds after the body at each point, and proves the body's obligation against it. -/
import proofs.«415449_j35734127903067_1_alg».proof.Proof.Gen.Kernel.Launch
import proofs.«415449_j35734127903067_1_alg».proof.Proof.Gen.Kernel.Skeleton
import proofs.«415449_j35734127903067_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias window's buffer holds the bias row at every point: fetched once, its index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The weight window's buffer holds the whole weight matrix at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The whole output block, the one rectangle the body stores through. -/
abbrev rOut1 : Rect S10000x50 := Rect.unit (s := S10000x50) ![0, 0] S10000x50.size inb_S10000x50_S10000x50_0_0

/-- The whole feature block, bias row and weight matrix, the rectangles the body loads through. -/
abbrev rIn1_0 : Rect S10000x60 := Rect.unit (s := S10000x60) ![0, 0] S10000x60.size inb_S10000x60_S10000x60_0_0
abbrev rIn1_1 : Rect S1x60 := Rect.unit (s := S1x60) ![0, 0] S1x60.size inb_S1x60_S1x60_0_0
abbrev rIn1_2 : Rect S60x50 := Rect.unit (s := S60x50) ![0, 0] S60x50.size inb_S60x50_S60x50_0_0

/-- The output block after the body: (block + bias row) times the weights, stored whole. -/
def out1_3 (x0 : Vec F S10000x60 .f32) (x1 : Vec F S1x60 .f32) (x2 : Vec F S60x50 .f32) : Vec F S10000x50 .f32 :=
  View.canon [⟨rOut1, k1_pay1 (View.ld x0 rIn1_0) (View.ld x1 rIn1_1) (View.ld x2 rIn1_2)⟩]

/-- The one store covers the block. -/
theorem cover1_3 (p0 : Vec F S10000x50 .f32) (y : S10000x50.Idx) :
    ∃ pc ∈ ([⟨rOut1, p0⟩] : List (View.Piece (Elt F) S10000x50 .f32)), y ∈ pc.1.set :=
  View.cover_of_tiled [⟨rOut1, p0⟩] S10000x50.size (by rfl) y

/-! ## The body's triple -/

set_option maxHeartbeats 1000000 in
/-- On whole staging memrefs holding a feature block `x0`, the bias row `x1` and the weights `x2`, the output's holding
    anything, the body runs and leaves the inputs as they were and the output at `out1_3 x0 x1 x2`. -/
theorem sound_kernel1 (c : Dev nD) (E : Set ℕ) (i : grid1.Coords)
    (arg1 : Memref sig .tc .vmem S10000x60 .f32) (harg1 : arg1.IsWhole) (arg2 : Memref sig .tc .vmem S1x60 .f32) (harg2 : arg2.IsWhole)
    (arg3 : Memref sig .tc .vmem S60x50 .f32) (harg3 : arg3.IsWhole) (arg4 : Memref sig .tc .vmem S10000x50 .f32) (harg4 : arg4.IsWhole)
    (x0 : Vec F S10000x60 .f32) (x1 : Vec F S1x60 .f32) (x2 : Vec F S60x50 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__matmul_bias_kernel i arg1 harg1 arg2 harg2 arg3 harg3 arg4 harg4) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The launch's proof data -/

/-- After the body at point `t` each input's buffer holds its block and the output's the biased block times the weights;
    the launch keeps no state of its own between points and owes nothing. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.R2.lean ====
/- The third launch: sum-pooling of the node rows by graph id, then a small linear stack.
   The grid walks twenty blocks of 5000 nodes. At each point the body reads the block of 5000 × 50 rows, the 1 × 50 bias and
   the block of 5000 ids, forms the 256 × 5000 indicator matrix of the ids (rounded to bf16), multiplies it with the biased
   rows (rounded to bf16) and adds the 256 × 50 product to an accumulator it keeps in a scratch buffer of its own between
   points; at the first point it zeroes the accumulator first, and at the last point it pushes the accumulated sums through
   four affine layers (weights 50 × 30, 30 × 20, 20 × 10, 10 × 1 with their biases) and overwrites the 256 × 1 output block,
   which it leaves alone at every other point.
   This module states, at any contents `V` of the buffers when the launch is entered, what the accumulator holds after each
   point (by recursion on the point) and what the output block holds after the last, and proves the body's obligation
   against it: the invariant between points is the accumulator at the recursion's value. -/
import proofs.«415449_j35734127903067_1_alg».proof.Proof.Gen.Kernel.Launch
import proofs.«415449_j35734127903067_1_alg».proof.Proof.Gen.Kernel.Skeleton
import proofs.«415449_j35734127903067_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's two conditionals -/

/-- The first conditional's test: whether the grid coordinate is zero, as the body computes it. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)
/-- The second conditional's test: whether the grid coordinate is the last. -/
abbrev cond2_1 (i : grid2.Coords) : Prop := k2_cond2 i = 1#1
/-- It holds at the last point only. -/
theorem hcond2_1 : ∀ t : Fin cfg2.N, cond2_1 (grid2.coords t) ↔ t.val = 19 :=
  (by decide +kernel : ∀ t : Fin grid2.N, cond2_1 (grid2.coords t) ↔ t.val = 19)

/-! ## Whole-buffer accesses -/

/-- The offsets of a whole-buffer access are zero. -/
theorem off00 : (![0, 0] : Fin 2 → ℕ) = fun _ => 0 := by funext a; fin_cases a <;> rfl

/-- A load through the whole shape reads the contents. -/
theorem readAt_whole {sg : RefSig} {κ : Kind} {sp : Space} {S : Shape} {e : EltTy} (v : View sg κ sp S e) {off : Fin S.rank → ℕ}
    (h : off = fun _ => 0) (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

/-- After a last store through the whole shape the buffer reads the stored value, whatever was stored before. -/
theorem read_writes_whole_last {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self .., View.mem_set_unit_zero h inb y⟩)).trans
    (View.canon_cons_unit_zero h inb w L)

/-! ## The body's triple, case by case -/

set_option maxHeartbeats 1000000 in
/-- At the first point: on whole memrefs holding a node block `x0`, the bias `x1` and the id block `x2`, the scratch holding
    anything, the body zeroes the scratch, adds the block's pooled rows to it, and leaves the three inputs as they were. -/
theorem sound_kernel2_A (c : Dev nD) (E : Set ℕ) (i : grid2.Coords) (hc0 : cond2_0 i) (hc1 : ¬cond2_1 i)
    (arg1 : Memref sig .tc .vmem S5000x50 .f32) (harg1 : arg1.IsWhole) (arg2 : Memref sig .tc .vmem S1x50 .f32) (harg2 : arg2.IsWhole) (arg3 : Memref sig .tc .vmem S5000x1 .i32) (harg3 : arg3.IsWhole) (arg4 : Memref sig .tc .vmem S50x30 .f32) (harg4 : arg4.IsWhole) (arg5 : Memref sig .tc .vmem S1x30 .f32) (harg5 : arg5.IsWhole) (arg6 : Memref sig .tc .vmem S30x20 .f32) (harg6 : arg6.IsWhole) (arg7 : Memref sig .tc .vmem S1x20 .f32) (harg7 : arg7.IsWhole) (arg8 : Memref sig .tc .vmem S20x10 .f32) (harg8 : arg8.IsWhole) (arg9 : Memref sig .tc .vmem S1x10 .f32) (harg9 : arg9.IsWhole) (arg10 : Memref sig .tc .vmem S10x1 .f32) (harg10 : arg10.IsWhole) (arg11 : Memref sig .tc .vmem S1x1 .f32) (harg11 : arg11.IsWhole) (arg12 : Memref sig .tc .vmem S256x1 .f32) (harg12 : arg12.IsWhole) (arg13 : Memref sig .tc .vmem S256x50 .f32) (harg13 : arg13.IsWhole)
    (x0 : Vec F S5000x50 .f32) (x1 : Vec F S1x50 .f32) (x2 : Vec F S5000x1 .i32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg13 fullShare (k2_pay2 x0 x1 x2 (k2_pay1 (F := F)))) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9 arg10 harg10 arg11 harg11 arg12 harg12 arg13 harg13) K := by
  simp only [cc2__pool_mlp_kernel_eq_skeleton]; unfold cc2__pool_mlp_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole_last _ _ off00, readAt_whole (F := F) arg1.view off00 inb_S5000x50_S5000x50_0_0 f0, readAt_whole (F := F) arg2.view off00 inb_S1x50_S1x50_0_0 f1, readAt_whole (F := F) arg3.view off00 inb_S5000x1_S5000x1_0_0 f2,
    View.readCov_unit_zero _ off00]

set_option maxHeartbeats 1000000 in
/-- At a point after the first: the scratch holding `acc`, the body adds the block's pooled rows to it. -/
theorem sound_kernel2_B (c : Dev nD) (E : Set ℕ) (i : grid2.Coords) (hc0 : ¬cond2_0 i) (hc1 : ¬cond2_1 i)
    (arg1 : Memref sig .tc .vmem S5000x50 .f32) (harg1 : arg1.IsWhole) (arg2 : Memref sig .tc .vmem S1x50 .f32) (harg2 : arg2.IsWhole) (arg3 : Memref sig .tc .vmem S5000x1 .i32) (harg3 : arg3.IsWhole) (arg4 : Memref sig .tc .vmem S50x30 .f32) (harg4 : arg4.IsWhole) (arg5 : Memref sig .tc .vmem S1x30 .f32) (harg5 : arg5.IsWhole) (arg6 : Memref sig .tc .vmem S30x20 .f32) (harg6 : arg6.IsWhole) (arg7 : Memref sig .tc .vmem S1x20 .f32) (harg7 : arg7.IsWhole) (arg8 : Memref sig .tc .vmem S20x10 .f32) (harg8 : arg8.IsWhole) (arg9 : Memref sig .tc .vmem S1x10 .f32) (harg9 : arg9.IsWhole) (arg10 : Memref sig .tc .vmem S10x1 .f32) (harg10 : arg10.IsWhole) (arg11 : Memref sig .tc .vmem S1x1 .f32) (harg11 : arg11.IsWhole) (arg12 : Memref sig .tc .vmem S256x1 .f32) (harg12 : arg12.IsWhole) (arg13 : Memref sig .tc .vmem S256x50 .f32) (harg13 : arg13.IsWhole)
    (x0 : Vec F S5000x50 .f32) (x1 : Vec F S1x50 .f32) (x2 : Vec F S5000x1 .i32) (acc : Vec F S256x50 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg13 fullShare acc
        ∗ (iprop(owns (c : Thread nD τ) arg1 fullShare x0 ∗ owns (c : Thread nD τ) arg2 fullShare x1 ∗ owns (c : Thread nD τ) arg3 fullShare x2 ∗ owns (c : Thread nD τ) arg13 fullShare (k2_pay2 x0 x1 x2 acc)) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9 arg10 harg10 arg11 harg11 arg12 harg12 arg13 harg13) K := by
  simp only [cc2__pool_mlp_kernel_eq_skeleton]; unfold cc2__pool_mlp_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [read_writes_whole_last _ _ off00, readAt_whole (F := F) arg1.view off00 inb_S5000x50_S5000x50_0_0 f0, readAt_whole (F := F) arg2.view off00 inb_S1x50_S1x50_0_0 f1, readAt_whole (F := F) arg3.view off00 inb_S5000x1_S5000x1_0_0 f2, readAt_whole (F := F) arg13.view off00 inb_S256x50_S256x50_0_0 fs]

set_option maxHeartbeats 2000000 in
/-- At the last point: the scratch holding `acc`, the body adds the block's pooled rows to it and then overwrites the output
    block with the linear stack of the sum and the eight small operands, all inputs left as they were. -/
theorem sound_kernel2_C (c : Dev nD) (E : Set ℕ) (i : grid2.Coords) (hc0 : ¬cond2_0 i) (hc1 : cond2_1 i)
    (arg1 : Memref sig .tc .vmem S5000x50 .f32) (harg1 : arg1.IsWhole) (arg2 : Memref sig .tc .vmem S1x50 .f32) (harg2 : arg2.IsWhole) (arg3 : Memref sig .tc .vmem S5000x1 .i32) (harg3 : arg3.IsWhole) (arg4 : Memref sig .tc .vmem S50x30 .f32) (harg4 : arg4.IsWhole) (arg5 : Memref sig .tc .vmem S1x30 .f32) (harg5 : arg5.IsWhole) (arg6 : Memref sig .tc .vmem S30x20 .f32) (harg6 : arg6.IsWhole) (arg7 : Memref sig .tc .vmem S1x20 .f32) (harg7 : arg7.IsWhole) (arg8 : Memref sig .tc .vmem S20x10 .f32) (harg8 : arg8.IsWhole) (arg9 : Memref sig .tc .vmem S1x10 .f32) (harg9 : arg9.IsWhole) (arg10 : Memref sig .tc .vmem S10x1 .f32) (harg10 : arg10.IsWhole) (arg11 : Memref sig .tc .vmem S1x1 .f32) (harg11 : arg11.IsWhole) (arg12 : Memref sig .tc .vmem S256x1 .f32) (harg12 : arg12.IsWhole) (arg13 : Memref sig .tc .vmem S256x50 .f32) (harg13 : arg13.IsWhole)
    (x0 : Vec F S5000x50 .f32) (x1 : Vec F S1x50 .f32) (x2 : Vec F S5000x1 .i32) (x3 : Vec F S50x30 .f32) (x4 : Vec F S1x30 .f32) (x5 : Vec F S30x20 .f32) (x6 : Vec F S1x20 .f32) (x7 : Vec F S20x10 .f32) (x8 : Vec F S1x10 .f32) (x9 : Vec F S10x1 .f32) (x10 : Vec F S1x1 .f32) (acc : Vec F S256x50 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare acc
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (k2_pay3 (k2_pay2 x0 x1 x2 acc) x3 x4 x5 x6 x7 x8 x9 x10) ∗ owns (c : Thread nD τ) arg13 fullShare (k2_pay2 x0 x1 x2 acc)) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9 arg10 harg10 arg11 harg11 arg12 harg12 arg13 harg13) K := by
  simp only [cc2__pool_mlp_kernel_eq_skeleton]; unfold cc2__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs, %hfs, HS⟩, Hk⟩
  subst hf0; subst hf1; subst hf2; subst hf3; subst hf4; subst hf5; subst hf6; subst hf7; subst hf8; subst hf9; subst hf10; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  have eS : arg13.view.read (Elt F) (arg13.view.writes (Elt F) fs
      [⟨Rect.unit ![0, 0] S256x50.size inb_S256x50_S256x50_0_0,
        k2_pay2 (View.readAt (Elt F) arg1.view (Rect.unit ![0, 0] S5000x50.size inb_S5000x50_S5000x50_0_0).toLoadRect f0)
          (View.readAt (Elt F) arg2.view (Rect.unit ![0, 0] S1x50.size inb_S1x50_S1x50_0_0).toLoadRect f1)
          (View.readAt (Elt F) arg3.view (Rect.unit ![0, 0] S5000x1.size inb_S5000x1_S5000x1_0_0).toLoadRect f2)
          (View.readAt (Elt F) arg13.view (Rect.unit ![0, 0] S256x50.size inb_S256x50_S256x50_0_0).toLoadRect fs)⟩])
      = k2_pay2 (arg1.view.read (Elt F) f0) (arg2.view.read (Elt F) f1) (arg3.view.read (Elt F) f2) (arg13.view.read (Elt F) fs) := by
    rw [read_writes_whole_last _ _ off00, readAt_whole (F := F) arg1.view off00 inb_S5000x50_S5000x50_0_0 f0, readAt_whole (F := F) arg2.view off00 inb_S1x50_S1x50_0_0 f1, readAt_whole (F := F) arg3.view off00 inb_S5000x1_S5000x1_0_0 f2, readAt_whole (F := F) arg13.view off00 inb_S256x50_S256x50_0_0 fs]
  isplitl [H11]
  · iexists _; isplitr
    swap; · iexact H11
    ipureintro
    sl_unfold_run_names
    rw [read_writes_whole_last _ _ off00, View.readCov_unit_zero _ off00, readAt_whole (F := F) arg4.view off00 inb_S50x30_S50x30_0_0 f3, readAt_whole (F := F) arg5.view off00 inb_S1x30_S1x30_0_0 f4, readAt_whole (F := F) arg6.view off00 inb_S30x20_S30x20_0_0 f5, readAt_whole (F := F) arg7.view off00 inb_S1x20_S1x20_0_0 f6, readAt_whole (F := F) arg8.view off00 inb_S20x10_S20x10_0_0 f7, readAt_whole (F := F) arg9.view off00 inb_S1x10_S1x10_0_0 f8, readAt_whole (F := F) arg10.view off00 inb_S10x1_S10x1_0_0 f9, readAt_whole (F := F) arg11.view off00 inb_S1x1_S1x1_0_0 f10,
      readAt_whole (F := F) arg1.view off00 inb_S5000x50_S5000x50_0_0 f0, readAt_whole (F := F) arg2.view off00 inb_S1x50_S1x50_0_0 f1, readAt_whole (F := F) arg3.view off00 inb_S5000x1_S5000x1_0_0 f2, readAt_whole (F := F) arg13.view off00 inb_S256x50_S256x50_0_0 fs]
  iexists _; isplitr
  swap; · iexact HS
  ipureintro
  sl_unfold_run_names
  exact eS

/-! ## The windows' blocks -/

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The node-row window's buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The row-bias window's buffer holds its block at every point: it is fetched once and its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The id window's buffer holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The first weight window's buffer holds its block at every point: it is fetched once and its index never moves. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The first bias window's buffer holds its block at every point: it is fetched once and its index never moves. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The second weight window's buffer holds its block at every point: it is fetched once and its index never moves. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The second bias window's buffer holds its block at every point: it is fetched once and its index never moves. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The third weight window's buffer holds its block at every point: it is fetched once and its index never moves. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- The third bias window's buffer holds its block at every point: it is fetched once and its index never moves. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The fourth weight window's buffer holds its block at every point: it is fetched once and its index never moves. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- The fourth bias window's buffer holds its block at every point: it is fetched once and its index never moves. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-! ## What the accumulator and the output hold -/

/-- the scratch after the body at position n: zeros accumulated with points 0..n -/
def accAt2 (c : Dev nD) : (n : ℕ) → n < cfg2.N → Vec F S256x50 .f32
  | 0, h => k2_pay2 (iblk2 V c 0 ⟨0, h⟩) (iblk2 V c 1 ⟨0, h⟩) (iblk2 V c 2 ⟨0, h⟩) (k2_pay1 (F := F))
  | n + 1, h => k2_pay2 (iblk2 V c 0 ⟨n + 1, h⟩) (iblk2 V c 1 ⟨n + 1, h⟩) (iblk2 V c 2 ⟨n + 1, h⟩) (accAt2 c n (Nat.lt_of_succ_lt h))

theorem accAt2_zero (c : Dev nD) (h : 0 < cfg2.N) :
    accAt2 V c 0 h = k2_pay2 (iblk2 V c 0 ⟨0, h⟩) (iblk2 V c 1 ⟨0, h⟩) (iblk2 V c 2 ⟨0, h⟩) (k2_pay1 (F := F)) := rfl

theorem accAt2_succ (c : Dev nD) (n : ℕ) (h : n + 1 < cfg2.N) :
    accAt2 V c (n + 1) h = k2_pay2 (iblk2 V c 0 ⟨n + 1, h⟩) (iblk2 V c 1 ⟨n + 1, h⟩) (iblk2 V c 2 ⟨n + 1, h⟩) (accAt2 V c n (Nat.lt_of_succ_lt h)) := rfl

/-- At the first point the accumulator is the block's pooled rows over zeros. -/
theorem accAt2_first (c : Dev nD) (t : Fin cfg2.N) (h0 : t.val = 0) :
    accAt2 V c t.val t.isLt = k2_pay2 (iblk2 V c 0 t) (iblk2 V c 1 t) (iblk2 V c 2 t) (k2_pay1 (F := F)) := by
  obtain ⟨n, hn⟩ := t
  cases n with
  | zero => rfl
  | succ n => exact absurd h0 (Nat.succ_ne_zero n)

/-- At a later point it is the block's pooled rows over what the point before left. -/
theorem accAt2_later (c : Dev nD) (t : Fin cfg2.N) (h0 : t.val ≠ 0) :
    accAt2 V c t.val t.isLt = k2_pay2 (iblk2 V c 0 t) (iblk2 V c 1 t) (iblk2 V c 2 t)
      (accAt2 V c (t.val - 1) (Nat.lt_of_le_of_lt (Nat.sub_le _ _) t.isLt)) := by
  obtain ⟨n, hn⟩ := t
  cases n with
  | zero => exact absurd rfl h0
  | succ n => rfl

/-- The grid's last position. -/
theorem lt19 : 19 < cfg2.N := by rw [show cfg2.N = 20 from N_2]; decide

/-- the output block after the last point -/
def outLast2 (c : Dev nD) : Vec F S256x1 .f32 :=
  k2_pay3 (accAt2 V c 19 lt19) (iblk2 V c 3 ⟨19, lt19⟩) (iblk2 V c 4 ⟨19, lt19⟩) (iblk2 V c 5 ⟨19, lt19⟩) (iblk2 V c 6 ⟨19, lt19⟩) (iblk2 V c 7 ⟨19, lt19⟩) (iblk2 V c 8 ⟨19, lt19⟩) (iblk2 V c 9 ⟨19, lt19⟩) (iblk2 V c 10 ⟨19, lt19⟩)

theorem outLast2_eq (c : Dev nD) :
    outLast2 V c = k2_pay3 (accAt2 V c 19 (by rw [show cfg2.N = 20 from N_2]; decide)) (iblk2 V c 3 ⟨19, lt19⟩) (iblk2 V c 4 ⟨19, lt19⟩) (iblk2 V c 5 ⟨19, lt19⟩) (iblk2 V c 6 ⟨19, lt19⟩) (iblk2 V c 7 ⟨19, lt19⟩) (iblk2 V c 8 ⟨19, lt19⟩) (iblk2 V c 9 ⟨19, lt19⟩) (iblk2 V c 10 ⟨19, lt19⟩) := rfl

/-- At the last point the output block is the linear stack of that point's accumulator. -/
theorem outLast2_at (c : Dev nD) (t : Fin cfg2.N) (h : t.val = 19) :
    outLast2 V c = k2_pay3 (accAt2 V c t.val t.isLt) (iblk2 V c 3 t) (iblk2 V c 4 t) (iblk2 V c 5 t) (iblk2 V c 6 t) (iblk2 V c 7 t) (iblk2 V c 8 t) (iblk2 V c 9 t) (iblk2 V c 10 t) := by
  obtain rfl : t = ⟨19, lt19⟩ := Fin.ext h
  rfl

/-! ## The invariant between points -/

/-- The accumulator: a whole scoped buffer of the kernel's own, passed beside the windows. -/
abbrev scM2 : Memref sig .tc .vmem S256x50 .f32 := Memref.whole cc2_scratch0

/-- The core's scoped buffers that are no staging buffer of this launch, the other launches' staging buffers at some
    contents each and the accumulator as `S` says, and the generator register at some state. -/
def scoped2 (c : Dev nD) (S : sProp 𝕄) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ S) ∗ ∃ r, prngReg c r)

/-- What the launch hands the region is that with the accumulator at anything. -/
theorem PhiA2_eq (c : Dev nD) :
    (Pipeline.ΦA spec2 c : sProp 𝕄) = scoped2 c iprop(∃ d, owns (c : Thread nD τ) scM2 fullShare d) := by
  unfold Pipeline.ΦA scoped2; rw [scopedRest2_eq]; simp only [scM2, owns_whole]; try rfl

/-- The accumulator can be taken out and put back at other contents. -/
theorem scoped2_swap (c : Dev nD) (S S' : sProp 𝕄) : scoped2 (F := F) c S ⊢ iprop(S ∗ (S' -∗ scoped2 (F := F) c S')) := by
  unfold scoped2
  iintro ⟨⟨R0, R1, R2, R3, R4, R5, R6, R7, R8, R9, R10, HS⟩, Hg⟩
  isplitl [HS]; · iexact HS
  iintro HS'
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact HS'

/-- The invariant before position `n`: before the first point what the launch hands the region; afterwards the same with
    the accumulator at what the point before left in it. -/
def PhiS2 (c : Dev nD) : (n : ℕ) → n ≤ cfg2.N → sProp 𝕄
  | 0, _ => Pipeline.ΦA spec2 c
  | n + 1, hn => scoped2 c (owns (c : Thread nD τ) scM2 fullShare (accAt2 V c n hn))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = scoped2 c (owns (c : Thread nD τ) scM2 fullShare (accAt2 V c n hn)) := rfl

theorem PhiS2_pos (c : Dev nD) (n : ℕ) (h : n ≤ cfg2.N) (hz : n ≠ 0) :
    PhiS2 V c n h = scoped2 c (owns (c : Thread nD τ) scM2 fullShare (accAt2 V c (n - 1) (by omega))) := by
  cases n with
  | zero => exact absurd rfl hz
  | succ n => rfl

/-! ## The launch's proof data -/

/-- After the body at point `t` each input's buffer holds its block; the output's, where anything consults it (the last
    point), the linear stack of the sums; the invariant is the accumulator's; the launch owes nothing. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => outLast2 V c
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) (ht : t.val = 19) : (dat2 V c).after 11 t = outLast2 V c := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## Where the output window is idle -/

/-- Away from the last point the output window is idle: the body stores nothing into it, -/
theorem idleAt2_11 : ∀ t : Fin cfg2.N, ¬cond2_1 (grid2.coords t) → cfg2.idle 11 (grid2.coords t) = true := by decide +kernel
/-- and the pipeline does not write its block back. -/
theorem noFlush2_11 : ∀ t : Fin cfg2.N, ¬cond2_1 (grid2.coords t) → (cfg2.win 11).flush t = false := by decide +kernel
/-- At the last point it is live. -/
theorem liveAt2_11 : ∀ t : Fin cfg2.N, cond2_1 (grid2.coords t) → cfg2.idle 11 (grid2.coords t) = false := by decide +kernel

/-- Input window 0 is never idle, so the body hands its buffer back at its block. -/
theorem leaves2_0 (c : Dev nD) (t : Fin cfg2.N) :
    (dat2 V c).leavesExact 0 t = owns (c : Thread nD τ) (st2_0 t) fullShare (iblk2 V c 0 t) := by
  rw [← after2_0 V c t]
/-- Input window 1 is never idle, so the body hands its buffer back at its block. -/
theorem leaves2_1 (c : Dev nD) (t : Fin cfg2.N) :
    (dat2 V c).leavesExact 1 t = owns (c : Thread nD τ) (st2_1 t) fullShare (iblk2 V c 1 t) := by
  rw [← after2_1 V c t]
/-- Input window 2 is never idle, so the body hands its buffer back at its block. -/
theorem leaves2_2 (c : Dev nD) (t : Fin cfg2.N) :
    (dat2 V c).leavesExact 2 t = owns (c : Thread nD τ) (st2_2 t) fullShare (iblk2 V c 2 t) := by
  rw [← after2_2 V c t]
/-- Input window 3 is never idle, so the body hands its buffer back at its block. -/
theorem leaves2_3 (c : Dev nD) (t : Fin cfg2.N) :
    (dat2 V c).leavesExact 3 t = owns (c : Thread nD τ) (st2_3 t) fullShare (iblk2 V c 3 t) := by
  rw [← after2_3 V c t]
/-- Input window 4 is never idle, so the body hands its buffer back at its block. -/
theorem leaves2_4 (c : Dev nD) (t : Fin cfg2.N) :
    (dat2 V c).leavesExact 4 t = owns (c : Thread nD τ) (st2_4 t) fullShare (iblk2 V c 4 t) := by
  rw [← after2_4 V c t]
/-- Input window 5 is never idle, so the body hands its buffer back at its block. -/
theorem leaves2_5 (c : Dev nD) (t : Fin cfg2.N) :
    (dat2 V c).leavesExact 5 t = owns (c : Thread nD τ) (st2_5 t) fullShare (iblk2 V c 5 t) := by
  rw [← after2_5 V c t]
/-- Input window 6 is never idle, so the body hands its buffer back at its block. -/
theorem leaves2_6 (c : Dev nD) (t : Fin cfg2.N) :
    (dat2 V c).leavesExact 6 t = owns (c : Thread nD τ) (st2_6 t) fullShare (iblk2 V c 6 t) := by
  rw [← after2_6 V c t]
/-- Input window 7 is never idle, so the body hands its buffer back at its block. -/
theorem leaves2_7 (c : Dev nD) (t : Fin cfg2.N) :
    (dat2 V c).leavesExact 7 t = owns (c : Thread nD τ) (st2_7 t) fullShare (iblk2 V c 7 t) := by
  rw [← after2_7 V c t]
/-- Input window 8 is never idle, so the body hands its buffer back at its block. -/
theorem leaves2_8 (c : Dev nD) (t : Fin cfg2.N) :
    (dat2 V c).leavesExact 8 t = owns (c : Thread nD τ) (st2_8 t) fullShare (iblk2 V c 8 t) := by
  rw [← after2_8 V c t]
/-- Input window 9 is never idle, so the body hands its buffer back at its block. -/
theorem leaves2_9 (c : Dev nD) (t : Fin cfg2.N) :
    (dat2 V c).leavesExact 9 t = owns (c : Thread nD τ) (st2_9 t) fullShare (iblk2 V c 9 t) := by
  rw [← after2_9 V c t]
/-- Input window 10 is never idle, so the body hands its buffer back at its block. -/
theorem leaves2_10 (c : Dev nD) (t : Fin cfg2.N) :
    (dat2 V c).leavesExact 10 t = owns (c : Thread nD τ) (st2_10 t) fullShare (iblk2 V c 10 t) := by
  rw [← after2_10 V c t]

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t)

set_option maxHeartbeats 4000000 in
/-- The body at any point. The inputs' buffers hold their blocks; the position says which of the three runs applies; the
    invariant hands the body the accumulator (at anything at the first point, else at what the point before left) and
    takes it back at this point's sums; away from the last point the output's buffer goes back as it came. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, leaves2_6, leaves2_7, leaves2_8, leaves2_9, leaves2_10]
  have hN : t.val < 20 := lt_of_lt_of_eq t.isLt (show cfg2.N = 20 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 11 t (idleAt2_11 t hc1) (noFlush2_11 t hc1)]
    rw [PhiS2_castSucc V c t, PhiS2_zero V c _ _ h0, PhiA2_eq, accAt2_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
    ihave HΦ' := (scoped2_swap c _ (owns (c : Thread nD τ) scM2 fullShare (k2_pay2 (iblk2 V c 0 t) (iblk2 V c 1 t) (iblk2 V c 2 t) (k2_pay1 (F := F))))) $$ HΦ
    icases HΦ' with ⟨HS, Hb⟩
    iapply (sound_kernel2_A c Set.univ (grid2.coords t) hc0 hc1 _ _ _ _ _ _ _ _ _ _ _ _ _ _ _ _ _ _ _ _ _ _ _ _ _ _ (iblk2 V c 0 t) (iblk2 V c 1 t) (iblk2 V c 2 t) _)
    isplitl [H0]; · iexact H0
    isplitl [H1]; · iexact H1
    isplitl [H2]; · iexact H2
    isplitl [HS]; · iexact HS
    iintro ⟨H0, H1, H2, HS⟩
    isplitl [Hb HS]; · iapply Hb; iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · by_cases h1 : t.val = 19
    · have hc0 : ¬cond2_0 (grid2.coords t) := fun h => h0 ((hcond2_0 t).mp h)
      have hc1 : cond2_1 (grid2.coords t) := (hcond2_1 t).mpr h1
      rw [show (dat2 V c).leavesExact 11 t = owns (c : Thread nD τ) (st2_11 t) fullShare ((dat2 V c).after 11 t) from by
        unfold Dat.leavesExact; rw [liveAt2_11 t hc1], after2_11 V c t h1, outLast2_at V c t h1]
      rw [PhiS2_castSucc V c t, PhiS2_pos V c _ _ h0, accAt2_later V c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      ihave HΦ' := (scoped2_swap c _ (owns (c : Thread nD τ) scM2 fullShare (k2_pay2 (iblk2 V c 0 t) (iblk2 V c 1 t) (iblk2 V c 2 t) (accAt2 V c (t.val - 1) (Nat.lt_of_le_of_lt (Nat.sub_le _ _) t.isLt))))) $$ HΦ
      icases HΦ' with ⟨HS, Hb⟩
      iapply (sound_kernel2_C c Set.univ (grid2.coords t) hc0 hc1 _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS]; · iexact HS
      iintro ⟨H0, H1, H2, H3, H4, H5, H6, H7, H8, H9, H10, H11, HS⟩
      isplitl [Hb HS]; · iapply Hb; iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · have hc0 : ¬cond2_0 (grid2.coords t) := fun h => h0 ((hcond2_0 t).mp h)
      have hc1 : ¬cond2_1 (grid2.coords t) := fun h => h1 ((hcond2_1 t).mp h)
      rw [Dat.leavesExact_idle (dat2 V c) 11 t (idleAt2_11 t hc1) (noFlush2_11 t hc1)]
      rw [PhiS2_castSucc V c t, PhiS2_pos V c _ _ h0, accAt2_later V c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
      ihave HΦ' := (scoped2_swap c _ (owns (c : Thread nD τ) scM2 fullShare (k2_pay2 (iblk2 V c 0 t) (iblk2 V c 1 t) (iblk2 V c 2 t) (accAt2 V c (t.val - 1) (Nat.lt_of_le_of_lt (Nat.sub_le _ _) t.isLt))))) $$ HΦ
      icases HΦ' with ⟨HS, Hb⟩
      iapply (sound_kernel2_B c Set.univ (grid2.coords t) hc0 hc1 _ _ _ _ _ _ _ _ _ _ _ _ _ _ _ _ _ _ _ _ _ _ _ _ _ _ (iblk2 V c 0 t) (iblk2 V c 1 t) (iblk2 V c 2 t) _ _)
      isplitl [H0]; · iexact H0
      isplitl [H1]; · iexact H1
      isplitl [H2]; · iexact H2
      isplitl [HS]; · iexact HS
      iintro ⟨H0, H1, H2, HS⟩
      isplitl [Hb HS]; · iapply Hb; iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Into and out of the invariant -/

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives it back: what the accumulator holds is forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 20 := N_2; omega), PhiA2_eq]
  iintro HΦ
  ihave HΦ' := (scoped2_swap c _ iprop(∃ d, owns (c : Thread nD τ) scM2 fullShare d)) $$ HΦ
  icases HΦ' with ⟨HS, Hb⟩
  iapply Hb
  iexists _; iexact HS

end Cert.Kernel.Hand

end
-- ==== Proof.Kernel.Run.lean ====
/- The whole program's run. @main is three host stretches, each followed by a launch. This module names the contents of every
   unscoped buffer at each of the seven boundaries between those six segments (a host stretch applies its operations; a
   launch replaces its output array by what its write-backs leave and keeps everything else), gives each launch its segment
   record over the proof data of the three launch modules, and runs the list: every weakly fair execution terminates, and at
   the end every unscoped buffer holds the last boundary's contents. The argument arrays are written by no segment, so they
   end as launched; the result array is the third launch's output. -/
import proofs.«415449_j35734127903067_1_alg».proof.Proof.Kernel.R0
import proofs.«415449_j35734127903067_1_alg».proof.Proof.Kernel.R1
import proofs.«415449_j35734127903067_1_alg».proof.Proof.Kernel.R2
import proofs.«415449_j35734127903067_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch of the program. -/
abbrev Q0 : Dev nD → Valuation τ sig (Elt F) := fun c b => (s₀ m ρ).mem ((c : Dev nD), b)
/-- After the first host stretch: the first launch's entry. -/
abbrev Q1 : Dev nD → Valuation τ sig (Elt F) := fun c => StableHlo.after hostOps0 (Q0 m ρ c)
abbrev QV1 : (c : Dev nD) → (b : Ref sig .tc) → Buf (Elt F) ((c : Thread nD τ).loc b) := fun c b => Q1 m ρ c b

/-- At launch 0's exit: its arrays at what the write-backs leave, every other buffer as entered. -/
def Q2 (c : Dev nD) : Valuation τ sig (Elt F) :=
  Pipeline.withArrays spec0 c (Q1 m ρ c) fun w => (dat0 (QV1 m ρ) c).arrAt w cfg0.N
theorem Q2_arr (c : Dev nD) (w : Fin cfg0.W) :
    Q2 m ρ c (Proc.devRef .tc (Pipeline.arrRef spec0 w)) = (dat0 (QV1 m ρ) c).arrAt w cfg0.N := by
  unfold Q2; exact Pipeline.withArrays_arr spec0 launch0.win.arr_inj c _ _ w
theorem Q2_of_ne (c : Dev nD) (b : Ref sig .tc) (hb : ∀ w, Pipeline.arrRef spec0 w ≠ b) :
    Q2 m ρ c (Proc.devRef .tc b) = Q1 m ρ c (Proc.devRef .tc b) := by
  unfold Q2; exact Pipeline.withArrays_of_ne spec0 c _ _ b hb
abbrev QV2 : (c : Dev nD) → (b : Ref sig .tc) → Buf (Elt F) ((c : Thread nD τ).loc b) := fun c b => Q2 m ρ c b
theorem hF0 (c : Dev nD) (w : Fin cfg0.W) : (dat0 (QV1 m ρ) c).arrAt w cfg0.N = QV2 m ρ c (Pipeline.arrRef spec0 w) :=
  (Q2_arr m ρ c w).symm
theorem hrest0 (c : Dev nD) : ∀ b, b ∉ Finset.univ.image (Pipeline.arrRef spec0) → QV2 m ρ c b = QV1 m ρ c b :=
  fun b hb => Q2_of_ne m ρ c b fun w e => hb (Finset.mem_image.mpr ⟨w, Finset.mem_univ _, e⟩)

/-- After the second host stretch: the second launch's entry. -/
abbrev Q3 : Dev nD → Valuation τ sig (Elt F) := fun c => StableHlo.after hostOps1 (Q2 m ρ c)
abbrev QV3 : (c : Dev nD) → (b : Ref sig .tc) → Buf (Elt F) ((c : Thread nD τ).loc b) := fun c b => Q3 m ρ c b

/-- At launch 1's exit: its arrays at what the write-backs leave, every other buffer as entered. -/
def Q4 (c : Dev nD) : Valuation τ sig (Elt F) :=
  Pipeline.withArrays spec1 c (Q3 m ρ c) fun w => (dat1 (QV3 m ρ) c).arrAt w cfg1.N
theorem Q4_arr (c : Dev nD) (w : Fin cfg1.W) :
    Q4 m ρ c (Proc.devRef .tc (Pipeline.arrRef spec1 w)) = (dat1 (QV3 m ρ) c).arrAt w cfg1.N := by
  unfold Q4; exact Pipeline.withArrays_arr spec1 launch1.win.arr_inj c _ _ w
theorem Q4_of_ne (c : Dev nD) (b : Ref sig .tc) (hb : ∀ w, Pipeline.arrRef spec1 w ≠ b) :
    Q4 m ρ c (Proc.devRef .tc b) = Q3 m ρ c (Proc.devRef .tc b) := by
  unfold Q4; exact Pipeline.withArrays_of_ne spec1 c _ _ b hb
abbrev QV4 : (c : Dev nD) → (b : Ref sig .tc) → Buf (Elt F) ((c : Thread nD τ).loc b) := fun c b => Q4 m ρ c b
theorem hF1 (c : Dev nD) (w : Fin cfg1.W) : (dat1 (QV3 m ρ) c).arrAt w cfg1.N = QV4 m ρ c (Pipeline.arrRef spec1 w) :=
  (Q4_arr m ρ c w).symm
theorem hrest1 (c : Dev nD) : ∀ b, b ∉ Finset.univ.image (Pipeline.arrRef spec1) → QV4 m ρ c b = QV3 m ρ c b :=
  fun b hb => Q4_of_ne m ρ c b fun w e => hb (Finset.mem_image.mpr ⟨w, Finset.mem_univ _, e⟩)

/-- After the third host stretch: the third launch's entry. -/
abbrev Q5 : Dev nD → Valuation τ sig (Elt F) := fun c => StableHlo.after hostOps2 (Q4 m ρ c)
abbrev QV5 : (c : Dev nD) → (b : Ref sig .tc) → Buf (Elt F) ((c : Thread nD τ).loc b) := fun c b => Q5 m ρ c b

/-- At launch 2's exit: its arrays at what the write-backs leave, every other buffer as entered. -/
def Q6 (c : Dev nD) : Valuation τ sig (Elt F) :=
  Pipeline.withArrays spec2 c (Q5 m ρ c) fun w => (dat2 (QV5 m ρ) c).arrAt w cfg2.N
theorem Q6_arr (c : Dev nD) (w : Fin cfg2.W) :
    Q6 m ρ c (Proc.devRef .tc (Pipeline.arrRef spec2 w)) = (dat2 (QV5 m ρ) c).arrAt w cfg2.N := by
  unfold Q6; exact Pipeline.withArrays_arr spec2 launch2.win.arr_inj c _ _ w
theorem Q6_of_ne (c : Dev nD) (b : Ref sig .tc) (hb : ∀ w, Pipeline.arrRef spec2 w ≠ b) :
    Q6 m ρ c (Proc.devRef .tc b) = Q5 m ρ c (Proc.devRef .tc b) := by
  unfold Q6; exact Pipeline.withArrays_of_ne spec2 c _ _ b hb
abbrev QV6 : (c : Dev nD) → (b : Ref sig .tc) → Buf (Elt F) ((c : Thread nD τ).loc b) := fun c b => Q6 m ρ c b
theorem hF2 (c : Dev nD) (w : Fin cfg2.W) : (dat2 (QV5 m ρ) c).arrAt w cfg2.N = QV6 m ρ c (Pipeline.arrRef spec2 w) :=
  (Q6_arr m ρ c w).symm
theorem hrest2 (c : Dev nD) : ∀ b, b ∉ Finset.univ.image (Pipeline.arrRef spec2) → QV6 m ρ c b = QV5 m ρ c b :=
  fun b hb => Q6_of_ne m ρ c b fun w e => hb (Finset.mem_image.mpr ⟨w, Finset.mem_univ _, e⟩)

/-! ## What each segment keeps -/

/-- Launch 0 changes only its output array: every other reference reads as at its entry (an input array through its
    window's unchanged array, a reference it has no window on directly). -/
theorem Q2_keep (c : Dev nD) (b : Ref sig .tc) (hb : b ≠ main_v27) :
    Q2 m ρ c (Proc.devRef .tc b) = Q1 m ρ c (Proc.devRef .tc b) := by
  by_cases h : ∃ w, Pipeline.arrRef spec0 w = b
  · obtain ⟨w, rfl⟩ := h
    have hw : (cfg0.win w).isOut = false :=
      (by decide : ∀ w : Fin cfg0.W, Pipeline.arrRef spec0 w ≠ main_v27 → (cfg0.win w).isOut = false) w hb
    exact (Q2_arr m ρ c w).trans (((dat0 (QV1 m ρ) c).arrAt_in w hw _).trans (A_eq0 (QV1 m ρ) c w))
  · exact Q2_of_ne m ρ c b fun w e => h ⟨w, e⟩

/-- Launch 1 changes only its output array: every other reference reads as at its entry (an input array through its
    window's unchanged array, a reference it has no window on directly). -/
theorem Q4_keep (c : Dev nD) (b : Ref sig .tc) (hb : b ≠ main_v42) :
    Q4 m ρ c (Proc.devRef .tc b) = Q3 m ρ c (Proc.devRef .tc b) := by
  by_cases h : ∃ w, Pipeline.arrRef spec1 w = b
  · obtain ⟨w, rfl⟩ := h
    have hw : (cfg1.win w).isOut = false :=
      (by decide : ∀ w : Fin cfg1.W, Pipeline.arrRef spec1 w ≠ main_v42 → (cfg1.win w).isOut = false) w hb
    exact (Q4_arr m ρ c w).trans (((dat1 (QV3 m ρ) c).arrAt_in w hw _).trans (A_eq1 (QV3 m ρ) c w))
  · exact Q4_of_ne m ρ c b fun w e => h ⟨w, e⟩

/-- Launch 2 changes only its output array: every other reference reads as at its entry (an input array through its
    window's unchanged array, a reference it has no window on directly). -/
theorem Q6_keep (c : Dev nD) (b : Ref sig .tc) (hb : b ≠ main_v62) :
    Q6 m ρ c (Proc.devRef .tc b) = Q5 m ρ c (Proc.devRef .tc b) := by
  by_cases h : ∃ w, Pipeline.arrRef spec2 w = b
  · obtain ⟨w, rfl⟩ := h
    have hw : (cfg2.win w).isOut = false :=
      (by decide : ∀ w : Fin cfg2.W, Pipeline.arrRef spec2 w ≠ main_v62 → (cfg2.win w).isOut = false) w hb
    exact (Q6_arr m ρ c w).trans (((dat2 (QV5 m ρ) c).arrAt_in w hw _).trans (A_eq2 (QV5 m ρ) c w))
  · exact Q6_of_ne m ρ c b fun w e => h ⟨w, e⟩

/-- A reference that no host stretch writes and that is no launch's output reads at the end as at launch. -/
theorem Q6_kept (c : Dev nD) (b : Ref sig .tc) (h0 : b ∉ hostOps0_W) (h1 : b ∉ hostOps1_W) (h2 : b ∉ hostOps2_W)
    (n0 : b ≠ main_v27) (n1 : b ≠ main_v42) (n2 : b ≠ main_v62) :
    Q6 m ρ c (Proc.devRef .tc b) = m ((c : Thread nD τ).loc b) :=
  calc Q6 m ρ c (Proc.devRef .tc b)
    _ = Q5 m ρ c (Proc.devRef .tc b) := Q6_keep m ρ c b n2
    _ = Q4 m ρ c (Proc.devRef .tc b) := StableHlo.after_of_writes_sub hostOps2 _ hostOps2_writes h2
    _ = Q3 m ρ c (Proc.devRef .tc b) := Q4_keep m ρ c b n1
    _ = Q2 m ρ c (Proc.devRef .tc b) := StableHlo.after_of_writes_sub hostOps1 _ hostOps1_writes h1
    _ = Q1 m ρ c (Proc.devRef .tc b) := Q2_keep m ρ c b n0
    _ = Q0 m ρ c (Proc.devRef .tc b) := StableHlo.after_of_writes_sub hostOps0 _ hostOps0_writes h0
    _ = m ((c : Thread nD τ).loc b) := rfl

/-- The result array at the end is the third launch's output array after its last write-back. -/
theorem Q6_result (c : Dev nD) : Q6 m ρ c (Proc.devRef .tc main_v62) = (dat2 (QV5 m ρ) c).arrAt 11 cfg2.N :=
  Q6_arr m ρ c 11

/-! ## The proof data family and the thread state -/

/-- No launch has a prefetched table. -/
abbrev hadm : (p : Fin 3) → (pcfgs (F := F) p).Adm := fun p => (cfgs p).toPCfg_adm
/-- Every launch's proof data, each at its entry contents. -/
def pdats : (p : Fin 3) → (c : Dev nD) → Dat τ (Elt F) Unit ℕ (UR sig nD τ) ℕ (Pipeline.pin (pcfgs (F := F)) hadm p) c
  | ⟨0, _⟩ => fun c => dat0 (QV1 m ρ) c
  | ⟨1, _⟩ => fun c => dat1 (QV3 m ρ) c
  | ⟨2, _⟩ => fun c => dat2 (QV5 m ρ) c
abbrev 𝒱ₙ : Variants := Variants.none
/-- No core owes another anything: no level is assigned. -/
abbrev Lₙ : GSem nD τ sig → Finset Unit := fun _ => ∅
abbrev lvₙ : GSem nD τ sig → Unit → ℕ := fun _ _ => 0
/-- What rides beside the buffers through every segment: the generator register at some state, and nothing owed. -/
abbrev Rₙ (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ Lₙ lvₙ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rₙ
/-- The last thread state without the `owes`: every unscoped buffer at the last boundary's contents, the generator
    register at some state. -/
abbrev Tₙ (c : Dev nD) : sProp 𝕄 := iprop(StableHlo.held (c : Thread nD τ) (Pipeline.ucRefs τ sig) (Q6 m ρ c) ∗ ∃ r, prngReg c r)

/-! ## The launches as segments -/

set_option backward.isDefEq.respectTransparency.types false in
/-- Launch 0 as a segment: entered with every unscoped buffer at `Q1`, left with them at `Q2`. Its arrays are split
    out of the unscoped buffers and put back at what the write-backs leave; the generator register goes into the launch's
    invariant and comes back; nothing is owed; the kernel has no semaphore of its own. -/
def reg0 : Pipeline.RegionSeg (pcfgs (F := F)) hadm (pdats m ρ) () defs₀ 𝒱ₙ Lₙ lvₙ 0 where
  win := launch0.win.to₀
  block_pos := launch0.block_pos
  stage_whole := launch0.stage_whole
  K := PEmpty
  osem k := k.elim
  ho := Pipeline.OwnSemFacts.none _
  hbody c := (body_obligation0 (QV1 m ρ) c).loose
  hwaits := Pipeline.hwaits_of_owed_zero _ _ _ _ Lₙ lvₙ 0 fun _ _ => rfl
  pre c := iprop(StableHlo.held (c : Thread nD τ) (Pipeline.ucRefs τ sig) (Q1 m ρ c) ∗ Rₙ c)
  post c := iprop(StableHlo.held (c : Thread nD τ) (Pipeline.ucRefs τ sig) (Q2 m ρ c) ∗ Rₙ c)
  X c := iprop(∃ r, prngReg c r)
  Y c := iprop(∃ r, prngReg c r)
  Z c := Pipeline.unscopedRest (Ix := Unit) (Name := ℕ) (U := UR sig nD τ) (Lvl := ℕ) spec0 c (QV1 m ρ c)
  hentry c := by
    rw [Pipeline.ownSems0_none]
    have hsplit := Pipeline.arrays_of_unscopedBufs (p := 0) (pcfgs (F := F)) hadm (pdats m ρ) launch0.win launch0.arr_whole c
      ((pdats m ρ 0 c).share_full fun _ => rfl) (QV1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m ρ) ((pdats m ρ 0 c).share_full fun _ => rfl)
      (QV1 m ρ c) (QV2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered with every unscoped buffer at `Q3`, left with them at `Q4`. Its arrays are split
    out of the unscoped buffers and put back at what the write-backs leave; the generator register goes into the launch's
    invariant and comes back; nothing is owed; the kernel has no semaphore of its own. -/
def reg1 : Pipeline.RegionSeg (pcfgs (F := F)) hadm (pdats m ρ) () defs₀ 𝒱ₙ Lₙ lvₙ 1 where
  win := launch1.win.to₀
  block_pos := launch1.block_pos
  stage_whole := launch1.stage_whole
  K := PEmpty
  osem k := k.elim
  ho := Pipeline.OwnSemFacts.none _
  hbody c := (body_obligation1 (QV3 m ρ) c).loose
  hwaits := Pipeline.hwaits_of_owed_zero _ _ _ _ Lₙ lvₙ 1 fun _ _ => rfl
  pre c := iprop(StableHlo.held (c : Thread nD τ) (Pipeline.ucRefs τ sig) (Q3 m ρ c) ∗ Rₙ c)
  post c := iprop(StableHlo.held (c : Thread nD τ) (Pipeline.ucRefs τ sig) (Q4 m ρ c) ∗ Rₙ c)
  X c := iprop(∃ r, prngReg c r)
  Y c := iprop(∃ r, prngReg c r)
  Z c := Pipeline.unscopedRest (Ix := Unit) (Name := ℕ) (U := UR sig nD τ) (Lvl := ℕ) spec1 c (QV3 m ρ c)
  hentry c := by
    rw [Pipeline.ownSems0_none]
    have hsplit := Pipeline.arrays_of_unscopedBufs (p := 1) (pcfgs (F := F)) hadm (pdats m ρ) launch1.win launch1.arr_whole c
      ((pdats m ρ 1 c).share_full fun _ => rfl) (QV3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m ρ) ((pdats m ρ 1 c).share_full fun _ => rfl)
      (QV3 m ρ c) (QV4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment: entered with every unscoped buffer at `Q5`, left with them at `Q6`. Its arrays are split
    out of the unscoped buffers and put back at what the write-backs leave; the generator register goes into the launch's
    invariant and comes back; nothing is owed; the kernel has no semaphore of its own. -/
def reg2 : Pipeline.RegionSeg (pcfgs (F := F)) hadm (pdats m ρ) () defs₀ 𝒱ₙ Lₙ lvₙ 2 where
  win := launch2.win.to₀
  block_pos := launch2.block_pos
  stage_whole := launch2.stage_whole
  K := PEmpty
  osem k := k.elim
  ho := Pipeline.OwnSemFacts.none _
  hbody c := (body_obligation2 (QV5 m ρ) c).loose
  hwaits := Pipeline.hwaits_of_owed_zero _ _ _ _ Lₙ lvₙ 2 fun _ _ => rfl
  pre c := iprop(StableHlo.held (c : Thread nD τ) (Pipeline.ucRefs τ sig) (Q5 m ρ c) ∗ Rₙ c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (QV5 m ρ c)
  hentry c := by
    rw [Pipeline.ownSems0_none]
    have hsplit := Pipeline.arrays_of_unscopedBufs (p := 2) (pcfgs (F := F)) hadm (pdats m ρ) launch2.win launch2.arr_whole c
      ((pdats m ρ 2 c).share_full fun _ => rfl) (QV5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (QV5 m ρ) c).Φ 0 from rfl]
    iintro ⟨Hp, -, Hr⟩
    iapply (hin2 (QV5 m ρ) c)
    unfold Pipeline.ΦA
    isplitl [Hr]; · iexact Hr
    iexact Hp
  hout c := by
    rw [Pipeline.ownSems0_none, show (pdats m ρ 2 c).Φ (Fin.last _) = (dat2 (QV5 m ρ) c).Φ (Fin.last cfg2.N) from rfl]
    have h2 := hout2 (QV5 m ρ) c
    unfold Pipeline.ΦA at h2
    iintro H
    ihave H' := h2 $$ H
    icases H' with ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (pdats m ρ) ((pdats m ρ 2 c).share_full fun _ => rfl)
      (QV5 m ρ c) (QV6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's six segments in order. -/
abbrev rsegs : List (Pipeline.Seg (pcfgs (F := F)) hadm (pdats m ρ) () defs₀ 𝒱ₙ Lₙ lvₙ) :=
  [ .host (hseg hostOps0 hostOps0_sub hostOps0_fresh (Q0 m ρ)),
    .region (reg0 m ρ),
    .host (hseg hostOps1 hostOps1_sub hostOps1_fresh (Q2 m ρ)),
    .region (reg1 m ρ),
    .host (hseg hostOps2 hostOps2_sub hostOps2_fresh (Q4 m ρ)),
    .region (reg2 m ρ) ]
/-- @main is the run of the segments. -/
theorem main_run (c : Dev nD) : main (F := F) c = Pipeline.Seg.run (rsegs m ρ) := (main_chain c).trans (by chain_rfl)

set_option backward.isDefEq.respectTransparency.types false in
/-- THE RUN: from any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Q6 m ρ c b) :=
  Pipeline.θ_run_regions_kit (pcfgs (F := F)) hadm (pdats m ρ) () cellOf_inj emb₁ defs₀ 𝒱ₙ Lₙ lvₙ m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Q0 m ρ c) ∗ Rₙ c)) (Tₙ := Tₙ m ρ)
    (hch := ⟨fun _ => .rfl, fun _ => .rfl, fun _ => .rfl, fun _ => .rfl, fun _ => .rfl, fun _ => .rfl, fun _ => .rfl⟩)
    (hinit := by
      refine Pipeline.initEach Lₙ lvₙ fun c => ?_
      rw [show unscopedBufs c (fun b => m ((c : Thread nD τ).loc b)) = StableHlo.held (c : Thread nD τ) (Pipeline.ucRefs τ sig) (Q0 m ρ c)
        from Pipeline.unscopedBufs_held c (Q0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Q6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Q6 m ρ c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN, read at the arrays the claims name: the result array ends at the third launch's output, and every argument
    array ends as launched. -/
theorem run_named : θ_run defs (onTc (τ := τ) (main (F := F))) ⟨m, fun _ => 0, ρ⟩ (fun r => ∀ c : Dev nD,
      r.2.mem ((c.tc : Thread nD τ).loc main_v62) = (dat2 (QV5 m ρ) c).arrAt 11 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v62 (by decide))).trans (Q6_result m ρ c),
     (h c _ (mem_uc main_arg0 (by decide))).trans (Q6_kept m ρ c main_arg0 (by decide) (by decide) (by decide) (by decide) (by decide) (by decide)),
     (h c _ (mem_uc main_arg1 (by decide))).trans (Q6_kept m ρ c main_arg1 (by decide) (by decide) (by decide) (by decide) (by decide) (by decide)),
     (h c _ (mem_uc main_arg2 (by decide))).trans (Q6_kept m ρ c main_arg2 (by decide) (by decide) (by decide) (by decide) (by decide) (by decide)),
     (h c _ (mem_uc main_arg3 (by decide))).trans (Q6_kept m ρ c main_arg3 (by decide) (by decide) (by decide) (by decide) (by decide) (by decide)),
     (h c _ (mem_uc main_arg4 (by decide))).trans (Q6_kept m ρ c main_arg4 (by decide) (by decide) (by decide) (by decide) (by decide) (by decide)),
     (h c _ (mem_uc main_arg5 (by decide))).trans (Q6_kept m ρ c main_arg5 (by decide) (by decide) (by decide) (by decide) (by decide) (by decide)),
     (h c _ (mem_uc main_arg6 (by decide))).trans (Q6_kept m ρ c main_arg6 (by decide) (by decide) (by decide) (by decide) (by decide) (by decide)),
     (h c _ (mem_uc main_arg7 (by decide))).trans (Q6_kept m ρ c main_arg7 (by decide) (by decide) (by decide) (by decide) (by decide) (by decide)),
     (h c _ (mem_uc main_arg8 (by decide))).trans (Q6_kept m ρ c main_arg8 (by decide) (by decide) (by decide) (by decide) (by decide) (by decide)),
     (h c _ (mem_uc main_arg9 (by decide))).trans (Q6_kept m ρ c main_arg9 (by decide) (by decide) (by decide) (by decide) (by decide) (by decide)),
     (h c _ (mem_uc main_arg10 (by decide))).trans (Q6_kept m ρ c main_arg10 (by decide) (by decide) (by decide) (by decide) (by decide) (by decide)),
     (h c _ (mem_uc main_arg11 (by decide))).trans (Q6_kept m ρ c main_arg11 (by decide) (by decide) (by decide) (by decide) (by decide) (by decide)),
     (h c _ (mem_uc main_arg12 (by decide))).trans (Q6_kept m ρ c main_arg12 (by decide) (by decide) (by decide) (by decide) (by decide) (by decide)),
     (h c _ (mem_uc main_arg13 (by decide))).trans (Q6_kept m ρ c main_arg13 (by decide) (by decide) (by decide) (by decide) (by decide) (by decide)),
     (h c _ (mem_uc main_arg14 (by decide))).trans (Q6_kept m ρ c main_arg14 (by decide) (by decide) (by decide) (by decide) (by decide) (by decide))⟩)
    (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => (h c).2) (run_named m ρ)

end Cert.Kernel.Hand

end
-- ==== Proof.KernelIdeal.R0.lean ====
/- The first launch: a row-blocked product of the node features with the first layer's weights.
   The grid walks ten blocks of 10000 rows; at each point the body reads the block of 10000 × 64 features and the whole
   64 × 60 weight matrix and overwrites the output block of 10000 × 60 with their product into a zero accumulator.
   This module states, at any contents `V` of the buffers when the launch is entered, what each window's staging
   buffer holds after the body at each point, and proves the body's obligation against it. -/
import proofs.«415449_j35734127903067_1_alg».proof.Proof.Gen.KernelIdeal.Launch
import proofs.«415449_j35734127903067_1_alg».proof.Proof.Gen.KernelIdeal.Skeleton
import proofs.«415449_j35734127903067_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the whole weight matrix at every point: it is fetched once and its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The whole output block, the one rectangle the body stores through. -/
abbrev rOut0 : Rect S10000x60 := Rect.unit (s := S10000x60) ![0, 0] S10000x60.size inb_S10000x60_S10000x60_0_0

/-- The whole feature block and the whole weight matrix, the rectangles the body loads through. -/
abbrev rIn0_0 : Rect S10000x64 := Rect.unit (s := S10000x64) ![0, 0] S10000x64.size inb_S10000x64_S10000x64_0_0
abbrev rIn0_1 : Rect S64x60 := Rect.unit (s := S64x60) ![0, 0] S64x60.size inb_S64x60_S64x60_0_0

/-- The output block after the body: the product of the feature block with the weights, stored whole. -/
def out0_2 (x0 : Vec F S10000x64 .f32) (x1 : Vec F S64x60 .f32) : Vec F S10000x60 .f32 :=
  View.canon [⟨rOut0, k0_pay1 (View.ld x0 rIn0_0) (View.ld x1 rIn0_1)⟩]

/-- The one store covers the block. -/
theorem cover0_2 (p0 : Vec F S10000x60 .f32) (y : S10000x60.Idx) :
    ∃ pc ∈ ([⟨rOut0, p0⟩] : List (View.Piece (Elt F) S10000x60 .f32)), y ∈ pc.1.set :=
  View.cover_of_tiled [⟨rOut0, p0⟩] S10000x60.size (by rfl) y

/-! ## The body's triple -/

set_option maxHeartbeats 1000000 in
/-- On whole staging memrefs holding a feature block `x0` and the weights `x1`, the output's holding anything, the body runs
    and leaves the inputs as they were and the output at `out0_2 x0 x1`. -/
theorem sound_kernel0 (c : Dev nD) (E : Set ℕ) (i : grid0.Coords)
    (arg1 : Memref sig .tc .vmem S10000x64 .f32) (harg1 : arg1.IsWhole) (arg2 : Memref sig .tc .vmem S64x60 .f32) (harg2 : arg2.IsWhole)
    (arg3 : Memref sig .tc .vmem S10000x60 .f32) (harg3 : arg3.IsWhole)
    (x0 : Vec F S10000x64 .f32) (x1 : Vec F S64x60 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The launch's proof data -/

/-- After the body at point `t` each input's buffer holds its block and the output's the product of the two; the launch
    keeps no state of its own between points and owes nothing. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.R1.lean ====
/- The second launch: the second layer's feature product, with the first layer's bias folded into its input.
   The grid walks ten blocks of 10000 rows; at each point the body reads a block of 10000 × 60 aggregated features, the
   1 × 60 bias row and the whole 60 × 50 weight matrix, adds the bias to every row of the block and overwrites the output
   block of 10000 × 50 with the product of that sum and the weights into a zero accumulator.
   This module states, at any contents `V` of the buffers when the launch is entered, what each window's staging
   buffer holds after the body at each point, and proves the body's obligation against it. -/
import proofs.«415449_j35734127903067_1_alg».proof.Proof.Gen.KernelIdeal.Launch
import proofs.«415449_j35734127903067_1_alg».proof.Proof.Gen.KernelIdeal.Skeleton
import proofs.«415449_j35734127903067_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias window's buffer holds the bias row at every point: fetched once, its index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The weight window's buffer holds the whole weight matrix at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The whole output block, the one rectangle the body stores through. -/
abbrev rOut1 : Rect S10000x50 := Rect.unit (s := S10000x50) ![0, 0] S10000x50.size inb_S10000x50_S10000x50_0_0

/-- The whole feature block, bias row and weight matrix, the rectangles the body loads through. -/
abbrev rIn1_0 : Rect S10000x60 := Rect.unit (s := S10000x60) ![0, 0] S10000x60.size inb_S10000x60_S10000x60_0_0
abbrev rIn1_1 : Rect S1x60 := Rect.unit (s := S1x60) ![0, 0] S1x60.size inb_S1x60_S1x60_0_0
abbrev rIn1_2 : Rect S60x50 := Rect.unit (s := S60x50) ![0, 0] S60x50.size inb_S60x50_S60x50_0_0

/-- The output block after the body: (block + bias row) times the weights, stored whole. -/
def out1_3 (x0 : Vec F S10000x60 .f32) (x1 : Vec F S1x60 .f32) (x2 : Vec F S60x50 .f32) : Vec F S10000x50 .f32 :=
  View.canon [⟨rOut1, k1_pay1 (View.ld x0 rIn1_0) (View.ld x1 rIn1_1) (View.ld x2 rIn1_2)⟩]

/-- The one store covers the block. -/
theorem cover1_3 (p0 : Vec F S10000x50 .f32) (y : S10000x50.Idx) :
    ∃ pc ∈ ([⟨rOut1, p0⟩] : List (View.Piece (Elt F) S10000x50 .f32)), y ∈ pc.1.set :=
  View.cover_of_tiled [⟨rOut1, p0⟩] S10000x50.size (by rfl) y

/-! ## The body's triple -/

set_option maxHeartbeats 1000000 in
/-- On whole staging memrefs holding a feature block `x0`, the bias row `x1` and the weights `x2`, the output's holding
    anything, the body runs and leaves the inputs as they were and the output at `out1_3 x0 x1 x2`. -/
theorem sound_kernel1 (c : Dev nD) (E : Set ℕ) (i : grid1.Coords)
    (arg1 : Memref sig .tc .vmem S10000x60 .f32) (harg1 : arg1.IsWhole) (arg2 : Memref sig .tc .vmem S1x60 .f32) (harg2 : arg2.IsWhole)
    (arg3 : Memref sig .tc .vmem S60x50 .f32) (harg3 : arg3.IsWhole) (arg4 : Memref sig .tc .vmem S10000x50 .f32) (harg4 : arg4.IsWhole)
    (x0 : Vec F S10000x60 .f32) (x1 : Vec F S1x60 .f32) (x2 : Vec F S60x50 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__matmul_bias_kernel i arg1 harg1 arg2 harg2 arg3 harg3 arg4 harg4) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The launch's proof data -/

/-- After the body at point `t` each input's buffer holds its block and the output's the biased block times the weights;
    the launch keeps no state of its own between points and owes nothing. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.R2.lean ====
/- The third launch: sum-pooling of the node rows by graph id, then a small linear stack.
   The grid walks twenty blocks of 5000 nodes. At each point the body reads the block of 5000 × 50 rows, the 1 × 50 bias and
   the block of 5000 ids, forms the 256 × 5000 indicator matrix of the ids (rounded to bf16), multiplies it with the biased
   rows (rounded to bf16) and adds the 256 × 50 product to an accumulator it keeps in a scratch buffer of its own between
   points; at the first point it zeroes the accumulator first, and at the last point it pushes the accumulated sums through
   four affine layers (weights 50 × 30, 30 × 20, 20 × 10, 10 × 1 with their biases) and overwrites the 256 × 1 output block,
   which it leaves alone at every other point.
   This module states, at any contents `V` of the buffers when the launch is entered, what the accumulator holds after each
   point (by recursion on the point) and what the output block holds after the last, and proves the body's obligation
   against it: the invariant between points is the accumulator at the recursion's value. -/
import proofs.«415449_j35734127903067_1_alg».proof.Proof.Gen.KernelIdeal.Launch
import proofs.«415449_j35734127903067_1_alg».proof.Proof.Gen.KernelIdeal.Skeleton
import proofs.«415449_j35734127903067_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's two conditionals -/

/-- The first conditional's test: whether the grid coordinate is zero, as the body computes it. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)
/-- The second conditional's test: whether the grid coordinate is the last. -/
abbrev cond2_1 (i : grid2.Coords) : Prop := k2_cond2 i = 1#1
/-- It holds at the last point only. -/
theorem hcond2_1 : ∀ t : Fin cfg2.N, cond2_1 (grid2.coords t) ↔ t.val = 19 :=
  (by decide +kernel : ∀ t : Fin grid2.N, cond2_1 (grid2.coords t) ↔ t.val = 19)

/-! ## Whole-buffer accesses -/

/-- The offsets of a whole-buffer access are zero. -/
theorem off00 : (![0, 0] : Fin 2 → ℕ) = fun _ => 0 := by funext a; fin_cases a <;> rfl

/-- A load through the whole shape reads the contents. -/
theorem readAt_whole {sg : RefSig} {κ : Kind} {sp : Space} {S : Shape} {e : EltTy} (v : View sg κ sp S e) {off : Fin S.rank → ℕ}
    (h : off = fun _ => 0) (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

/-- After a last store through the whole shape the buffer reads the stored value, whatever was stored before. -/
theorem read_writes_whole_last {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self .., View.mem_set_unit_zero h inb y⟩)).trans
    (View.canon_cons_unit_zero h inb w L)

/-! ## The body's triple, case by case -/

set_option maxHeartbeats 1000000 in
/-- At the first point: on whole memrefs holding a node block `x0`, the bias `x1` and the id block `x2`, the scratch holding
    anything, the body zeroes the scratch, adds the block's pooled rows to it, and leaves the three inputs as they were. -/
theorem sound_kernel2_A (c : Dev nD) (E : Set ℕ) (i : grid2.Coords) (hc0 : cond2_0 i) (hc1 : ¬cond2_1 i)
    (arg1 : Memref sig .tc .vmem S5000x50 .f32) (harg1 : arg1.IsWhole) (arg2 : Memref sig .tc .vmem S1x50 .f32) (harg2 : arg2.IsWhole) (arg3 : Memref sig .tc .vmem S5000x1 .i32) (harg3 : arg3.IsWhole) (arg4 : Memref sig .tc .vmem S50x30 .f32) (harg4 : arg4.IsWhole) (arg5 : Memref sig .tc .vmem S1x30 .f32) (harg5 : arg5.IsWhole) (arg6 : Memref sig .tc .vmem S30x20 .f32) (harg6 : arg6.IsWhole) (arg7 : Memref sig .tc .vmem S1x20 .f32) (harg7 : arg7.IsWhole) (arg8 : Memref sig .tc .vmem S20x10 .f32) (harg8 : arg8.IsWhole) (arg9 : Memref sig .tc .vmem S1x10 .f32) (harg9 : arg9.IsWhole) (arg10 : Memref sig .tc .vmem S10x1 .f32) (harg10 : arg10.IsWhole) (arg11 : Memref sig .tc .vmem S1x1 .f32) (harg11 : arg11.IsWhole) (arg12 : Memref sig .tc .vmem S256x1 .f32) (harg12 : arg12.IsWhole) (arg13 : Memref sig .tc .vmem S256x50 .f32) (harg13 : arg13.IsWhole)
    (x0 : Vec F S5000x50 .f32) (x1 : Vec F S1x50 .f32) (x2 : Vec F S5000x1 .i32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg13 fullShare (k2_pay2 x0 x1 x2 (k2_pay1 (F := F)))) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9 arg10 harg10 arg11 harg11 arg12 harg12 arg13 harg13) K := by
  simp only [cc2__pool_mlp_kernel_eq_skeleton]; unfold cc2__pool_mlp_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_whole_last _ _ off00, readAt_whole (F := F) arg1.view off00 inb_S5000x50_S5000x50_0_0 f0, readAt_whole (F := F) arg2.view off00 inb_S1x50_S1x50_0_0 f1, readAt_whole (F := F) arg3.view off00 inb_S5000x1_S5000x1_0_0 f2,
    View.readCov_unit_zero _ off00]

set_option maxHeartbeats 1000000 in
/-- At a point after the first: the scratch holding `acc`, the body adds the block's pooled rows to it. -/
theorem sound_kernel2_B (c : Dev nD) (E : Set ℕ) (i : grid2.Coords) (hc0 : ¬cond2_0 i) (hc1 : ¬cond2_1 i)
    (arg1 : Memref sig .tc .vmem S5000x50 .f32) (harg1 : arg1.IsWhole) (arg2 : Memref sig .tc .vmem S1x50 .f32) (harg2 : arg2.IsWhole) (arg3 : Memref sig .tc .vmem S5000x1 .i32) (harg3 : arg3.IsWhole) (arg4 : Memref sig .tc .vmem S50x30 .f32) (harg4 : arg4.IsWhole) (arg5 : Memref sig .tc .vmem S1x30 .f32) (harg5 : arg5.IsWhole) (arg6 : Memref sig .tc .vmem S30x20 .f32) (harg6 : arg6.IsWhole) (arg7 : Memref sig .tc .vmem S1x20 .f32) (harg7 : arg7.IsWhole) (arg8 : Memref sig .tc .vmem S20x10 .f32) (harg8 : arg8.IsWhole) (arg9 : Memref sig .tc .vmem S1x10 .f32) (harg9 : arg9.IsWhole) (arg10 : Memref sig .tc .vmem S10x1 .f32) (harg10 : arg10.IsWhole) (arg11 : Memref sig .tc .vmem S1x1 .f32) (harg11 : arg11.IsWhole) (arg12 : Memref sig .tc .vmem S256x1 .f32) (harg12 : arg12.IsWhole) (arg13 : Memref sig .tc .vmem S256x50 .f32) (harg13 : arg13.IsWhole)
    (x0 : Vec F S5000x50 .f32) (x1 : Vec F S1x50 .f32) (x2 : Vec F S5000x1 .i32) (acc : Vec F S256x50 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg13 fullShare acc
        ∗ (iprop(owns (c : Thread nD τ) arg1 fullShare x0 ∗ owns (c : Thread nD τ) arg2 fullShare x1 ∗ owns (c : Thread nD τ) arg3 fullShare x2 ∗ owns (c : Thread nD τ) arg13 fullShare (k2_pay2 x0 x1 x2 acc)) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9 arg10 harg10 arg11 harg11 arg12 harg12 arg13 harg13) K := by
  simp only [cc2__pool_mlp_kernel_eq_skeleton]; unfold cc2__pool_mlp_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [read_writes_whole_last _ _ off00, readAt_whole (F := F) arg1.view off00 inb_S5000x50_S5000x50_0_0 f0, readAt_whole (F := F) arg2.view off00 inb_S1x50_S1x50_0_0 f1, readAt_whole (F := F) arg3.view off00 inb_S5000x1_S5000x1_0_0 f2, readAt_whole (F := F) arg13.view off00 inb_S256x50_S256x50_0_0 fs]

set_option maxHeartbeats 2000000 in
/-- At the last point: the scratch holding `acc`, the body adds the block's pooled rows to it and then overwrites the output
    block with the linear stack of the sum and the eight small operands, all inputs left as they were. -/
theorem sound_kernel2_C (c : Dev nD) (E : Set ℕ) (i : grid2.Coords) (hc0 : ¬cond2_0 i) (hc1 : cond2_1 i)
    (arg1 : Memref sig .tc .vmem S5000x50 .f32) (harg1 : arg1.IsWhole) (arg2 : Memref sig .tc .vmem S1x50 .f32) (harg2 : arg2.IsWhole) (arg3 : Memref sig .tc .vmem S5000x1 .i32) (harg3 : arg3.IsWhole) (arg4 : Memref sig .tc .vmem S50x30 .f32) (harg4 : arg4.IsWhole) (arg5 : Memref sig .tc .vmem S1x30 .f32) (harg5 : arg5.IsWhole) (arg6 : Memref sig .tc .vmem S30x20 .f32) (harg6 : arg6.IsWhole) (arg7 : Memref sig .tc .vmem S1x20 .f32) (harg7 : arg7.IsWhole) (arg8 : Memref sig .tc .vmem S20x10 .f32) (harg8 : arg8.IsWhole) (arg9 : Memref sig .tc .vmem S1x10 .f32) (harg9 : arg9.IsWhole) (arg10 : Memref sig .tc .vmem S10x1 .f32) (harg10 : arg10.IsWhole) (arg11 : Memref sig .tc .vmem S1x1 .f32) (harg11 : arg11.IsWhole) (arg12 : Memref sig .tc .vmem S256x1 .f32) (harg12 : arg12.IsWhole) (arg13 : Memref sig .tc .vmem S256x50 .f32) (harg13 : arg13.IsWhole)
    (x0 : Vec F S5000x50 .f32) (x1 : Vec F S1x50 .f32) (x2 : Vec F S5000x1 .i32) (x3 : Vec F S50x30 .f32) (x4 : Vec F S1x30 .f32) (x5 : Vec F S30x20 .f32) (x6 : Vec F S1x20 .f32) (x7 : Vec F S20x10 .f32) (x8 : Vec F S1x10 .f32) (x9 : Vec F S10x1 .f32) (x10 : Vec F S1x1 .f32) (acc : Vec F S256x50 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare acc
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (k2_pay3 (k2_pay2 x0 x1 x2 acc) x3 x4 x5 x6 x7 x8 x9 x10) ∗ owns (c : Thread nD τ) arg13 fullShare (k2_pay2 x0 x1 x2 acc)) -∗ K ⟨⟩))
      ⊢ wp frame (wpE (defs₀ (F := F)) Variants.none c none) E (cc2__pool_mlp_kernel i arg1 harg1 arg2 harg2 arg3 harg3 arg4 harg4 arg5 harg5 arg6 harg6 arg7 harg7 arg8 harg8 arg9 harg9 arg10 harg10 arg11 harg11 arg12 harg12 arg13 harg13) K := by
  simp only [cc2__pool_mlp_kernel_eq_skeleton]; unfold cc2__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs, %hfs, HS⟩, Hk⟩
  subst hf0; subst hf1; subst hf2; subst hf3; subst hf4; subst hf5; subst hf6; subst hf7; subst hf8; subst hf9; subst hf10; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  have eS : arg13.view.read (Elt F) (arg13.view.writes (Elt F) fs
      [⟨Rect.unit ![0, 0] S256x50.size inb_S256x50_S256x50_0_0,
        k2_pay2 (View.readAt (Elt F) arg1.view (Rect.unit ![0, 0] S5000x50.size inb_S5000x50_S5000x50_0_0).toLoadRect f0)
          (View.readAt (Elt F) arg2.view (Rect.unit ![0, 0] S1x50.size inb_S1x50_S1x50_0_0).toLoadRect f1)
          (View.readAt (Elt F) arg3.view (Rect.unit ![0, 0] S5000x1.size inb_S5000x1_S5000x1_0_0).toLoadRect f2)
          (View.readAt (Elt F) arg13.view (Rect.unit ![0, 0] S256x50.size inb_S256x50_S256x50_0_0).toLoadRect fs)⟩])
      = k2_pay2 (arg1.view.read (Elt F) f0) (arg2.view.read (Elt F) f1) (arg3.view.read (Elt F) f2) (arg13.view.read (Elt F) fs) := by
    rw [read_writes_whole_last _ _ off00, readAt_whole (F := F) arg1.view off00 inb_S5000x50_S5000x50_0_0 f0, readAt_whole (F := F) arg2.view off00 inb_S1x50_S1x50_0_0 f1, readAt_whole (F := F) arg3.view off00 inb_S5000x1_S5000x1_0_0 f2, readAt_whole (F := F) arg13.view off00 inb_S256x50_S256x50_0_0 fs]
  isplitl [H11]
  · iexists _; isplitr
    swap; · iexact H11
    ipureintro
    sl_unfold_run_names
    rw [read_writes_whole_last _ _ off00, View.readCov_unit_zero _ off00, readAt_whole (F := F) arg4.view off00 inb_S50x30_S50x30_0_0 f3, readAt_whole (F := F) arg5.view off00 inb_S1x30_S1x30_0_0 f4, readAt_whole (F := F) arg6.view off00 inb_S30x20_S30x20_0_0 f5, readAt_whole (F := F) arg7.view off00 inb_S1x20_S1x20_0_0 f6, readAt_whole (F := F) arg8.view off00 inb_S20x10_S20x10_0_0 f7, readAt_whole (F := F) arg9.view off00 inb_S1x10_S1x10_0_0 f8, readAt_whole (F := F) arg10.view off00 inb_S10x1_S10x1_0_0 f9, readAt_whole (F := F) arg11.view off00 inb_S1x1_S1x1_0_0 f10,
      readAt_whole (F := F) arg1.view off00 inb_S5000x50_S5000x50_0_0 f0, readAt_whole (F := F) arg2.view off00 inb_S1x50_S1x50_0_0 f1, readAt_whole (F := F) arg3.view off00 inb_S5000x1_S5000x1_0_0 f2, readAt_whole (F := F) arg13.view off00 inb_S256x50_S256x50_0_0 fs]
  iexists _; isplitr
  swap; · iexact HS
  ipureintro
  sl_unfold_run_names
  exact eS

/-! ## The windows' blocks -/

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The node-row window's buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The row-bias window's buffer holds its block at every point: it is fetched once and its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The id window's buffer holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The first weight window's buffer holds its block at every point: it is fetched once and its index never moves. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The first bias window's buffer holds its block at every point: it is fetched once and its index never moves. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The second weight window's buffer holds its block at every point: it is fetched once and its index never moves. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The second bias window's buffer holds its block at every point: it is fetched once and its index never moves. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The third weight window's buffer holds its block at every point: it is fetched once and its index never moves. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- The third bias window's buffer holds its block at every point: it is fetched once and its index never moves. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The fourth weight window's buffer holds its block at every point: it is fetched once and its index never moves. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- The fourth bias window's buffer holds its block at every point: it is fetched once and its index never moves. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-! ## What the accumulator and the output hold -/

/-- the scratch after the body at position n: zeros accumulated with points 0..n -/
def accAt2 (c : Dev nD) : (n : ℕ) → n < cfg2.N → Vec F S256x50 .f32
  | 0, h => k2_pay2 (iblk2 V c 0 ⟨0, h⟩) (iblk2 V c 1 ⟨0, h⟩) (iblk2 V c 2 ⟨0, h⟩) (k2_pay1 (F := F))
  | n + 1, h => k2_pay2 (iblk2 V c 0 ⟨n + 1, h⟩) (iblk2 V c 1 ⟨n + 1, h⟩) (iblk2 V c 2 ⟨n + 1, h⟩) (accAt2 c n (Nat.lt_of_succ_lt h))

theorem accAt2_zero (c : Dev nD) (h : 0 < cfg2.N) :
    accAt2 V c 0 h = k2_pay2 (iblk2 V c 0 ⟨0, h⟩) (iblk2 V c 1 ⟨0, h⟩) (iblk2 V c 2 ⟨0, h⟩) (k2_pay1 (F := F)) := rfl

theorem accAt2_succ (c : Dev nD) (n : ℕ) (h : n + 1 < cfg2.N) :
    accAt2 V c (n + 1) h = k2_pay2 (iblk2 V c 0 ⟨n + 1, h⟩) (iblk2 V c 1 ⟨n + 1, h⟩) (iblk2 V c 2 ⟨n + 1, h⟩) (accAt2 V c n (Nat.lt_of_succ_lt h)) := rfl

/-- At the first point the accumulator is the block's pooled rows over zeros. -/
theorem accAt2_first (c : Dev nD) (t : Fin cfg2.N) (h0 : t.val = 0) :
    accAt2 V c t.val t.isLt = k2_pay2 (iblk2 V c 0 t) (iblk2 V c 1 t) (iblk2 V c 2 t) (k2_pay1 (F := F)) := by
  obtain ⟨n, hn⟩ := t
  cases n with
  | zero => rfl
  | succ n => exact absurd h0 (Nat.succ_ne_zero n)

/-- At a later point it is the block's pooled rows over what the point before left. -/
theorem accAt2_later (c : Dev nD) (t : Fin cfg2.N) (h0 : t.val ≠ 0) :
    accAt2 V c t.val t.isLt = k2_pay2 (iblk2 V c 0 t) (iblk2 V c 1 t) (iblk2 V c 2 t)
      (accAt2 V c (t.val - 1) (Nat.lt_of_le_of_lt (Nat.sub_le _ _) t.isLt)) := by
  obtain ⟨n, hn⟩ := t
  cases n with
  | zero => exact absurd rfl h0
  | succ n => rfl

/-- The grid's last position. -/
theorem lt19 : 19 < cfg2.N := by rw [show cfg2.N = 20 from N_2]; decide

/-- the output block after the last point -/
def outLast2 (c : Dev nD) : Vec F S256x1 .f32 :=
  k2_pay3 (accAt2 V c 19 lt19) (iblk2 V c 3 ⟨19, lt19⟩) (iblk2 V c 4 ⟨19, lt19⟩) (iblk2 V c 5 ⟨19, lt19⟩) (iblk2 V c 6 ⟨19, lt19⟩) (iblk2 V c 7 ⟨19, lt19⟩) (iblk2 V c 8 ⟨19, lt19⟩) (iblk2 V c 9 ⟨19, lt19⟩) (iblk2 V c 10 ⟨19, lt19⟩)

theorem outLast2_eq (c : Dev nD) :
    outLast2 V c = k2_pay3 (accAt2 V c 19 (by rw [show cfg2.N = 20 from N_2]; decide)) (iblk2 V c 3 ⟨19, lt19⟩) (iblk2 V c 4 ⟨19, lt19⟩) (iblk2 V c 5 ⟨19, lt19⟩) (iblk2 V c 6 ⟨19, lt19⟩) (iblk2 V c 7 ⟨19, lt19⟩) (iblk2 V c 8 ⟨19, lt19⟩) (iblk2 V c 9 ⟨19, lt19⟩) (iblk2 V c 10 ⟨19, lt19⟩) := rfl

/-- At the last point the output block is the linear stack of that point's accumulator. -/
theorem outLast2_at (c : Dev nD) (t : Fin cfg2.N) (h : t.val = 19) :
    outLast2 V c = k2_pay3 (accAt2 V c t.val t.isLt) (iblk2 V c 3 t) (iblk2 V c 4 t) (iblk2 V c 5 t) (iblk2 V c 6 t) (iblk2 V c 7 t) (iblk2 V c 8 t) (iblk2 V c 9 t) (iblk2 V c 10 t) := by
  obtain rfl : t = ⟨19, lt19⟩ := Fin.ext h
  rfl

/-! ## The invariant between points -/

/-- The accumulator: a whole scoped buffer of the kernel's own, passed beside the windows. -/
abbrev scM2 : Memref sig .tc .vmem S256x50 .f32 := Memref.whole cc2_scratch0

/-- The core's scoped buffers that are no staging buffer of this launch, the other launches' staging buffers at some
    contents each and the accumulator as `S` says, and the generator register at some state. -/
def scoped2 (c : Dev nD) (S : sProp 𝕄) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ S) ∗ ∃ r, prngReg c r)

/-- What the launch hands the region is that with the accumulator at anything. -/
theorem PhiA2_eq (c : Dev nD) :
    (Pipeline.ΦA spec2 c : sProp 𝕄) = scoped2 c iprop(∃ d, owns (c : Thread nD τ) scM2 fullShare d) := by
  unfold Pipeline.ΦA scoped2; rw [scopedRest2_eq]; simp only [scM2, owns_whole]; try rfl

/-- The accumulator can be taken out and put back at other contents. -/
theorem scoped2_swap (c : Dev nD) (S S' : sProp 𝕄) : scoped2 (F := F) c S ⊢ iprop(S ∗ (S' -∗ scoped2 (F := F) c S')) := by
  unfold scoped2
  iintro ⟨⟨R0, R1, R2, R3, R4, R5, R6, R7, R8, R9, R10, HS⟩, Hg⟩
  isplitl [HS]; · iexact HS
  iintro HS'
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact HS'

/-- The invariant before position `n`: before the first point what the launch hands the region; afterwards the same with
    the accumulator at what the point before left in it. -/
def PhiS2 (c : Dev nD) : (n : ℕ) → n ≤ cfg2.N → sProp 𝕄
  | 0, _ => Pipeline.ΦA spec2 c
  | n + 1, hn => scoped2 c (owns (c : Thread nD τ) scM2 fullShare (accAt2 V c n hn))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = scoped2 c (owns (c : Thread nD τ) scM2 fullShare (accAt2 V c n hn)) := rfl

theorem PhiS2_pos (c : Dev nD) (n : ℕ) (h : n ≤ cfg2.N) (hz : n ≠ 0) :
    PhiS2 V c n h = scoped2 c (owns (c : Thread nD τ) scM2 fullShare (accAt2 V c (n - 1) (by omega))) := by
  cases n with
  | zero => exact absurd rfl hz
  | succ n => rfl

/-! ## The launch's proof data -/

/-- After the body at point `t` each input's buffer holds its block; the output's, where anything consults it (the last
    point), the linear stack of the sums; the invariant is the accumulator's; the launch owes nothing. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => outLast2 V c
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) (ht : t.val = 19) : (dat2 V c).after 11 t = outLast2 V c := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## Where the output window is idle -/

/-- Away from the last point the output window is idle: the body stores nothing into it, -/
theorem idleAt2_11 : ∀ t : Fin cfg2.N, ¬cond2_1 (grid2.coords t) → cfg2.idle 11 (grid2.coords t) = true := by decide +kernel
/-- and the pipeline does not write its block back. -/
theorem noFlush2_11 : ∀ t : Fin cfg2.N, ¬cond2_1 (grid2.coords t) → (cfg2.win 11).flush t = false := by decide +kernel
/-- At the last point it is live. -/
theorem liveAt2_11 : ∀ t : Fin cfg2.N, cond2_1 (grid2.coords t) → cfg2.idle 11 (grid2.coords t) = false := by decide +kernel

/-- Input window 0 is never idle, so the body hands its buffer back at its block. -/
theorem leaves2_0 (c : Dev nD) (t : Fin cfg2.N) :
    (dat2 V c).leavesExact 0 t = owns (c : Thread nD τ) (st2_0 t) fullShare (iblk2 V c 0 t) := by
  rw [← after2_0 V c t]
/-- Input window 1 is never idle, so the body hands its buffer back at its block. -/
theorem leaves2_1 (c : Dev nD) (t : Fin cfg2.N) :
    (dat2 V c).leavesExact 1 t = owns (c : Thread nD τ) (st2_1 t) fullShare (iblk2 V c 1 t) := by
  rw [← after2_1 V c t]
/-- Input window 2 is never idle, so the body hands its buffer back at its block. -/
theorem leaves2_2 (c : Dev nD) (t : Fin cfg2.N) :
    (dat2 V c).leavesExact 2 t = owns (c : Thread nD τ) (st2_2 t) fullShare (iblk2 V c 2 t) := by
  rw [← after2_2 V c t]
/-- Input window 3 is never idle, so the body hands its buffer back at its block. -/
theorem leaves2_3 (c : Dev nD) (t : Fin cfg2.N) :
    (dat2 V c).leavesExact 3 t = owns (c : Thread nD τ) (st2_3 t) fullShare (iblk2 V c 3 t) := by
  rw [← after2_3 V c t]
/-- Input window 4 is never idle, so the body hands its buffer back at its block. -/
theorem leaves2_4 (c : Dev nD) (t : Fin cfg2.N) :
    (dat2 V c).leavesExact 4 t = owns (c : Thread nD τ) (st2_4 t) fullShare (iblk2 V c 4 t) := by
  rw [← after2_4 V c t]
/-- Input window 5 is never idle, so the body hands its buffer back at its block. -/
theorem leaves2_5 (c : Dev nD) (t : Fin cfg2.N) :
    (dat2 V c).leavesExact 5 t = owns (c : Thread nD τ) (st2_5 t) fullShare (iblk2 V c 5 t) := by
  rw [← after2_5 V c t]
/-- Input window 6 is never idle, so the body hands its buffer back at its block. -/
theorem leaves2_6 (c : Dev nD) (t : Fin cfg2.N) :
    (dat2 V c).leavesExact 6 t = owns (c : Thread nD τ) (st2_6 t) fullShare (iblk2 V c 6 t) := by
  rw [← after2_6 V c t]
/-- Input window 7 is never idle, so the body hands its buffer back at its block. -/
theorem leaves2_7 (c : Dev nD) (t : Fin cfg2.N) :
    (dat2 V c).leavesExact 7 t = owns (c : Thread nD τ) (st2_7 t) fullShare (iblk2 V c 7 t) := by
  rw [← after2_7 V c t]
/-- Input window 8 is never idle, so the body hands its buffer back at its block. -/
theorem leaves2_8 (c : Dev nD) (t : Fin cfg2.N) :
    (dat2 V c).leavesExact 8 t = owns (c : Thread nD τ) (st2_8 t) fullShare (iblk2 V c 8 t) := by
  rw [← after2_8 V c t]
/-- Input window 9 is never idle, so the body hands its buffer back at its block. -/
theorem leaves2_9 (c : Dev nD) (t : Fin cfg2.N) :
    (dat2 V c).leavesExact 9 t = owns (c : Thread nD τ) (st2_9 t) fullShare (iblk2 V c 9 t) := by
  rw [← after2_9 V c t]
/-- Input window 10 is never idle, so the body hands its buffer back at its block. -/
theorem leaves2_10 (c : Dev nD) (t : Fin cfg2.N) :
    (dat2 V c).leavesExact 10 t = owns (c : Thread nD τ) (st2_10 t) fullShare (iblk2 V c 10 t) := by
  rw [← after2_10 V c t]

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t)

set_option maxHeartbeats 4000000 in
/-- The body at any point. The inputs' buffers hold their blocks; the position says which of the three runs applies; the
    invariant hands the body the accumulator (at anything at the first point, else at what the point before left) and
    takes it back at this point's sums; away from the last point the output's buffer goes back as it came. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, leaves2_6, leaves2_7, leaves2_8, leaves2_9, leaves2_10]
  have hN : t.val < 20 := lt_of_lt_of_eq t.isLt (show cfg2.N = 20 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 11 t (idleAt2_11 t hc1) (noFlush2_11 t hc1)]
    rw [PhiS2_castSucc V c t, PhiS2_zero V c _ _ h0, PhiA2_eq, accAt2_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
    ihave HΦ' := (scoped2_swap c _ (owns (c : Thread nD τ) scM2 fullShare (k2_pay2 (iblk2 V c 0 t) (iblk2 V c 1 t) (iblk2 V c 2 t) (k2_pay1 (F := F))))) $$ HΦ
    icases HΦ' with ⟨HS, Hb⟩
    iapply (sound_kernel2_A c Set.univ (grid2.coords t) hc0 hc1 _ _ _ _ _ _ _ _ _ _ _ _ _ _ _ _ _ _ _ _ _ _ _ _ _ _ (iblk2 V c 0 t) (iblk2 V c 1 t) (iblk2 V c 2 t) _)
    isplitl [H0]; · iexact H0
    isplitl [H1]; · iexact H1
    isplitl [H2]; · iexact H2
    isplitl [HS]; · iexact HS
    iintro ⟨H0, H1, H2, HS⟩
    isplitl [Hb HS]; · iapply Hb; iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · by_cases h1 : t.val = 19
    · have hc0 : ¬cond2_0 (grid2.coords t) := fun h => h0 ((hcond2_0 t).mp h)
      have hc1 : cond2_1 (grid2.coords t) := (hcond2_1 t).mpr h1
      rw [show (dat2 V c).leavesExact 11 t = owns (c : Thread nD τ) (st2_11 t) fullShare ((dat2 V c).after 11 t) from by
        unfold Dat.leavesExact; rw [liveAt2_11 t hc1], after2_11 V c t h1, outLast2_at V c t h1]
      rw [PhiS2_castSucc V c t, PhiS2_pos V c _ _ h0, accAt2_later V c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      ihave HΦ' := (scoped2_swap c _ (owns (c : Thread nD τ) scM2 fullShare (k2_pay2 (iblk2 V c 0 t) (iblk2 V c 1 t) (iblk2 V c 2 t) (accAt2 V c (t.val - 1) (Nat.lt_of_le_of_lt (Nat.sub_le _ _) t.isLt))))) $$ HΦ
      icases HΦ' with ⟨HS, Hb⟩
      iapply (sound_kernel2_C c Set.univ (grid2.coords t) hc0 hc1 _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS]; · iexact HS
      iintro ⟨H0, H1, H2, H3, H4, H5, H6, H7, H8, H9, H10, H11, HS⟩
      isplitl [Hb HS]; · iapply Hb; iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · have hc0 : ¬cond2_0 (grid2.coords t) := fun h => h0 ((hcond2_0 t).mp h)
      have hc1 : ¬cond2_1 (grid2.coords t) := fun h => h1 ((hcond2_1 t).mp h)
      rw [Dat.leavesExact_idle (dat2 V c) 11 t (idleAt2_11 t hc1) (noFlush2_11 t hc1)]
      rw [PhiS2_castSucc V c t, PhiS2_pos V c _ _ h0, accAt2_later V c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
      ihave HΦ' := (scoped2_swap c _ (owns (c : Thread nD τ) scM2 fullShare (k2_pay2 (iblk2 V c 0 t) (iblk2 V c 1 t) (iblk2 V c 2 t) (accAt2 V c (t.val - 1) (Nat.lt_of_le_of_lt (Nat.sub_le _ _) t.isLt))))) $$ HΦ
      icases HΦ' with ⟨HS, Hb⟩
      iapply (sound_kernel2_B c Set.univ (grid2.coords t) hc0 hc1 _ _ _ _ _ _ _ _ _ _ _ _ _ _ _ _ _ _ _ _ _ _ _ _ _ _ (iblk2 V c 0 t) (iblk2 V c 1 t) (iblk2 V c 2 t) _ _)
      isplitl [H0]; · iexact H0
      isplitl [H1]; · iexact H1
      isplitl [H2]; · iexact H2
      isplitl [HS]; · iexact HS
      iintro ⟨H0, H1, H2, HS⟩
      isplitl [Hb HS]; · iapply Hb; iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Into and out of the invariant -/

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives it back: what the accumulator holds is forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 20 := N_2; omega), PhiA2_eq]
  iintro HΦ
  ihave HΦ' := (scoped2_swap c _ iprop(∃ d, owns (c : Thread nD τ) scM2 fullShare d)) $$ HΦ
  icases HΦ' with ⟨HS, Hb⟩
  iapply Hb
  iexists _; iexact HS

end Cert.KernelIdeal.Hand

end
-- ==== Proof.KernelIdeal.Run.lean ====
/- The whole program's run. @main is three host stretches, each followed by a launch. This module names the contents of every
   unscoped buffer at each of the seven boundaries between those six segments (a host stretch applies its operations; a
   launch replaces its output array by what its write-backs leave and keeps everything else), gives each launch its segment
   record over the proof data of the three launch modules, and runs the list: every weakly fair execution terminates, and at
   the end every unscoped buffer holds the last boundary's contents. The argument arrays are written by no segment, so they
   end as launched; the result array is the third launch's output. -/
import proofs.«415449_j35734127903067_1_alg».proof.Proof.KernelIdeal.R0
import proofs.«415449_j35734127903067_1_alg».proof.Proof.KernelIdeal.R1
import proofs.«415449_j35734127903067_1_alg».proof.Proof.KernelIdeal.R2
import proofs.«415449_j35734127903067_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch of the program. -/
abbrev Q0 : Dev nD → Valuation τ sig (Elt F) := fun c b => (s₀ m ρ).mem ((c : Dev nD), b)
/-- After the first host stretch: the first launch's entry. -/
abbrev Q1 : Dev nD → Valuation τ sig (Elt F) := fun c => StableHlo.after hostOps0 (Q0 m ρ c)
abbrev QV1 : (c : Dev nD) → (b : Ref sig .tc) → Buf (Elt F) ((c : Thread nD τ).loc b) := fun c b => Q1 m ρ c b

/-- At launch 0's exit: its arrays at what the write-backs leave, every other buffer as entered. -/
def Q2 (c : Dev nD) : Valuation τ sig (Elt F) :=
  Pipeline.withArrays spec0 c (Q1 m ρ c) fun w => (dat0 (QV1 m ρ) c).arrAt w cfg0.N
theorem Q2_arr (c : Dev nD) (w : Fin cfg0.W) :
    Q2 m ρ c (Proc.devRef .tc (Pipeline.arrRef spec0 w)) = (dat0 (QV1 m ρ) c).arrAt w cfg0.N := by
  unfold Q2; exact Pipeline.withArrays_arr spec0 launch0.win.arr_inj c _ _ w
theorem Q2_of_ne (c : Dev nD) (b : Ref sig .tc) (hb : ∀ w, Pipeline.arrRef spec0 w ≠ b) :
    Q2 m ρ c (Proc.devRef .tc b) = Q1 m ρ c (Proc.devRef .tc b) := by
  unfold Q2; exact Pipeline.withArrays_of_ne spec0 c _ _ b hb
abbrev QV2 : (c : Dev nD) → (b : Ref sig .tc) → Buf (Elt F) ((c : Thread nD τ).loc b) := fun c b => Q2 m ρ c b
theorem hF0 (c : Dev nD) (w : Fin cfg0.W) : (dat0 (QV1 m ρ) c).arrAt w cfg0.N = QV2 m ρ c (Pipeline.arrRef spec0 w) :=
  (Q2_arr m ρ c w).symm
theorem hrest0 (c : Dev nD) : ∀ b, b ∉ Finset.univ.image (Pipeline.arrRef spec0) → QV2 m ρ c b = QV1 m ρ c b :=
  fun b hb => Q2_of_ne m ρ c b fun w e => hb (Finset.mem_image.mpr ⟨w, Finset.mem_univ _, e⟩)

/-- After the second host stretch: the second launch's entry. -/
abbrev Q3 : Dev nD → Valuation τ sig (Elt F) := fun c => StableHlo.after hostOps1 (Q2 m ρ c)
abbrev QV3 : (c : Dev nD) → (b : Ref sig .tc) → Buf (Elt F) ((c : Thread nD τ).loc b) := fun c b => Q3 m ρ c b

/-- At launch 1's exit: its arrays at what the write-backs leave, every other buffer as entered. -/
def Q4 (c : Dev nD) : Valuation τ sig (Elt F) :=
  Pipeline.withArrays spec1 c (Q3 m ρ c) fun w => (dat1 (QV3 m ρ) c).arrAt w cfg1.N
theorem Q4_arr (c : Dev nD) (w : Fin cfg1.W) :
    Q4 m ρ c (Proc.devRef .tc (Pipeline.arrRef spec1 w)) = (dat1 (QV3 m ρ) c).arrAt w cfg1.N := by
  unfold Q4; exact Pipeline.withArrays_arr spec1 launch1.win.arr_inj c _ _ w
theorem Q4_of_ne (c : Dev nD) (b : Ref sig .tc) (hb : ∀ w, Pipeline.arrRef spec1 w ≠ b) :
    Q4 m ρ c (Proc.devRef .tc b) = Q3 m ρ c (Proc.devRef .tc b) := by
  unfold Q4; exact Pipeline.withArrays_of_ne spec1 c _ _ b hb
abbrev QV4 : (c : Dev nD) → (b : Ref sig .tc) → Buf (Elt F) ((c : Thread nD τ).loc b) := fun c b => Q4 m ρ c b
theorem hF1 (c : Dev nD) (w : Fin cfg1.W) : (dat1 (QV3 m ρ) c).arrAt w cfg1.N = QV4 m ρ c (Pipeline.arrRef spec1 w) :=
  (Q4_arr m ρ c w).symm
theorem hrest1 (c : Dev nD) : ∀ b, b ∉ Finset.univ.image (Pipeline.arrRef spec1) → QV4 m ρ c b = QV3 m ρ c b :=
  fun b hb => Q4_of_ne m ρ c b fun w e => hb (Finset.mem_image.mpr ⟨w, Finset.mem_univ _, e⟩)

/-- After the third host stretch: the third launch's entry. -/
abbrev Q5 : Dev nD → Valuation τ sig (Elt F) := fun c => StableHlo.after hostOps2 (Q4 m ρ c)
abbrev QV5 : (c : Dev nD) → (b : Ref sig .tc) → Buf (Elt F) ((c : Thread nD τ).loc b) := fun c b => Q5 m ρ c b

/-- At launch 2's exit: its arrays at what the write-backs leave, every other buffer as entered. -/
def Q6 (c : Dev nD) : Valuation τ sig (Elt F) :=
  Pipeline.withArrays spec2 c (Q5 m ρ c) fun w => (dat2 (QV5 m ρ) c).arrAt w cfg2.N
theorem Q6_arr (c : Dev nD) (w : Fin cfg2.W) :
    Q6 m ρ c (Proc.devRef .tc (Pipeline.arrRef spec2 w)) = (dat2 (QV5 m ρ) c).arrAt w cfg2.N := by
  unfold Q6; exact Pipeline.withArrays_arr spec2 launch2.win.arr_inj c _ _ w
theorem Q6_of_ne (c : Dev nD) (b : Ref sig .tc) (hb : ∀ w, Pipeline.arrRef spec2 w ≠ b) :
    Q6 m ρ c (Proc.devRef .tc b) = Q5 m ρ c (Proc.devRef .tc b) := by
  unfold Q6; exact Pipeline.withArrays_of_ne spec2 c _ _ b hb
abbrev QV6 : (c : Dev nD) → (b : Ref sig .tc) → Buf (Elt F) ((c : Thread nD τ).loc b) := fun c b => Q6 m ρ c b
theorem hF2 (c : Dev nD) (w : Fin cfg2.W) : (dat2 (QV5 m ρ) c).arrAt w cfg2.N = QV6 m ρ c (Pipeline.arrRef spec2 w) :=
  (Q6_arr m ρ c w).symm
theorem hrest2 (c : Dev nD) : ∀ b, b ∉ Finset.univ.image (Pipeline.arrRef spec2) → QV6 m ρ c b = QV5 m ρ c b :=
  fun b hb => Q6_of_ne m ρ c b fun w e => hb (Finset.mem_image.mpr ⟨w, Finset.mem_univ _, e⟩)

/-! ## What each segment keeps -/

/-- Launch 0 changes only its output array: every other reference reads as at its entry (an input array through its
    window's unchanged array, a reference it has no window on directly). -/
theorem Q2_keep (c : Dev nD) (b : Ref sig .tc) (hb : b ≠ main_v27) :
    Q2 m ρ c (Proc.devRef .tc b) = Q1 m ρ c (Proc.devRef .tc b) := by
  by_cases h : ∃ w, Pipeline.arrRef spec0 w = b
  · obtain ⟨w, rfl⟩ := h
    have hw : (cfg0.win w).isOut = false :=
      (by decide : ∀ w : Fin cfg0.W, Pipeline.arrRef spec0 w ≠ main_v27 → (cfg0.win w).isOut = false) w hb
    exact (Q2_arr m ρ c w).trans (((dat0 (QV1 m ρ) c).arrAt_in w hw _).trans (A_eq0 (QV1 m ρ) c w))
  · exact Q2_of_ne m ρ c b fun w e => h ⟨w, e⟩

/-- Launch 1 changes only its output array: every other reference reads as at its entry (an input array through its
    window's unchanged array, a reference it has no window on directly). -/
theorem Q4_keep (c : Dev nD) (b : Ref sig .tc) (hb : b ≠ main_v42) :
    Q4 m ρ c (Proc.devRef .tc b) = Q3 m ρ c (Proc.devRef .tc b) := by
  by_cases h : ∃ w, Pipeline.arrRef spec1 w = b
  · obtain ⟨w, rfl⟩ := h
    have hw : (cfg1.win w).isOut = false :=
      (by decide : ∀ w : Fin cfg1.W, Pipeline.arrRef spec1 w ≠ main_v42 → (cfg1.win w).isOut = false) w hb
    exact (Q4_arr m ρ c w).trans (((dat1 (QV3 m ρ) c).arrAt_in w hw _).trans (A_eq1 (QV3 m ρ) c w))
  · exact Q4_of_ne m ρ c b fun w e => h ⟨w, e⟩

/-- Launch 2 changes only its output array: every other reference reads as at its entry (an input array through its
    window's unchanged array, a reference it has no window on directly). -/
theorem Q6_keep (c : Dev nD) (b : Ref sig .tc) (hb : b ≠ main_v62) :
    Q6 m ρ c (Proc.devRef .tc b) = Q5 m ρ c (Proc.devRef .tc b) := by
  by_cases h : ∃ w, Pipeline.arrRef spec2 w = b
  · obtain ⟨w, rfl⟩ := h
    have hw : (cfg2.win w).isOut = false :=
      (by decide : ∀ w : Fin cfg2.W, Pipeline.arrRef spec2 w ≠ main_v62 → (cfg2.win w).isOut = false) w hb
    exact (Q6_arr m ρ c w).trans (((dat2 (QV5 m ρ) c).arrAt_in w hw _).trans (A_eq2 (QV5 m ρ) c w))
  · exact Q6_of_ne m ρ c b fun w e => h ⟨w, e⟩

/-- A reference that no host stretch writes and that is no launch's output reads at the end as at launch. -/
theorem Q6_kept (c : Dev nD) (b : Ref sig .tc) (h0 : b ∉ hostOps0_W) (h1 : b ∉ hostOps1_W) (h2 : b ∉ hostOps2_W)
    (n0 : b ≠ main_v27) (n1 : b ≠ main_v42) (n2 : b ≠ main_v62) :
    Q6 m ρ c (Proc.devRef .tc b) = m ((c : Thread nD τ).loc b) :=
  calc Q6 m ρ c (Proc.devRef .tc b)
    _ = Q5 m ρ c (Proc.devRef .tc b) := Q6_keep m ρ c b n2
    _ = Q4 m ρ c (Proc.devRef .tc b) := StableHlo.after_of_writes_sub hostOps2 _ hostOps2_writes h2
    _ = Q3 m ρ c (Proc.devRef .tc b) := Q4_keep m ρ c b n1
    _ = Q2 m ρ c (Proc.devRef .tc b) := StableHlo.after_of_writes_sub hostOps1 _ hostOps1_writes h1
    _ = Q1 m ρ c (Proc.devRef .tc b) := Q2_keep m ρ c b n0
    _ = Q0 m ρ c (Proc.devRef .tc b) := StableHlo.after_of_writes_sub hostOps0 _ hostOps0_writes h0
    _ = m ((c : Thread nD τ).loc b) := rfl

/-- The result array at the end is the third launch's output array after its last write-back. -/
theorem Q6_result (c : Dev nD) : Q6 m ρ c (Proc.devRef .tc main_v62) = (dat2 (QV5 m ρ) c).arrAt 11 cfg2.N :=
  Q6_arr m ρ c 11

/-! ## The proof data family and the thread state -/

/-- No launch has a prefetched table. -/
abbrev hadm : (p : Fin 3) → (pcfgs (F := F) p).Adm := fun p => (cfgs p).toPCfg_adm
/-- Every launch's proof data, each at its entry contents. -/
def pdats : (p : Fin 3) → (c : Dev nD) → Dat τ (Elt F) Unit ℕ (UR sig nD τ) ℕ (Pipeline.pin (pcfgs (F := F)) hadm p) c
  | ⟨0, _⟩ => fun c => dat0 (QV1 m ρ) c
  | ⟨1, _⟩ => fun c => dat1 (QV3 m ρ) c
  | ⟨2, _⟩ => fun c => dat2 (QV5 m ρ) c
abbrev 𝒱ₙ : Variants := Variants.none
/-- No core owes another anything: no level is assigned. -/
abbrev Lₙ : GSem nD τ sig → Finset Unit := fun _ => ∅
abbrev lvₙ : GSem nD τ sig → Unit → ℕ := fun _ _ => 0
/-- What rides beside the buffers through every segment: the generator register at some state, and nothing owed. -/
abbrev Rₙ (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ Lₙ lvₙ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rₙ
/-- The last thread state without the `owes`: every unscoped buffer at the last boundary's contents, the generator
    register at some state. -/
abbrev Tₙ (c : Dev nD) : sProp 𝕄 := iprop(StableHlo.held (c : Thread nD τ) (Pipeline.ucRefs τ sig) (Q6 m ρ c) ∗ ∃ r, prngReg c r)

/-! ## The launches as segments -/

set_option backward.isDefEq.respectTransparency.types false in
/-- Launch 0 as a segment: entered with every unscoped buffer at `Q1`, left with them at `Q2`. Its arrays are split
    out of the unscoped buffers and put back at what the write-backs leave; the generator register goes into the launch's
    invariant and comes back; nothing is owed; the kernel has no semaphore of its own. -/
def reg0 : Pipeline.RegionSeg (pcfgs (F := F)) hadm (pdats m ρ) () defs₀ 𝒱ₙ Lₙ lvₙ 0 where
  win := launch0.win.to₀
  block_pos := launch0.block_pos
  stage_whole := launch0.stage_whole
  K := PEmpty
  osem k := k.elim
  ho := Pipeline.OwnSemFacts.none _
  hbody c := (body_obligation0 (QV1 m ρ) c).loose
  hwaits := Pipeline.hwaits_of_owed_zero _ _ _ _ Lₙ lvₙ 0 fun _ _ => rfl
  pre c := iprop(StableHlo.held (c : Thread nD τ) (Pipeline.ucRefs τ sig) (Q1 m ρ c) ∗ Rₙ c)
  post c := iprop(StableHlo.held (c : Thread nD τ) (Pipeline.ucRefs τ sig) (Q2 m ρ c) ∗ Rₙ c)
  X c := iprop(∃ r, prngReg c r)
  Y c := iprop(∃ r, prngReg c r)
  Z c := Pipeline.unscopedRest (Ix := Unit) (Name := ℕ) (U := UR sig nD τ) (Lvl := ℕ) spec0 c (QV1 m ρ c)
  hentry c := by
    rw [Pipeline.ownSems0_none]
    have hsplit := Pipeline.arrays_of_unscopedBufs (p := 0) (pcfgs (F := F)) hadm (pdats m ρ) launch0.win launch0.arr_whole c
      ((pdats m ρ 0 c).share_full fun _ => rfl) (QV1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m ρ) ((pdats m ρ 0 c).share_full fun _ => rfl)
      (QV1 m ρ c) (QV2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered with every unscoped buffer at `Q3`, left with them at `Q4`. Its arrays are split
    out of the unscoped buffers and put back at what the write-backs leave; the generator register goes into the launch's
    invariant and comes back; nothing is owed; the kernel has no semaphore of its own. -/
def reg1 : Pipeline.RegionSeg (pcfgs (F := F)) hadm (pdats m ρ) () defs₀ 𝒱ₙ Lₙ lvₙ 1 where
  win := launch1.win.to₀
  block_pos := launch1.block_pos
  stage_whole := launch1.stage_whole
  K := PEmpty
  osem k := k.elim
  ho := Pipeline.OwnSemFacts.none _
  hbody c := (body_obligation1 (QV3 m ρ) c).loose
  hwaits := Pipeline.hwaits_of_owed_zero _ _ _ _ Lₙ lvₙ 1 fun _ _ => rfl
  pre c := iprop(StableHlo.held (c : Thread nD τ) (Pipeline.ucRefs τ sig) (Q3 m ρ c) ∗ Rₙ c)
  post c := iprop(StableHlo.held (c : Thread nD τ) (Pipeline.ucRefs τ sig) (Q4 m ρ c) ∗ Rₙ c)
  X c := iprop(∃ r, prngReg c r)
  Y c := iprop(∃ r, prngReg c r)
  Z c := Pipeline.unscopedRest (Ix := Unit) (Name := ℕ) (U := UR sig nD τ) (Lvl := ℕ) spec1 c (QV3 m ρ c)
  hentry c := by
    rw [Pipeline.ownSems0_none]
    have hsplit := Pipeline.arrays_of_unscopedBufs (p := 1) (pcfgs (F := F)) hadm (pdats m ρ) launch1.win launch1.arr_whole c
      ((pdats m ρ 1 c).share_full fun _ => rfl) (QV3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m ρ) ((pdats m ρ 1 c).share_full fun _ => rfl)
      (QV3 m ρ c) (QV4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment: entered with every unscoped buffer at `Q5`, left with them at `Q6`. Its arrays are split
    out of the unscoped buffers and put back at what the write-backs leave; the generator register goes into the launch's
    invariant and comes back; nothing is owed; the kernel has no semaphore of its own. -/
def reg2 : Pipeline.RegionSeg (pcfgs (F := F)) hadm (pdats m ρ) () defs₀ 𝒱ₙ Lₙ lvₙ 2 where
  win := launch2.win.to₀
  block_pos := launch2.block_pos
  stage_whole := launch2.stage_whole
  K := PEmpty
  osem k := k.elim
  ho := Pipeline.OwnSemFacts.none _
  hbody c := (body_obligation2 (QV5 m ρ) c).loose
  hwaits := Pipeline.hwaits_of_owed_zero _ _ _ _ Lₙ lvₙ 2 fun _ _ => rfl
  pre c := iprop(StableHlo.held (c : Thread nD τ) (Pipeline.ucRefs τ sig) (Q5 m ρ c) ∗ Rₙ c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (QV5 m ρ c)
  hentry c := by
    rw [Pipeline.ownSems0_none]
    have hsplit := Pipeline.arrays_of_unscopedBufs (p := 2) (pcfgs (F := F)) hadm (pdats m ρ) launch2.win launch2.arr_whole c
      ((pdats m ρ 2 c).share_full fun _ => rfl) (QV5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (QV5 m ρ) c).Φ 0 from rfl]
    iintro ⟨Hp, -, Hr⟩
    iapply (hin2 (QV5 m ρ) c)
    unfold Pipeline.ΦA
    isplitl [Hr]; · iexact Hr
    iexact Hp
  hout c := by
    rw [Pipeline.ownSems0_none, show (pdats m ρ 2 c).Φ (Fin.last _) = (dat2 (QV5 m ρ) c).Φ (Fin.last cfg2.N) from rfl]
    have h2 := hout2 (QV5 m ρ) c
    unfold Pipeline.ΦA at h2
    iintro H
    ihave H' := h2 $$ H
    icases H' with ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (pdats m ρ) ((pdats m ρ 2 c).share_full fun _ => rfl)
      (QV5 m ρ c) (QV6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's six segments in order. -/
abbrev rsegs : List (Pipeline.Seg (pcfgs (F := F)) hadm (pdats m ρ) () defs₀ 𝒱ₙ Lₙ lvₙ) :=
  [ .host (hseg hostOps0 hostOps0_sub hostOps0_fresh (Q0 m ρ)),
    .region (reg0 m ρ),
    .host (hseg hostOps1 hostOps1_sub hostOps1_fresh (Q2 m ρ)),
    .region (reg1 m ρ),
    .host (hseg hostOps2 hostOps2_sub hostOps2_fresh (Q4 m ρ)),
    .region (reg2 m ρ) ]
/-- @main is the run of the segments. -/
theorem main_run (c : Dev nD) : main (F := F) c = Pipeline.Seg.run (rsegs m ρ) := (main_chain c).trans (by chain_rfl)

set_option backward.isDefEq.respectTransparency.types false in
/-- THE RUN: from any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Q6 m ρ c b) :=
  Pipeline.θ_run_regions_kit (pcfgs (F := F)) hadm (pdats m ρ) () cellOf_inj emb₁ defs₀ 𝒱ₙ Lₙ lvₙ m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Q0 m ρ c) ∗ Rₙ c)) (Tₙ := Tₙ m ρ)
    (hch := ⟨fun _ => .rfl, fun _ => .rfl, fun _ => .rfl, fun _ => .rfl, fun _ => .rfl, fun _ => .rfl, fun _ => .rfl⟩)
    (hinit := by
      refine Pipeline.initEach Lₙ lvₙ fun c => ?_
      rw [show unscopedBufs c (fun b => m ((c : Thread nD τ).loc b)) = StableHlo.held (c : Thread nD τ) (Pipeline.ucRefs τ sig) (Q0 m ρ c)
        from Pipeline.unscopedBufs_held c (Q0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Q6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Q6 m ρ c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN, read at the arrays the claims name: the result array ends at the third launch's output, and every argument
    array ends as launched. -/
theorem run_named : θ_run defs (onTc (τ := τ) (main (F := F))) ⟨m, fun _ => 0, ρ⟩ (fun r => ∀ c : Dev nD,
      r.2.mem ((c.tc : Thread nD τ).loc main_v62) = (dat2 (QV5 m ρ) c).arrAt 11 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v62 (by decide))).trans (Q6_result m ρ c),
     (h c _ (mem_uc main_arg0 (by decide))).trans (Q6_kept m ρ c main_arg0 (by decide) (by decide) (by decide) (by decide) (by decide) (by decide)),
     (h c _ (mem_uc main_arg1 (by decide))).trans (Q6_kept m ρ c main_arg1 (by decide) (by decide) (by decide) (by decide) (by decide) (by decide)),
     (h c _ (mem_uc main_arg2 (by decide))).trans (Q6_kept m ρ c main_arg2 (by decide) (by decide) (by decide) (by decide) (by decide) (by decide)),
     (h c _ (mem_uc main_arg3 (by decide))).trans (Q6_kept m ρ c main_arg3 (by decide) (by decide) (by decide) (by decide) (by decide) (by decide)),
     (h c _ (mem_uc main_arg4 (by decide))).trans (Q6_kept m ρ c main_arg4 (by decide) (by decide) (by decide) (by decide) (by decide) (by decide)),
     (h c _ (mem_uc main_arg5 (by decide))).trans (Q6_kept m ρ c main_arg5 (by decide) (by decide) (by decide) (by decide) (by decide) (by decide)),
     (h c _ (mem_uc main_arg6 (by decide))).trans (Q6_kept m ρ c main_arg6 (by decide) (by decide) (by decide) (by decide) (by decide) (by decide)),
     (h c _ (mem_uc main_arg7 (by decide))).trans (Q6_kept m ρ c main_arg7 (by decide) (by decide) (by decide) (by decide) (by decide) (by decide)),
     (h c _ (mem_uc main_arg8 (by decide))).trans (Q6_kept m ρ c main_arg8 (by decide) (by decide) (by decide) (by decide) (by decide) (by decide)),
     (h c _ (mem_uc main_arg9 (by decide))).trans (Q6_kept m ρ c main_arg9 (by decide) (by decide) (by decide) (by decide) (by decide) (by decide)),
     (h c _ (mem_uc main_arg10 (by decide))).trans (Q6_kept m ρ c main_arg10 (by decide) (by decide) (by decide) (by decide) (by decide) (by decide)),
     (h c _ (mem_uc main_arg11 (by decide))).trans (Q6_kept m ρ c main_arg11 (by decide) (by decide) (by decide) (by decide) (by decide) (by decide)),
     (h c _ (mem_uc main_arg12 (by decide))).trans (Q6_kept m ρ c main_arg12 (by decide) (by decide) (by decide) (by decide) (by decide) (by decide)),
     (h c _ (mem_uc main_arg13 (by decide))).trans (Q6_kept m ρ c main_arg13 (by decide) (by decide) (by decide) (by decide) (by decide) (by decide)),
     (h c _ (mem_uc main_arg14 (by decide))).trans (Q6_kept m ρ c main_arg14 (by decide) (by decide) (by decide) (by decide) (by decide) (by decide))⟩)
    (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => (h c).2) (run_named m ρ)

end Cert.KernelIdeal.Hand

end
-- ==== Proof.LibPlainDot.lean ====
/-
  A plain matrix product read at an element, at the extended reals: for dimension numbers that contract the left
  operand's axis 1 with the right operand's axis 0 and have no batch axis ([M, K] by [K, N]), the contraction at (p, q)
  is the sum over k of lhs[p, k] * rhs[k, q] — for a kernel's matmul into a zero accumulator and for the host's
  dot_general alike. General lemmas over any sizes; they import no program.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

/-- The plain dimension numbers over any well-formedness proof. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row is the output's row … -/
theorem lhs_0 (i : (⟨2, ![M, N]⟩ : Shape).Idx) (q : (plainDims M K N wf).contr.Idx) :
    ((plainDims M K N wf).lhsIdx i q 0).val = (i 0).val := by
  unfold DotDims.lhsIdx
  rw [dif_neg (show ¬(0 : Fin (⟨2, ![M, K]⟩ : Shape).rank) ∈ (plainDims M K N wf).lhsBatch from List.not_mem_nil),
    dif_pos (show (0 : Fin (⟨2, ![M, K]⟩ : Shape).rank) ∈ (plainDims M K N wf).lhsNonContracting from List.mem_singleton.mpr rfl)]
  rfl
/-- … its column the contracted coordinate … -/
theorem lhs_1 (i : (⟨2, ![M, N]⟩ : Shape).Idx) (q : (plainDims M K N wf).contr.Idx) :
    ((plainDims M K N wf).lhsIdx i q 1).val = (q ⟨0, (Nat.one_pos : 0 < (plainDims M K N wf).contr.rank)⟩).val :=
  (plainDims M K N wf).lhsIdx_val_of_single rfl i q
/-- … the right operand's row the contracted coordinate … -/
theorem rhs_0 (i : (⟨2, ![M, N]⟩ : Shape).Idx) (q : (plainDims M K N wf).contr.Idx) :
    ((plainDims M K N wf).rhsIdx i q 0).val = (q ⟨0, (Nat.one_pos : 0 < (plainDims M K N wf).contr.rank)⟩).val :=
  (plainDims M K N wf).rhsIdx_val_of_single rfl i q
/-- … and its column the output's column. -/
theorem rhs_1 (i : (⟨2, ![M, N]⟩ : Shape).Idx) (q : (plainDims M K N wf).contr.Idx) :
    ((plainDims M K N wf).rhsIdx i q 1).val = (i 1).val := by
  unfold DotDims.rhsIdx
  rw [dif_neg (show ¬(1 : Fin (⟨2, ![K, N]⟩ : Shape).rank) ∈ (plainDims M K N wf).rhsBatch from List.not_mem_nil),
    dif_pos (show (1 : Fin (⟨2, ![K, N]⟩ : Shape).rank) ∈ (plainDims M K N wf).rhsNonContracting from List.mem_singleton.mpr rfl)]
  rfl

/-- The contraction sum of the plain dimension numbers at (p, q), re-indexed by the contracted coordinate. -/
theorem plain_sum (l : (⟨2, ![M, K]⟩ : Shape).Idx → EReal) (r : (⟨2, ![K, N]⟩ : Shape).Idx → EReal) (p : Fin M) (q : Fin N) :
    ∑ k : (plainDims M K N wf).contr.Idx, l ((plainDims M K N wf).lhsIdx (ix2 p q) k) * r ((plainDims M K N wf).rhsIdx (ix2 p q) k)
      = ∑ k : Fin K, l (ix2 p k) * r (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_0 wf _ _
      | ⟨1, _⟩ => exact (lhs_1 wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_0 wf _ _).trans hk
      | ⟨1, _⟩ => exact rhs_1 wf _ _)
  rw [el, er]

/-- The same for any record of dimension numbers whose six lists are the plain ones. -/
theorem contr_sum_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf'⟩ := d
  dsimp only at hlc hrc hln hrn hlb hrb
  subst hlc hrc hln hrn hlb hrb
  exact plain_sum wf' l r p q

/-- A kernel's matmul into the zero accumulator, at (p, q): the sum over k of lhs[p, k] * rhs[k, q]. -/
theorem matmul_zero_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  rw [Ideal.matmul_constant_zero_apply]
  exact contr_sum_apply d hlc hrc hln hrn hlb hrb l r p q

/-- The host's dot_general, at (p, q): the same sum. -/
theorem dotGeneral_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply]
  exact contr_sum_apply d hlc hrc hln hrn hlb hrb l r p q

end Idealize.ShloMosaic.PlainDot

end
-- ==== Proof.KernelIdeal.Val0.lean ====
/- The value of the first launch at the extended reals. Each grid point overwrites its block of 10000 output rows with
   the product of its block of feature rows and the whole weight matrix; rounding the operands to the narrower format
   is the identity on the extended reals and the contraction starts from zero, so a block's entry (p, q) is the plain
   sum over k of feature (p, k) times weight (k, q). The ten blocks tile the 100000 rows (row r lies in block
   r / 10000), so after the last write-back the whole output array is that product, entry by entry. -/
import proofs.«415449_j35734127903067_1_alg».proof.Proof.KernelIdeal.R0
import proofs.«415449_j35734127903067_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)
open scoped BigOperators

-- the TensorCore's buffer contents when the region is entered, at the extended reals
variable (V : (c : Dev nD) → (b : Ref sig .tc) → Buf (Elt Ideal) ((c : Thread nD τ).loc b))

/-! ## The arrays and the product -/

/-- The feature matrix and the first layer's weights as the launch finds them. -/
abbrev feat0 (c : Dev nD) : Vec Ideal S100000x64 .f32 := V c main_arg0
abbrev wts0 (c : Dev nD) : Vec Ideal S64x60 .f32 := V c main_arg3

/-- The product of a 100000 × 64 matrix with a 64 × 60 matrix, entry by entry. -/
def prod0 (x : Vec Ideal S100000x64 .f32) (w : Vec Ideal S64x60 .f32) : Vec Ideal S100000x60 .f32 :=
  fun i => ∑ k : Fin 64, x (ix2 (i 0) k) * w (ix2 k (i 1))

theorem hz0 : (![0, 0] : Fin 2 → Nat) = fun _ => 0 := funext fun a => by fin_cases a <;> rfl

/-! ## The body's arithmetic at an entry -/

/-- The body's product of a block of rows with the weights, at row `p` and column `q`: rounding to the narrower
    format is the identity at the extended reals, and the contraction into a zero accumulator is the plain sum. -/
theorem pay0_apply (x0 : Vec Ideal S10000x64 .f32) (x1 : Vec Ideal S64x60 .f32) (p : Fin 10000) (q : Fin 60) :
    k0_pay1 x0 x1 (ix2 p q) = ∑ k : Fin 64, x0 (ix2 p k) * x1 (ix2 k q) := by
  unfold k0_pay1
  exact PlainDot.matmul_zero_apply dot_S10000x64_S64x60_S10000x60_1_0_0_1_n_n rfl rfl rfl rfl rfl rfl none
    (truncf .bf16 x0 bitsLt_bf16_f32) (truncf .bf16 x1 bitsLt_bf16_f32) p q

/-! ## The blocks as rows of the arrays -/

/-- The printed index maps over the grid: the feature and output windows' block row is the point's number, every
    other block coordinate is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` is rows `10000 t … 10000 t + 9999` of the feature matrix. -/
theorem iblk0_0_apply (c : Dev nD) (t : Fin cfg0.N) (p : Fin 10000) (k : Fin 64) (P : Fin 100000)
    (hP : P.val = 10000 * t.val + p.val) :
    (iblk0 V c 0 t : Vec Ideal S10000x64 .f32) (ix2 p k) = feat0 V c (ix2 P k) := by
  obtain ⟨e0, e1, -, -, -, -⟩ := idx_facts0 t
  unfold iblk0
  rw [View.read_apply]
  show V c main_arg0 _ = V c main_arg0 _
  congr 1
  funext a
  apply Fin.ext
  match a with
  | ⟨0, _⟩ => show win0_0.index t (0 : Fin 2) * 10000 + 1 * p.val = P.val; rw [e0, hP]; omega
  | ⟨1, _⟩ => show win0_0.index t (1 : Fin 2) * 64 + 1 * k.val = k.val; rw [e1]; omega

/-- The weight window's block at every point is the whole weight matrix. -/
theorem iblk0_1_apply (c : Dev nD) (t : Fin cfg0.N) (k : Fin 64) (q : Fin 60) (Q : Fin 60) (hQ : Q.val = q.val) :
    (iblk0 V c 1 t : Vec Ideal S64x60 .f32) (ix2 k q) = wts0 V c (ix2 k Q) := by
  obtain ⟨-, -, e2, e3, -, -⟩ := idx_facts0 t
  unfold iblk0
  rw [View.read_apply]
  show V c main_arg3 _ = V c main_arg3 _
  congr 1
  funext a
  apply Fin.ext
  match a with
  | ⟨0, _⟩ => show win0_1.index t (0 : Fin 2) * 64 + 1 * k.val = k.val; rw [e2]; omega
  | ⟨1, _⟩ => show win0_1.index t (1 : Fin 2) * 60 + 1 * q.val = Q.val; rw [e3, hQ]; omega

/-! ## What a point writes back -/

/-- Point `t` writes back block `t` of the product of the two arrays. -/
theorem flushed0_eq (c : Dev nD) (t : Fin cfg0.N) :
    (dat0 V c).flushed 2 t = ((cfg0.win 2).blk t).view.read (Elt Ideal) (prod0 (feat0 V c) (wts0 V c)) := by
  show (cfg0.win 2).cut (grid0.coords t) ((dat0 V c).after 2 t) = _
  rw [after0_2]
  unfold out0_2
  rw [View.canon_unit_zero hz0]
  simp only [View.ld_unit_zero (S := S10000x64) hz0, View.ld_unit_zero (S := S64x60) hz0]
  obtain ⟨-, -, -, -, e4, e5⟩ := idx_facts0 t
  funext j
  obtain ⟨p, q, rfl⟩ : ∃ (p : Fin 10000) (q : Fin 60), j = ix2 p q := ⟨j 0, j 1, eq_ix2 j⟩
  rw [View.read_apply]
  show k0_pay1 (iblk0 V c 0 t) (iblk0 V c 1 t) (ix2 p q)
    = prod0 (feat0 V c) (wts0 V c) (((cfg0.win 2).blk t).view.emb (ix2 p q))
  refine (pay0_apply _ _ p q).trans ?_
  unfold prod0
  refine Finset.sum_congr rfl fun k _ => ?_
  refine congrArg₂ (· * ·) ?_ ?_
  · exact iblk0_0_apply V c t p k _ (by show win0_2.index t (0 : Fin 2) * 10000 + 1 * p.val = _; rw [e4]; omega)
  · exact iblk0_1_apply V c t k q _ (by show win0_2.index t (1 : Fin 2) * 60 + 1 * q.val = _; rw [e5]; omega)

/-! ## The blocks tile the array -/

/-- An entry of the output array is in point `t`'s block iff each coordinate is in the block's range on its axis. -/
theorem mem_blk0 (t : Fin cfg0.N) (i : S100000x60.Idx) :
    i ∈ ((cfg0.win 2).blk t).view.set ↔ ∀ a : Fin 2, win0_2.index t a * S10000x60.size a ≤ (i a).val ∧ (i a).val < win0_2.index t a * S10000x60.size a + S10000x60.size a := by
  show i ∈ ((View.whole main_v27).slice (win0_2.rect t)).set ↔ _
  rw [View.set_slice_whole, Rect.mem_set_unit]
  exact Iff.rfl

/-- Row `r` lies in the block of point `r / 10000`, and every point writes back. -/
theorem cover0 (i : S100000x60.Idx) :
    ∃ t : Fin cfg0.N, (cfg0.win 2).flush t = true ∧ i ∈ ((cfg0.win 2).blk t).view.set := by
  have hi0 : (i 0).val < 100000 := (i 0).isLt
  have hi1 : (i 1).val < 60 := (i 1).isLt
  have hN : cfg0.N = 10 := N_0
  let t : Fin cfg0.N := ⟨(i 0).val / 10000, by rw [hN]; omega⟩
  have ht : t.val = (i 0).val / 10000 := rfl
  obtain ⟨-, -, -, -, e4, e5⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; rw [e4, ht]; omega
  | ⟨1, _⟩ => show win0_2.index t (1 : Fin 2) * 60 ≤ (i 1).val ∧ (i 1).val < win0_2.index t (1 : Fin 2) * 60 + 60; rw [e5]; omega

/-! ## The array after the launch -/

/-- After the last write-back the output array is the product of the feature matrix with the weights. -/
theorem final0 (c : Dev nD) : (dat0 V c).arrAt 2 cfg0.N = prod0 (feat0 V c) (wts0 V c) :=
  (dat0 V c).arrAt_eq_of_cover 2 (prod0 (feat0 V c) (wts0 V c)) (fun t _ => flushed0_eq V c t) cover0

/-- The output array after the launch, named at its literal type. -/
abbrev res0 (c : Dev nD) : Vec Ideal S100000x60 .f32 := (dat0 V c).arrAt 2 cfg0.N

/-- The same at an entry: row `p`, column `q` of the output is the sum over `k` of feature `(p, k)` times weight `(k, q)`. -/
theorem final0_apply (c : Dev nD) (p : Fin 100000) (q : Fin 60) :
    res0 V c (ix2 p q) = ∑ k : Fin 64, feat0 V c (ix2 p k) * wts0 V c (ix2 k q) :=
  congrFun (final0 V c) (ix2 p q)

end Cert.KernelIdeal.Hand

end
-- ==== Proof.KernelIdeal.Val1.lean ====
/- The value of the second launch at the extended reals. Each grid point overwrites its block of 10000 output rows with
   the product of (its block of aggregated feature rows plus the bias row, added to every row) and the whole weight
   matrix; the shape casts are to the same shapes, rounding the operands to the narrower format is the identity on the
   extended reals and the contraction starts from zero, so a block's entry (p, q) is the plain sum over k of
   (feature (p, k) + bias k) times weight (k, q). The ten blocks tile the 100000 rows (row r lies in block r / 10000),
   so after the last write-back the whole output array is that biased product, entry by entry. -/
import proofs.«415449_j35734127903067_1_alg».proof.Proof.KernelIdeal.R1
import proofs.«415449_j35734127903067_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)
open scoped BigOperators

-- the TensorCore's buffer contents when the region is entered, at the extended reals
variable (V : (c : Dev nD) → (b : Ref sig .tc) → Buf (Elt Ideal) ((c : Thread nD τ).loc b))

/-! ## The arrays and the biased product -/

/-- The aggregated features, the first layer's bias row and the second layer's weights as the launch finds them. -/
abbrev feat1 (c : Dev nD) : Vec Ideal S100000x60 .f32 := V c main_v40
abbrev bias1 (c : Dev nD) : Vec Ideal S1x60 .f32 := V c main_v41
abbrev wts1 (c : Dev nD) : Vec Ideal S60x50 .f32 := V c main_arg5

/-- The product of (a 100000 × 60 matrix with a row of 60 added to each of its rows) with a 60 × 50 matrix, entry by entry. -/
def prod1 (x : Vec Ideal S100000x60 .f32) (b : Vec Ideal S1x60 .f32) (w : Vec Ideal S60x50 .f32) : Vec Ideal S100000x50 .f32 :=
  fun i => ∑ k : Fin 60, (x (ix2 (i 0) k) + b (ix2 0 k)) * w (ix2 k (i 1))

theorem hz1 : (![0, 0] : Fin 2 → Nat) = fun _ => 0 := funext fun a => by fin_cases a <;> rfl

/-! ## The body's arithmetic at an entry -/

/-- The bias row spread over the block's rows, at row `p` and column `k`, is the bias at `k`. -/
theorem spread1_apply (x1 : Vec Ideal S1x60 .f32) (p : Fin 10000) (k : Fin 60) :
    broadcastTo S10000x60 x1 broadcasts_S1x60_S10000x60 (ix2 p k) = x1 (ix2 0 k) := by
  refine broadcastTo_apply x1 broadcasts_S1x60_S10000x60 (ix2 p k) (ix2 0 k) fun a => ?_
  match a with
  | ⟨0, _⟩ => rfl
  | ⟨1, _⟩ => rfl

/-- The body's product of a biased block of rows with the weights, at row `p` and column `q`. -/
theorem layer2_pay_apply (x0 : Vec Ideal S10000x60 .f32) (x1 : Vec Ideal S1x60 .f32) (x2 : Vec Ideal S60x50 .f32) (p : Fin 10000) (q : Fin 50) :
    k1_pay1 x0 x1 x2 (ix2 p q) = ∑ k : Fin 60, (x0 (ix2 p k) + x1 (ix2 0 k)) * x2 (ix2 k q) := by
  unfold k1_pay1
  refine (PlainDot.matmul_zero_apply dot_S10000x60_S60x50_S10000x50_1_0_0_1_n_n rfl rfl rfl rfl rfl rfl none
    (truncf .bf16 (addf (shapeCast S10000x60 x0 shapeCasts_S10000x60_S10000x60)
      (broadcastTo S10000x60 (shapeCast S1x60 x1 shapeCasts_S1x60_S1x60) broadcasts_S1x60_S10000x60)) bitsLt_bf16_f32)
    (truncf .bf16 x2 bitsLt_bf16_f32) p q).trans ?_
  refine Finset.sum_congr rfl fun k _ => ?_
  refine congrArg₂ (· * ·) ?_ rfl
  show shapeCast S10000x60 x0 shapeCasts_S10000x60_S10000x60 (ix2 p k)
      + broadcastTo S10000x60 (shapeCast S1x60 x1 shapeCasts_S1x60_S1x60) broadcasts_S1x60_S10000x60 (ix2 p k) = _
  rw [shapeCast_self, shapeCast_self, spread1_apply]

/-! ## The blocks as rows of the arrays -/

/-- The printed index maps over the grid: the feature and output windows' block row is the point's number, every
    other block coordinate is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The feature window's block at point `t` is rows `10000 t … 10000 t + 9999` of the aggregated features. -/
theorem iblk1_0_apply (c : Dev nD) (t : Fin cfg1.N) (p : Fin 10000) (k : Fin 60) (P : Fin 100000)
    (hP : P.val = 10000 * t.val + p.val) :
    (iblk1 V c 0 t : Vec Ideal S10000x60 .f32) (ix2 p k) = feat1 V c (ix2 P k) := by
  obtain ⟨e0, e1, -, -, -, -, -, -⟩ := idx_facts1 t
  unfold iblk1
  rw [View.read_apply]
  show V c main_v40 _ = V c main_v40 _
  congr 1
  funext a
  apply Fin.ext
  match a with
  | ⟨0, _⟩ => show win1_0.index t (0 : Fin 2) * 10000 + 1 * p.val = P.val; rw [e0, hP]; omega
  | ⟨1, _⟩ => show win1_0.index t (1 : Fin 2) * 60 + 1 * k.val = k.val; rw [e1]; omega

/-- The bias window's block at every point is the bias row. -/
theorem iblk1_1_apply (c : Dev nD) (t : Fin cfg1.N) (k : Fin 60) :
    (iblk1 V c 1 t : Vec Ideal S1x60 .f32) (ix2 0 k) = bias1 V c (ix2 0 k) := by
  obtain ⟨-, -, e2, e3, -, -, -, -⟩ := idx_facts1 t
  unfold iblk1
  rw [View.read_apply]
  show V c main_v41 _ = V c main_v41 _
  congr 1
  funext a
  apply Fin.ext
  match a with
  | ⟨0, _⟩ => show win1_1.index t (0 : Fin 2) * 1 + 1 * (0 : Fin 1).val = (0 : Fin 1).val; rw [e2]; rfl
  | ⟨1, _⟩ => show win1_1.index t (1 : Fin 2) * 60 + 1 * k.val = k.val; rw [e3]; omega

/-- The weight window's block at every point is the whole weight matrix. -/
theorem iblk1_2_apply (c : Dev nD) (t : Fin cfg1.N) (k : Fin 60) (q : Fin 50) (Q : Fin 50) (hQ : Q.val = q.val) :
    (iblk1 V c 2 t : Vec Ideal S60x50 .f32) (ix2 k q) = wts1 V c (ix2 k Q) := by
  obtain ⟨-, -, -, -, e4, e5, -, -⟩ := idx_facts1 t
  unfold iblk1
  rw [View.read_apply]
  show V c main_arg5 _ = V c main_arg5 _
  congr 1
  funext a
  apply Fin.ext
  match a with
  | ⟨0, _⟩ => show win1_2.index t (0 : Fin 2) * 60 + 1 * k.val = k.val; rw [e4]; omega
  | ⟨1, _⟩ => show win1_2.index t (1 : Fin 2) * 50 + 1 * q.val = Q.val; rw [e5, hQ]; omega

/-! ## What a point writes back -/

/-- Point `t` writes back block `t` of the biased product of the three arrays. -/
theorem flushed1_eq (c : Dev nD) (t : Fin cfg1.N) :
    (dat1 V c).flushed 3 t = ((cfg1.win 3).blk t).view.read (Elt Ideal) (prod1 (feat1 V c) (bias1 V c) (wts1 V c)) := by
  show (cfg1.win 3).cut (grid1.coords t) ((dat1 V c).after 3 t) = _
  rw [after1_3]
  unfold out1_3
  rw [View.canon_unit_zero hz1]
  simp only [View.ld_unit_zero (S := S10000x60) hz1, View.ld_unit_zero (S := S1x60) hz1, View.ld_unit_zero (S := S60x50) hz1]
  obtain ⟨-, -, -, -, -, -, e6, e7⟩ := idx_facts1 t
  funext j
  obtain ⟨p, q, rfl⟩ : ∃ (p : Fin 10000) (q : Fin 50), j = ix2 p q := ⟨j 0, j 1, eq_ix2 j⟩
  rw [View.read_apply]
  show k1_pay1 (iblk1 V c 0 t) (iblk1 V c 1 t) (iblk1 V c 2 t) (ix2 p q)
    = prod1 (feat1 V c) (bias1 V c) (wts1 V c) (((cfg1.win 3).blk t).view.emb (ix2 p q))
  refine (layer2_pay_apply _ _ _ p q).trans ?_
  unfold prod1
  refine Finset.sum_congr rfl fun k _ => ?_
  refine congrArg₂ (· * ·) (congrArg₂ (· + ·) ?_ ?_) ?_
  · exact iblk1_0_apply V c t p k _ (by show win1_3.index t (0 : Fin 2) * 10000 + 1 * p.val = _; rw [e6]; omega)
  · exact iblk1_1_apply V c t k
  · exact iblk1_2_apply V c t k q _ (by show win1_3.index t (1 : Fin 2) * 50 + 1 * q.val = _; rw [e7]; omega)

/-! ## The blocks tile the array -/

/-- An entry of the output array is in point `t`'s block iff each coordinate is in the block's range on its axis. -/
theorem mem_blk1 (t : Fin cfg1.N) (i : S100000x50.Idx) :
    i ∈ ((cfg1.win 3).blk t).view.set ↔ ∀ a : Fin 2, win1_3.index t a * S10000x50.size a ≤ (i a).val ∧ (i a).val < win1_3.index t a * S10000x50.size a + S10000x50.size a := by
  show i ∈ ((View.whole main_v42).slice (win1_3.rect t)).set ↔ _
  rw [View.set_slice_whole, Rect.mem_set_unit]
  exact Iff.rfl

/-- Row `r` lies in the block of point `r / 10000`, and every point writes back. -/
theorem cover1 (i : S100000x50.Idx) :
    ∃ t : Fin cfg1.N, (cfg1.win 3).flush t = true ∧ i ∈ ((cfg1.win 3).blk t).view.set := by
  have hi0 : (i 0).val < 100000 := (i 0).isLt
  have hi1 : (i 1).val < 50 := (i 1).isLt
  have hN : cfg1.N = 10 := N_1
  let t : Fin cfg1.N := ⟨(i 0).val / 10000, by rw [hN]; omega⟩
  have ht : t.val = (i 0).val / 10000 := rfl
  obtain ⟨-, -, -, -, -, -, e6, e7⟩ := idx_facts1 t
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; rw [e6, ht]; omega
  | ⟨1, _⟩ => show win1_3.index t (1 : Fin 2) * 50 ≤ (i 1).val ∧ (i 1).val < win1_3.index t (1 : Fin 2) * 50 + 50; rw [e7]; omega

/-! ## The array after the launch -/

/-- After the last write-back the output array is the biased product. -/
theorem final1 (c : Dev nD) : (dat1 V c).arrAt 3 cfg1.N = prod1 (feat1 V c) (bias1 V c) (wts1 V c) :=
  (dat1 V c).arrAt_eq_of_cover 3 (prod1 (feat1 V c) (bias1 V c) (wts1 V c)) (fun t _ => flushed1_eq V c t) cover1

/-- The output array after the launch, named at its literal type. -/
abbrev res1 (c : Dev nD) : Vec Ideal S100000x50 .f32 := (dat1 V c).arrAt 3 cfg1.N

/-- The same at an entry: row `p`, column `q` of the output is the sum over `k` of (feature `(p, k)` plus bias `k`)
    times weight `(k, q)`. -/
theorem final1_apply (c : Dev nD) (p : Fin 100000) (q : Fin 50) :
    res1 V c (ix2 p q) = ∑ k : Fin 60, (feat1 V c (ix2 p k) + bias1 V c (ix2 0 k)) * wts1 V c (ix2 k q) :=
  congrFun (final1 V c) (ix2 p q)

end Cert.KernelIdeal.Hand

end
-- ==== Proof.KernelIdeal.Dot01.lean ====
/- The first two launches' output arrays, after their last write-backs, are the reference's stages at the same
   arrays. The first launch leaves the product of the feature matrix with the first layer's weights, which is the
   reference's contraction of the two: both are, entry by entry, the sum over k of feature (p, k) times weight (k, q).
   The second leaves the product of (aggregated features plus the bias row on every row) with the second layer's
   weights; the reference spreads the bias vector over a row and then over all rows, adds, and contracts with the
   weights: entry (p, k) of the spread bias is the bias at k, so both are the sum over k of (feature (p, k) + bias k)
   times weight (k, q). -/
import proofs.«415449_j35734127903067_1_alg».proof.Proof.KernelIdeal.Val0
import proofs.«415449_j35734127903067_1_alg».proof.Proof.KernelIdeal.Val1
import proofs.«415449_j35734127903067_1_alg».proof.Proof.Gen.ReferenceIdeal.Read

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)
open scoped BigOperators

-- the TensorCore's buffer contents when the region is entered, at the extended reals
variable (V : (c : Dev nD) → (b : Ref sig .tc) → Buf (Elt Ideal) ((c : Thread nD τ).loc b))

/-! ## The first launch against the reference's first contraction -/

/-- The first launch's output array is the reference's contraction of the feature matrix with the first layer's weights. -/
theorem res0_eq_ref (c : Dev nD) :
    (dat0 V c).arrAt 2 cfg0.N = Cert.ReferenceIdeal.Read.val_main_v27 (F := Ideal) (feat0 V c) (wts0 V c) := by
  rw [final0]
  funext i
  obtain ⟨p, q, rfl⟩ : ∃ (p : Fin 100000) (q : Fin 60), i = ix2 p q := ⟨i 0, i 1, eq_ix2 i⟩
  exact (PlainDot.dotGeneral_apply Cert.ReferenceIdeal.dot_S100000x64_S64x60_S100000x60_1_0_0_1_n_n rfl rfl rfl rfl rfl rfl
    none .single (feat0 V c) (wts0 V c) p q).symm

/-! ## The second launch against the reference's second contraction -/

/-- The bias vector spread over a row and then over all rows, at row `p` and column `k`, is the bias at `k`. -/
theorem spread_ref_apply (b : FVec Ideal Cert.ReferenceIdeal.S60 .f32) (p : Fin 100000) (k : Fin 60) :
    Cert.ReferenceIdeal.Read.val_main_v42 (F := Ideal) b (ix2 p k) = b (ix1 k) := by
  rw [Cert.ReferenceIdeal.Read.val_main_v42_apply, Cert.ReferenceIdeal.Read.val_main_v41_apply]
  exact congrArg b (funext fun a => match a with | ⟨0, _⟩ => rfl)

/-- The second launch's output array is the reference's contraction of (aggregated features plus the spread bias) with
    the second layer's weights, for any reference-side arrays that the launch's arrays are. -/
theorem res1_eq_ref (c : Dev nD) (a : FVec Ideal Cert.ReferenceIdeal.S100000x60 .f32) (b : FVec Ideal Cert.ReferenceIdeal.S60 .f32)
    (w : FVec Ideal Cert.ReferenceIdeal.S60x50 .f32)
    (ha : feat1 V c = a) (hb : ∀ k : Fin 60, bias1 V c (ix2 0 k) = b (ix1 k)) (hw : wts1 V c = w) :
    (dat1 V c).arrAt 3 cfg1.N
      = Host.dotGeneral (F := Ideal) Cert.ReferenceIdeal.dot_S100000x60_S60x50_S100000x50_1_0_0_1_n_n none
          (addf a (Cert.ReferenceIdeal.Read.val_main_v42 (F := Ideal) b)) w := by
  rw [final1]
  funext i
  obtain ⟨p, q, rfl⟩ : ∃ (p : Fin 100000) (q : Fin 50), i = ix2 p q := ⟨i 0, i 1, eq_ix2 i⟩
  refine Eq.trans ?_ (PlainDot.dotGeneral_apply Cert.ReferenceIdeal.dot_S100000x60_S60x50_S100000x50_1_0_0_1_n_n rfl rfl rfl rfl rfl rfl
    none .single (addf a (Cert.ReferenceIdeal.Read.val_main_v42 (F := Ideal) b)) w p q).symm
  show ∑ k : Fin 60, (feat1 V c (ix2 p k) + bias1 V c (ix2 0 k)) * wts1 V c (ix2 k q) = _
  refine Finset.sum_congr rfl fun k _ => ?_
  rw [hb k, ha, hw]
  refine congrArg₂ (· * ·) ?_ rfl
  show a (ix2 p k) + b (ix1 k) = a (ix2 p k) + Cert.ReferenceIdeal.Read.val_main_v42 (F := Ideal) b (ix2 p k)
  rw [spread_ref_apply]

end Cert.KernelIdeal.Hand

end
-- ==== Proof.KernelIdeal.Final2.lean ====
/- The pooling launch's output window is the whole 256 × 1 result array, at block index (0, 0) at every grid point, and
   the launch writes it back once, after its last point. So after the run the array holds exactly what the body left
   in the window's staging buffer at that point. -/
import proofs.«415449_j35734127903067_1_alg».proof.Proof.KernelIdeal.R2
import proofs.«415449_j35734127903067_1_alg».proof.Proof.Gen.KernelIdeal.Launch
import proofs.«415449_j35734127903067_1_alg».proof.Proof.Gen.KernelIdeal.Points
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

/-- The output window's block index is (0, 0) at every point: its offsets in the array are zero. -/
theorem outOff2 (t : Fin cfg2.N) : (fun a => win2_11.index t a * main_v62.ty.shape.size a) = fun _ => 0 :=
  funext fun a => by fin_cases a <;> rfl

/-- For any proof data of the launch whose output staging contents after the last point are `out`, the result array
    after the run is `out`: the one write-back, after point 19, writes the whole array. -/
theorem final2_of {c : Dev nD} (dat : Dat τ (Elt F) Unit ℕ (UR sig nD τ) ℕ cfg2 c) (out : Vec F S256x1 .f32)
    (hafter : ∀ t : Fin cfg2.N, t.val = 19 → dat.after 11 t = out) :
    dat.arrAt 11 cfg2.N = out := by
  have hN : cfg2.N = 20 := N_2
  refine dat.arrAt_eq_of_cover 11 out (fun t hf => ?_) (fun i => ⟨⟨19, lt19⟩, (flush2_11 _).mpr rfl, ?_⟩)
  · have h19 : t.val = 19 := by have := (flush2_11 t).mp hf; have := t.isLt; omega
    show (cfg2.win 11).cut (grid2.coords t) (dat.after 11 t) = _
    rw [hafter t h19]
    exact (Memref.read_access_unit_zero (Elt F) main_v62 (outOff2 t) (fun a => by rw [congrFun (outOff2 t) a]; simp) out).symm
  · show i ∈ ((View.whole main_v62).slice (win2_11.rect ⟨19, lt19⟩)).set
    rw [View.set_slice_whole, Rect.mem_set_unit]
    intro a
    have h0 : (i 0 : Nat) < 256 := (i 0).isLt
    have h1 : (i 1 : Nat) < 1 := (i 1).isLt
    match a with
    | ⟨0, _⟩ =>
      show win2_11.index ⟨19, lt19⟩ 0 * win2_11.size 0 ≤ (i 0 : Nat) ∧ (i 0 : Nat) < win2_11.index ⟨19, lt19⟩ 0 * win2_11.size 0 + win2_11.xsize (grid2.coords ⟨19, lt19⟩) 0
      rw [show win2_11.index ⟨19, lt19⟩ 0 * win2_11.size 0 = 0 from rfl, show win2_11.xsize (grid2.coords ⟨19, lt19⟩) 0 = 256 from rfl]; omega
    | ⟨1, _⟩ =>
      show win2_11.index ⟨19, lt19⟩ 1 * win2_11.size 1 ≤ (i 1 : Nat) ∧ (i 1 : Nat) < win2_11.index ⟨19, lt19⟩ 1 * win2_11.size 1 + win2_11.xsize (grid2.coords ⟨19, lt19⟩) 1
      rw [show win2_11.index ⟨19, lt19⟩ 1 * win2_11.size 1 = 0 from rfl, show win2_11.xsize (grid2.coords ⟨19, lt19⟩) 1 = 1 from rfl]; omega

-- the TensorCore's buffer contents when the region is entered
variable (V : (c : Dev nD) → (b : Ref sig .tc) → Buf (Elt F) ((c : Thread nD τ).loc b))

/-- After the pooling launch the result array holds the linear stack of the accumulated sums. -/
theorem final2 (c : Dev nD) : (dat2 V c).arrAt 11 cfg2.N = outLast2 V c :=
  final2_of (dat2 V c) (outLast2 V c) (after2_11 V c)

end Cert.KernelIdeal.Hand

end
-- ==== Proof.KernelIdeal.MlpVal.lean ====
/- The last grid point of the pooling launch runs a stack of four small affine layers on the pooled 256 × 50 sums:
   each layer is a product with a weight matrix into a zero accumulator plus a bias row repeated down the 256 rows.
   At the extended reals the narrowing of the operands to a 16-bit format is the identity, so each layer's product is
   the plain sum over the contracted axis, which is also what the reference's dot_general is; and the bias row
   repeated down the rows is the reference's two-step broadcast of the bias vector. This module proves that the
   payload the launch stores at its last point is the reference's tail of four dot_generals with broadcast biases. -/
import proofs.«415449_j35734127903067_1_alg».proof.Proof.Gen.KernelIdeal.Skeleton
import proofs.«415449_j35734127903067_1_alg».proof.Proof.Gen.ReferenceIdeal.Read
import proofs.«415449_j35734127903067_1_alg».proof.Proof.LibPlainDot
import Idealize.ShloMosaic.Lib.Pipeline.Value
import Idealize.ShloMosaic.Lib.ValueIdx

set_option maxRecDepth 16384

noncomputable section

namespace Cert.KernelIdeal.Hand

open Idealize.ShloMosaic Idealize.ShloMosaic.ValueIdx
open scoped BigOperators

/-! ## One affine layer -/

/-- One layer, at any inner width `K` and outer width `N`: the product of a 256 × K matrix with a K × N matrix, both
    narrowed, into a zero accumulator, plus a 1 × N row repeated down the rows, is the host's product of the two
    matrices plus any 256 × N array whose every row is that row. Both sides are, at (p, q), the sum over k of
    a[p, k] * w[k, q] plus the row's entry q. -/
theorem layer_eq {K N : Nat}
    (dK dR : DotDims ⟨2, ![256, K]⟩ ⟨2, ![K, N]⟩ ⟨2, ![256, N]⟩)
    (hK1 : dK.lhsContracting = [1]) (hK2 : dK.rhsContracting = [0]) (hK3 : dK.lhsNonContracting = [0])
    (hK4 : dK.rhsNonContracting = [1]) (hK5 : dK.lhsBatch = []) (hK6 : dK.rhsBatch = [])
    (hR1 : dR.lhsContracting = [1]) (hR2 : dR.rhsContracting = [0]) (hR3 : dR.lhsNonContracting = [0])
    (hR4 : dR.rhsNonContracting = [1]) (hR5 : dR.lhsBatch = []) (hR6 : dR.rhsBatch = [])
    (hlt : FTy.bits .bf16 < FTy.bits .f32)
    (hsc : (⟨2, ![1, N]⟩ : Shape).ShapeCasts ⟨2, ![1, N]⟩) (hbc : (⟨2, ![1, N]⟩ : Shape).Broadcasts ⟨2, ![256, N]⟩)
    (a a' : FVec Ideal ⟨2, ![256, K]⟩ .f32) (haa : a = a') (w : FVec Ideal ⟨2, ![K, N]⟩ .f32)
    (brow : FVec Ideal ⟨2, ![1, N]⟩ .f32) (bref : FVec Ideal ⟨2, ![256, N]⟩ .f32)
    (hb : ∀ (p : Fin 256) (q : Fin N), bref (ix2 p q) = brow (ix2 (0 : Fin 1) q)) :
    addf (matmul dK none (truncf .bf16 a hlt) (truncf .bf16 w hlt) (constant ⟨2, ![256, N]⟩ .f32 0x00000000#32))
        (broadcastTo ⟨2, ![256, N]⟩ (shapeCast ⟨2, ![1, N]⟩ brow hsc) hbc)
      = addf (Host.dotGeneral dR none a' w) bref := by
  subst haa
  funext i
  obtain ⟨p, q, rfl⟩ : ∃ p q, i = ix2 p q := ⟨i 0, i 1, eq_ix2 i⟩
  rw [addf_apply, addf_apply, shapeCast_self, hb p q]
  congr 1
  · exact (PlainDot.matmul_zero_apply dK hK1 hK2 hK3 hK4 hK5 hK6 none (truncf .bf16 a hlt) (truncf .bf16 w hlt) p q).trans
      (PlainDot.dotGeneral_apply dR hR1 hR2 hR3 hR4 hR5 hR6 none .single a w p q).symm
  · exact broadcastTo_apply brow hbc (ix2 p q) (ix2 (0 : Fin 1) q) (fun a => match a with
      | ⟨0, _⟩ => by show (0 : Nat) = if (1 : Nat) = 1 then 0 else _; rw [if_pos rfl]
      | ⟨1, _⟩ => by
        show q.val = if N = 1 then 0 else q.val
        split_ifs with h
        · have := q.isLt; omega
        · rfl)

/-! ## The reference's broadcast biases, row by row -/

/-- The reference's first bias, broadcast in two steps to 256 × 30, reads the bias vector at the column. -/
theorem ref_bias1 (b : FVec Ideal Cert.KernelIdeal.S30 .f32) (p : Fin 256) (q : Fin 30) :
    Cert.ReferenceIdeal.Read.val_main_v66 (F := Ideal) b (ix2 p q) = b (ix1 q) := by
  rw [Cert.ReferenceIdeal.Read.val_main_v66_apply, Cert.ReferenceIdeal.Read.val_main_v65_apply]
  exact congrArg b (funext fun a => match a with | ⟨0, _⟩ => rfl)

/-- The second, to 256 × 20. -/
theorem ref_bias2 (b : FVec Ideal Cert.KernelIdeal.S20 .f32) (p : Fin 256) (q : Fin 20) :
    Cert.ReferenceIdeal.Read.val_main_v70 (F := Ideal) b (ix2 p q) = b (ix1 q) := by
  rw [Cert.ReferenceIdeal.Read.val_main_v70_apply, Cert.ReferenceIdeal.Read.val_main_v69_apply]
  exact congrArg b (funext fun a => match a with | ⟨0, _⟩ => rfl)

/-- The third, to 256 × 10. -/
theorem ref_bias3 (b : FVec Ideal Cert.KernelIdeal.S10 .f32) (p : Fin 256) (q : Fin 10) :
    Cert.ReferenceIdeal.Read.val_main_v74 (F := Ideal) b (ix2 p q) = b (ix1 q) := by
  rw [Cert.ReferenceIdeal.Read.val_main_v74_apply, Cert.ReferenceIdeal.Read.val_main_v73_apply]
  exact congrArg b (funext fun a => match a with | ⟨0, _⟩ => rfl)

/-- The last, to 256 × 1. -/
theorem ref_bias4 (b : FVec Ideal Cert.KernelIdeal.S1 .f32) (p : Fin 256) (q : Fin 1) :
    Cert.ReferenceIdeal.Read.val_main_v78 (F := Ideal) b (ix2 p q) = b (ix1 q) := by
  rw [Cert.ReferenceIdeal.Read.val_main_v78_apply, Cert.ReferenceIdeal.Read.val_main_v77_apply]
  exact congrArg b (funext fun a => match a with | ⟨0, _⟩ => Fin.ext (by have := q.isLt; show 0 = q.val; omega))

/-- A vector of length n recast as a 1 × n row reads the vector at the column. -/
theorem row_of_vec {n : Nat} (b : FVec Ideal ⟨1, ![n]⟩ .f32) (h : (⟨1, ![n]⟩ : Shape).ShapeCasts ⟨2, ![1, n]⟩) (q : Fin n) :
    shapeCast ⟨2, ![1, n]⟩ b h (ix2 (0 : Fin 1) q) = b (ix1 q) :=
  shapeCast_apply b h (ix2 (0 : Fin 1) q) (ix1 q) (by
    rw [Shape.rowMajor_val_one, Shape.rowMajor_val_two]
    show q.val = 0 * n + q.val
    omega)

/-! ## The stack of four layers -/

/-- The last point's payload on the pooled sums `acc`, the four weight matrices and four bias ROWS each of which
    reads a bias vector at the column, is the reference's tail on `acc`, the weights and the bias vectors. -/
theorem pay3_eq_of_rows (acc : FVec Ideal Cert.KernelIdeal.S256x50 .f32)
    (W1 : FVec Ideal Cert.KernelIdeal.S50x30 .f32) (r1 : FVec Ideal Cert.KernelIdeal.S1x30 .f32) (b1 : FVec Ideal Cert.KernelIdeal.S30 .f32)
    (W2 : FVec Ideal Cert.KernelIdeal.S30x20 .f32) (r2 : FVec Ideal Cert.KernelIdeal.S1x20 .f32) (b2 : FVec Ideal Cert.KernelIdeal.S20 .f32)
    (W3 : FVec Ideal Cert.KernelIdeal.S20x10 .f32) (r3 : FVec Ideal Cert.KernelIdeal.S1x10 .f32) (b3 : FVec Ideal Cert.KernelIdeal.S10 .f32)
    (Wo : FVec Ideal Cert.KernelIdeal.S10x1 .f32) (ro : FVec Ideal Cert.KernelIdeal.S1x1 .f32) (bo : FVec Ideal Cert.KernelIdeal.S1 .f32)
    (h1 : ∀ j : Fin 30, r1 (ix2 (0 : Fin 1) j) = b1 (ix1 j)) (h2 : ∀ j : Fin 20, r2 (ix2 (0 : Fin 1) j) = b2 (ix1 j))
    (h3 : ∀ j : Fin 10, r3 (ix2 (0 : Fin 1) j) = b3 (ix1 j)) (ho : ∀ j : Fin 1, ro (ix2 (0 : Fin 1) j) = bo (ix1 j)) :
    Cert.KernelIdeal.Gen.k2_pay3 (F := Ideal) acc W1 r1 W2 r2 W3 r3 Wo ro
      = addf (Host.dotGeneral Cert.ReferenceIdeal.dot_S256x10_S10x1_S256x1_1_0_0_1_n_n none
          (addf (Host.dotGeneral Cert.ReferenceIdeal.dot_S256x20_S20x10_S256x10_1_0_0_1_n_n none
            (addf (Host.dotGeneral Cert.ReferenceIdeal.dot_S256x30_S30x20_S256x20_1_0_0_1_n_n none
              (addf (Host.dotGeneral Cert.ReferenceIdeal.dot_S256x50_S50x30_S256x30_1_0_0_1_n_n none acc W1)
                (Cert.ReferenceIdeal.Read.val_main_v66 (F := Ideal) b1)) W2)
              (Cert.ReferenceIdeal.Read.val_main_v70 (F := Ideal) b2)) W3)
            (Cert.ReferenceIdeal.Read.val_main_v74 (F := Ideal) b3)) Wo)
          (Cert.ReferenceIdeal.Read.val_main_v78 (F := Ideal) bo) := by
  unfold Cert.KernelIdeal.Gen.k2_pay3
  exact layer_eq _ _ rfl rfl rfl rfl rfl rfl rfl rfl rfl rfl rfl rfl _ _ _ _ _
    (layer_eq _ _ rfl rfl rfl rfl rfl rfl rfl rfl rfl rfl rfl rfl _ _ _ _ _
      (layer_eq _ _ rfl rfl rfl rfl rfl rfl rfl rfl rfl rfl rfl rfl _ _ _ _ _
        (layer_eq _ _ rfl rfl rfl rfl rfl rfl rfl rfl rfl rfl rfl rfl _ _ _ _ _ rfl W1 r1 _
          (fun p q => (ref_bias1 b1 p q).trans (h1 q).symm))
        W2 r2 _ (fun p q => (ref_bias2 b2 p q).trans (h2 q).symm))
      W3 r3 _ (fun p q => (ref_bias3 b3 p q).trans (h3 q).symm))
    Wo ro _ (fun p q => (ref_bias4 bo p q).trans (ho q).symm)

/-- The same with each bias row the bias vector recast as a 1 × n row, as the host stages it for the launch. -/
theorem pay3_eq (acc : FVec Ideal Cert.KernelIdeal.S256x50 .f32)
    (W1 : FVec Ideal Cert.KernelIdeal.S50x30 .f32) (b1 : FVec Ideal Cert.KernelIdeal.S30 .f32)
    (W2 : FVec Ideal Cert.KernelIdeal.S30x20 .f32) (b2 : FVec Ideal Cert.KernelIdeal.S20 .f32)
    (W3 : FVec Ideal Cert.KernelIdeal.S20x10 .f32) (b3 : FVec Ideal Cert.KernelIdeal.S10 .f32)
    (Wo : FVec Ideal Cert.KernelIdeal.S10x1 .f32) (bo : FVec Ideal Cert.KernelIdeal.S1 .f32) :
    Cert.KernelIdeal.Gen.k2_pay3 (F := Ideal) acc
        W1 (shapeCast Cert.KernelIdeal.S1x30 b1 Cert.KernelIdeal.Gen.shapeCasts_S30_S1x30)
        W2 (shapeCast Cert.KernelIdeal.S1x20 b2 Cert.KernelIdeal.Gen.shapeCasts_S20_S1x20)
        W3 (shapeCast Cert.KernelIdeal.S1x10 b3 Cert.KernelIdeal.Gen.shapeCasts_S10_S1x10)
        Wo (shapeCast Cert.KernelIdeal.S1x1 bo Cert.KernelIdeal.Gen.shapeCasts_S1_S1x1)
      = addf (Host.dotGeneral Cert.ReferenceIdeal.dot_S256x10_S10x1_S256x1_1_0_0_1_n_n none
          (addf (Host.dotGeneral Cert.ReferenceIdeal.dot_S256x20_S20x10_S256x10_1_0_0_1_n_n none
            (addf (Host.dotGeneral Cert.ReferenceIdeal.dot_S256x30_S30x20_S256x20_1_0_0_1_n_n none
              (addf (Host.dotGeneral Cert.ReferenceIdeal.dot_S256x50_S50x30_S256x30_1_0_0_1_n_n none acc W1)
                (Cert.ReferenceIdeal.Read.val_main_v66 (F := Ideal) b1)) W2)
              (Cert.ReferenceIdeal.Read.val_main_v70 (F := Ideal) b2)) W3)
            (Cert.ReferenceIdeal.Read.val_main_v74 (F := Ideal) b3)) Wo)
          (Cert.ReferenceIdeal.Read.val_main_v78 (F := Ideal) bo) :=
  pay3_eq_of_rows acc W1 _ b1 W2 _ b2 W3 _ b3 Wo _ bo
    (row_of_vec b1 _) (row_of_vec b2 _) (row_of_vec b3 _) (row_of_vec bo _)

end Cert.KernelIdeal.Hand

end
-- ==== Proof.KernelIdeal.Tail2.lean ====
/- The pooling launch's output array as the reference's tail. The launch's eight small operands — four weight matrices
   and four bias rows — are windows whose block is the whole array at block index (0, 0) at every grid point, so what
   the body reads of each at the last point is the array itself. The output array after the launch is therefore the
   stack of four affine layers on the accumulated sums, the weights and the bias rows as the launch finds them, and
   that stack is the reference's four dot_generals with broadcast biases. -/
import proofs.«415449_j35734127903067_1_alg».proof.Proof.KernelIdeal.Final2
import proofs.«415449_j35734127903067_1_alg».proof.Proof.KernelIdeal.MlpVal

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

/-! ## The small operands' windows read the whole arrays -/

/-- The first layer's weights' window has block index (0, 0) at every point: its offsets in the array are zero. -/
theorem off2_3 (t : Fin cfg2.N) : (fun a => win2_3.index t a * main_arg7.ty.shape.size a) = fun _ => 0 :=
  funext fun a => by fin_cases a <;> rfl

/-- What the launch reads of the first layer's weights at any point is the whole array. -/
theorem iblk2_whole_3 (c : Dev nD) (t : Fin cfg2.N) : iblk2 V c 3 t = (V c main_arg7 : Vec Ideal S50x30 .f32) :=
  Memref.read_access_unit_zero (Elt Ideal) main_arg7 (off2_3 t) (fun a => by rw [congrFun (off2_3 t) a]; simp) (V c main_arg7)

/-- The first layer's bias row's window has block index (0, 0) at every point: its offsets in the array are zero. -/
theorem off2_4 (t : Fin cfg2.N) : (fun a => win2_4.index t a * main_v58.ty.shape.size a) = fun _ => 0 :=
  funext fun a => by fin_cases a <;> rfl

/-- What the launch reads of the first layer's bias row at any point is the whole array. -/
theorem iblk2_whole_4 (c : Dev nD) (t : Fin cfg2.N) : iblk2 V c 4 t = (V c main_v58 : Vec Ideal S1x30 .f32) :=
  Memref.read_access_unit_zero (Elt Ideal) main_v58 (off2_4 t) (fun a => by rw [congrFun (off2_4 t) a]; simp) (V c main_v58)

/-- The second layer's weights' window has block index (0, 0) at every point: its offsets in the array are zero. -/
theorem off2_5 (t : Fin cfg2.N) : (fun a => win2_5.index t a * main_arg9.ty.shape.size a) = fun _ => 0 :=
  funext fun a => by fin_cases a <;> rfl

/-- What the launch reads of the second layer's weights at any point is the whole array. -/
theorem iblk2_whole_5 (c : Dev nD) (t : Fin cfg2.N) : iblk2 V c 5 t = (V c main_arg9 : Vec Ideal S30x20 .f32) :=
  Memref.read_access_unit_zero (Elt Ideal) main_arg9 (off2_5 t) (fun a => by rw [congrFun (off2_5 t) a]; simp) (V c main_arg9)

/-- The second layer's bias row's window has block index (0, 0) at every point: its offsets in the array are zero. -/
theorem off2_6 (t : Fin cfg2.N) : (fun a => win2_6.index t a * main_v59.ty.shape.size a) = fun _ => 0 :=
  funext fun a => by fin_cases a <;> rfl

/-- What the launch reads of the second layer's bias row at any point is the whole array. -/
theorem iblk2_whole_6 (c : Dev nD) (t : Fin cfg2.N) : iblk2 V c 6 t = (V c main_v59 : Vec Ideal S1x20 .f32) :=
  Memref.read_access_unit_zero (Elt Ideal) main_v59 (off2_6 t) (fun a => by rw [congrFun (off2_6 t) a]; simp) (V c main_v59)

/-- The third layer's weights' window has block index (0, 0) at every point: its offsets in the array are zero. -/
theorem off2_7 (t : Fin cfg2.N) : (fun a => win2_7.index t a * main_arg11.ty.shape.size a) = fun _ => 0 :=
  funext fun a => by fin_cases a <;> rfl

/-- What the launch reads of the third layer's weights at any point is the whole array. -/
theorem iblk2_whole_7 (c : Dev nD) (t : Fin cfg2.N) : iblk2 V c 7 t = (V c main_arg11 : Vec Ideal S20x10 .f32) :=
  Memref.read_access_unit_zero (Elt Ideal) main_arg11 (off2_7 t) (fun a => by rw [congrFun (off2_7 t) a]; simp) (V c main_arg11)

/-- The third layer's bias row's window has block index (0, 0) at every point: its offsets in the array are zero. -/
theorem off2_8 (t : Fin cfg2.N) : (fun a => win2_8.index t a * main_v60.ty.shape.size a) = fun _ => 0 :=
  funext fun a => by fin_cases a <;> rfl

/-- What the launch reads of the third layer's bias row at any point is the whole array. -/
theorem iblk2_whole_8 (c : Dev nD) (t : Fin cfg2.N) : iblk2 V c 8 t = (V c main_v60 : Vec Ideal S1x10 .f32) :=
  Memref.read_access_unit_zero (Elt Ideal) main_v60 (off2_8 t) (fun a => by rw [congrFun (off2_8 t) a]; simp) (V c main_v60)

/-- The last layer's weights' window has block index (0, 0) at every point: its offsets in the array are zero. -/
theorem off2_9 (t : Fin cfg2.N) : (fun a => win2_9.index t a * main_arg13.ty.shape.size a) = fun _ => 0 :=
  funext fun a => by fin_cases a <;> rfl

/-- What the launch reads of the last layer's weights at any point is the whole array. -/
theorem iblk2_whole_9 (c : Dev nD) (t : Fin cfg2.N) : iblk2 V c 9 t = (V c main_arg13 : Vec Ideal S10x1 .f32) :=
  Memref.read_access_unit_zero (Elt Ideal) main_arg13 (off2_9 t) (fun a => by rw [congrFun (off2_9 t) a]; simp) (V c main_arg13)

/-- The last layer's bias row's window has block index (0, 0) at every point: its offsets in the array are zero. -/
theorem off2_10 (t : Fin cfg2.N) : (fun a => win2_10.index t a * main_v61.ty.shape.size a) = fun _ => 0 :=
  funext fun a => by fin_cases a <;> rfl

/-- What the launch reads of the last layer's bias row at any point is the whole array. -/
theorem iblk2_whole_10 (c : Dev nD) (t : Fin cfg2.N) : iblk2 V c 10 t = (V c main_v61 : Vec Ideal S1x1 .f32) :=
  Memref.read_access_unit_zero (Elt Ideal) main_v61 (off2_10 t) (fun a => by rw [congrFun (off2_10 t) a]; simp) (V c main_v61)

/-! ## The output array is the reference's tail -/

/-- After the launch the result array is the reference's four dot_generals with broadcast biases, applied to the sums
    `acc` the accumulator holds after the last point, the four weight matrices as the launch finds them, and the
    four bias vectors whose rows the launch finds. -/
theorem out2_eq_ref (c : Dev nD) (acc : FVec Ideal Cert.ReferenceIdeal.S256x50 .f32)
    (W1 : FVec Ideal Cert.ReferenceIdeal.S50x30 .f32) (b1 : FVec Ideal Cert.ReferenceIdeal.S30 .f32)
    (W2 : FVec Ideal Cert.ReferenceIdeal.S30x20 .f32) (b2 : FVec Ideal Cert.ReferenceIdeal.S20 .f32)
    (W3 : FVec Ideal Cert.ReferenceIdeal.S20x10 .f32) (b3 : FVec Ideal Cert.ReferenceIdeal.S10 .f32)
    (Wo : FVec Ideal Cert.ReferenceIdeal.S10x1 .f32) (bo : FVec Ideal Cert.ReferenceIdeal.S1 .f32)
    (hacc : accAt2 V c 19 lt19 = acc)
    (hW1 : V c main_arg7 = W1) (hW2 : V c main_arg9 = W2) (hW3 : V c main_arg11 = W3) (hWo : V c main_arg13 = Wo)
    (h1 : ∀ j : Fin 30, (V c main_v58 : S1x30.Idx → EReal) (ix2 (0 : Fin 1) j) = b1 (ix1 j))
    (h2 : ∀ j : Fin 20, (V c main_v59 : S1x20.Idx → EReal) (ix2 (0 : Fin 1) j) = b2 (ix1 j))
    (h3 : ∀ j : Fin 10, (V c main_v60 : S1x10.Idx → EReal) (ix2 (0 : Fin 1) j) = b3 (ix1 j))
    (ho : ∀ j : Fin 1, (V c main_v61 : S1x1.Idx → EReal) (ix2 (0 : Fin 1) j) = bo (ix1 j)) :
    (dat2 V c).arrAt 11 cfg2.N
      = addf (Host.dotGeneral Cert.ReferenceIdeal.dot_S256x10_S10x1_S256x1_1_0_0_1_n_n none
          (addf (Host.dotGeneral Cert.ReferenceIdeal.dot_S256x20_S20x10_S256x10_1_0_0_1_n_n none
            (addf (Host.dotGeneral Cert.ReferenceIdeal.dot_S256x30_S30x20_S256x20_1_0_0_1_n_n none
              (addf (Host.dotGeneral Cert.ReferenceIdeal.dot_S256x50_S50x30_S256x30_1_0_0_1_n_n none acc W1)
                (Cert.ReferenceIdeal.Read.val_main_v66 (F := Ideal) b1)) W2)
              (Cert.ReferenceIdeal.Read.val_main_v70 (F := Ideal) b2)) W3)
            (Cert.ReferenceIdeal.Read.val_main_v74 (F := Ideal) b3)) Wo)
          (Cert.ReferenceIdeal.Read.val_main_v78 (F := Ideal) bo) := by
  refine (final2 V c).trans ?_
  unfold outLast2
  rw [hacc, iblk2_whole_3 V c, iblk2_whole_4 V c, iblk2_whole_5 V c, iblk2_whole_6 V c, iblk2_whole_7 V c,
    iblk2_whole_8 V c, iblk2_whole_9 V c, iblk2_whole_10 V c, hW1, hW2, hW3, hWo]
  exact pay3_eq_of_rows acc W1 (V c main_v58) b1 W2 (V c main_v59) b2 W3 (V c main_v60) b3 Wo (V c main_v61) bo h1 h2 h3 ho

end Cert.KernelIdeal.Hand

end
-- ==== Proof.KernelIdeal.PoolPay.lean ====
/- The pooling launch's accumulator, as a value at the extended reals.
   The body forms, for its block of 5000 nodes, the matrix whose (r, g) entry is 1 when node r's graph id is g and 0
   otherwise, transposes it, multiplies it with the block's rows plus the bias, and adds the product to the accumulator.
   At an element (g, f) that adds, over the block's nodes r, [id r = g] * (row r at f + bias at f). -/
import proofs.«415449_j35734127903067_1_alg».proof.Proof.Gen.KernelIdeal.Skeleton
import proofs.«415449_j35734127903067_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-- one-hot entry: is the id word the graph number g -/
def hot (w : BitVec 32) (g : Fin 256) : EReal := if w = BitVec.ofNat 32 g.val then 1 else 0

/-- The accumulator's first contents: zero everywhere. -/
theorem pay1_apply (g : Fin 256) (f : Fin 50) : (k2_pay1 (F := Ideal)) (ix2 g f) = 0 := by
  unfold k2_pay1
  refine (shapeCast_apply _ _ (ix2 g f) (ix2 g f) rfl).trans ?_
  exact Ideal.ofBits_zero_f32

/-- The compare's bit, widened and converted: 1 where the id word is the graph number, 0 elsewhere. -/
theorem sitofp_hot (w : BitVec 32) (g : Fin 256) :
    FloatOps.sitofp (F := Ideal) .f32 ((IntOp.cmpi .eq w (BitVec.ofNat 32 g.val)).setWidth 32) = hot w g := by
  show (((((IntOp.cmpi .eq w (BitVec.ofNat 32 g.val)).setWidth 32).toInt : ℤ) : ℝ) : EReal) = hot w g
  unfold hot IntOp.cmpi
  by_cases h : w = BitVec.ofNat 32 g.val
  · rw [if_pos h]
    have hb : (w == BitVec.ofNat 32 g.val) = true := by rw [h]; exact beq_self_eq_true _
    simp only [hb]
    have : ((BitVec.ofBool true).setWidth 32).toInt = 1 := by decide
    rw [this]; simp
  · rw [if_neg h]
    have hb : (w == BitVec.ofNat 32 g.val) = false := beq_eq_false_iff_ne.2 h
    simp only [hb]
    have : ((BitVec.ofBool false).setWidth 32).toInt = 0 := by decide
    rw [this]; simp

/-- The body's new accumulator at an element: the old one plus, over the block's nodes, the one-hot entry times the
    row plus the bias. -/
theorem pay2_apply (x0 : Vec Ideal S5000x50 .f32) (x1 : Vec Ideal S1x50 .f32) (x2 : Vec Ideal S5000x1 .i32) (acc : Vec Ideal S256x50 .f32)
    (g : Fin 256) (f : Fin 50) :
    k2_pay2 x0 x1 x2 acc (ix2 g f) = acc (ix2 g f) + ∑ r : Fin 5000, hot (x2 (ix2 r 0)) g * (x0 (ix2 r f) + x1 (ix2 0 f)) := by
  unfold k2_pay2
  refine (shapeCast_apply _ _ (ix2 g f) (ix2 g f) rfl).trans ?_
  rw [addf_apply]
  refine congrArg (acc (ix2 g f) + ·) ?_
  refine (PlainDot.matmul_zero_apply dot_S256x5000_S5000x50_S256x50_1_0_0_1_n_n rfl rfl rfl rfl rfl rfl none _ _ g f).trans ?_
  refine Finset.sum_congr rfl fun r _ => ?_
  -- the one-hot factor: the transposed matrix at (g, r) is the compare at (r, g)
  have hL : transpose S256x5000 [1, 0]
        (truncf FTy.bf16
          (sitofp (F := Ideal) FTy.f32
            (extui 32
              (cmpi CmpIPredicate.eq
                (broadcastTo S5000x256 (shapeCast S5000x1 x2 shapeCasts_S5000x1_S5000x1) broadcasts_S5000x1_S5000x256)
                (iota Kind.tc S5000x256 32 [1] iota_S5000x256_d1_w32))
              natLt_1_32))
          bitsLt_bf16_f32)
        transposes_S5000x256_p1_0_S256x5000 (ix2 g r) = hot (x2 (ix2 r 0)) g := by
    refine (transpose_ix2_apply _ _ g r).trans ?_
    rw [truncf_apply, sitofp_apply, extui_apply]
    show FloatOps.sitofp (F := Ideal) .f32 ((IntOp.cmpi .eq
        (broadcastTo S5000x256 (shapeCast S5000x1 x2 shapeCasts_S5000x1_S5000x1) broadcasts_S5000x1_S5000x256 (ix2 r g))
        (iota Kind.tc S5000x256 32 [1] iota_S5000x256_d1_w32 (ix2 r g))).setWidth 32) = _
    have hi : iota Kind.tc S5000x256 32 [1] iota_S5000x256_d1_w32 (ix2 r g) = BitVec.ofNat 32 g.val :=
      iota_single_apply _ _ _ _ _ _
    have hb : broadcastTo S5000x256 (shapeCast S5000x1 x2 shapeCasts_S5000x1_S5000x1) broadcasts_S5000x1_S5000x256 (ix2 r g)
        = x2 (ix2 r 0) := by
      refine (broadcastTo_apply _ _ (ix2 r g) (ix2 r (0 : Fin 1)) fun a => ?_).trans ?_
      · match a with
        | ⟨0, _⟩ => rfl
        | ⟨1, _⟩ => rfl
      · exact shapeCast_apply _ _ _ _ rfl
    rw [hi, hb]
    exact sitofp_hot _ g
  -- the value factor: the block's row plus the bias
  have hR : (truncf (F := Ideal) FTy.bf16
        (addf (shapeCast S5000x50 x0 shapeCasts_S5000x50_S5000x50)
          (broadcastTo S5000x50 (shapeCast S1x50 x1 shapeCasts_S1x50_S1x50) broadcasts_S1x50_S5000x50))
        bitsLt_bf16_f32 (ix2 r f) : EReal) = x0 (ix2 r f) + x1 (ix2 0 f) := by
    rw [truncf_apply, addf_apply]
    have h0 : shapeCast S5000x50 x0 shapeCasts_S5000x50_S5000x50 (ix2 r f) = x0 (ix2 r f) := shapeCast_apply _ _ _ _ rfl
    have h1 : broadcastTo S5000x50 (shapeCast S1x50 x1 shapeCasts_S1x50_S1x50) broadcasts_S1x50_S5000x50 (ix2 r f) = x1 (ix2 0 f) :=
      (broadcastTo_1b_ab_apply _ _ r f).trans (shapeCast_apply _ _ _ _ rfl)
    rw [h0, h1]
  rw [hL, hR]

/-- A graph number as a word reads back, signed, as itself: it is far below 2^31. -/
theorem toInt_ofNat_graph (g : Fin 256) : (BitVec.ofNat 32 g.val).toInt = (g.val : ℤ) := by
  have hg := g.isLt
  rw [BitVec.toInt_eq_toNat_cond, BitVec.toNat_ofNat]
  have h1 : g.val % 2 ^ 32 = g.val := Nat.mod_eq_of_lt (by omega)
  rw [h1, if_pos (by omega)]

/-- The id word is the graph number exactly when it reads, signed, as that number. -/
theorem hot_iff_toInt (w : BitVec 32) (g : Fin 256) : w = BitVec.ofNat 32 g.val ↔ w.toInt = (g.val : ℤ) := by
  constructor
  · rintro rfl
    exact toInt_ofNat_graph g
  · intro h
    exact BitVec.eq_of_toInt_eq (h.trans (toInt_ofNat_graph g).symm)

end Cert.KernelIdeal.Hand

end
-- ==== Proof.KernelIdeal.PoolAcc.lean ====
/- The pooling launch's accumulator after the last point, as a value at the extended reals.
   Point t of the twenty reads rows [5000 t, 5000 t + 5000) of the node rows and of the id column, and the whole bias; the
   body adds to the accumulator, at (g, f), the sum over the block's nodes r of [id r = g] * (row r at f + bias at f).
   Starting from zero, after the last point the accumulator holds at (g, f) the sum over all 100000 nodes n of
   [id n = g] * (row n at f + bias at f): the twenty blocks of 5000 tile the node range. -/
import proofs.«415449_j35734127903067_1_alg».proof.Proof.KernelIdeal.R2
import proofs.«415449_j35734127903067_1_alg».proof.Proof.KernelIdeal.PoolPay

set_option maxRecDepth 16384

noncomputable section

open scoped BigOperators

namespace Cert.KernelIdeal.Hand

open Cert.KernelIdeal Cert.KernelIdeal.Gen
open Idealize.ShloMosaic Idealize.ShloMosaic.TcCoe
open Idealize.SL.Sem
open Idealize.ShloMosaic.ValueIdx

-- the TensorCore's buffer contents when the region is entered
variable (V : (c : Dev nD) → (b : Ref sig .tc) → Buf (Elt Ideal) ((c : Thread nD τ).loc b))

/-! ## Twenty blocks of 5000 tile the node range -/

/-- A sum over the 100000 nodes is the sum over the twenty blocks of the sums over each block's 5000 nodes. -/
theorem sum_nodes_blocks (T : Fin 100000 → EReal) :
    ∑ n : Fin 100000, T n = ∑ t : Fin 20, ∑ r : Fin 5000, T ⟨5000 * t.val + r.val, by have := t.isLt; have := r.isLt; omega⟩ := by
  rw [← Equiv.sum_comp ((finProdFinEquiv (m := 20) (n := 5000)).trans (finCongr (by norm_num : 20 * 5000 = 100000))) T,
    Fintype.sum_prod_type]
  refine Finset.sum_congr rfl fun t _ => Finset.sum_congr rfl fun r _ => congrArg T (Fin.ext ?_)
  show r.val + 5000 * t.val = 5000 * t.val + r.val
  omega

/-! ## The arrays the launch reads, at their literal shapes -/

/-- The node rows, the id column and the bias as the launch finds them. -/
abbrev poolRows (c : Dev nD) : S100000x50.Idx → EReal := V c main_v55
abbrev poolIds (c : Dev nD) : S100000x1.Idx → BitVec 32 := V c main_v56
abbrev poolBias (c : Dev nD) : S1x50.Idx → EReal := V c main_v57

/-! ## The blocks, read off the arrays -/

/-- The printed index maps over the grid: the row and id windows' block number is the point, the bias window's is zero. -/
theorem pool_idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row window's block at point t holds rows 5000 t onward of the node rows. -/
theorem pool_rows_apply (c : Dev nD) (t : Fin cfg2.N) (r : Fin 5000) (f : Fin 50) (n : Fin 100000) (hn : n.val = 5000 * t.val + r.val) :
    iblk2 (F := Ideal) V c 0 t (ix2 r f) = poolRows V c (ix2 n f) := by
  obtain ⟨e0, e1, -, -, -, -⟩ := pool_idx_facts t
  show poolRows V c (((cfg2.win 0).blk t).view.emb (ix2 r f)) = _
  refine congrArg _ (funext fun a => Fin.ext ?_)
  match a with
  | ⟨0, _⟩ => show win2_0.index t (0 : Fin 2) * 5000 + 1 * r.val = n.val; omega
  | ⟨1, _⟩ => show win2_0.index t (1 : Fin 2) * 50 + 1 * f.val = f.val; omega

/-- The id window's block at point t holds rows 5000 t onward of the id column. -/
theorem pool_ids_apply (c : Dev nD) (t : Fin cfg2.N) (r : Fin 5000) (n : Fin 100000) (hn : n.val = 5000 * t.val + r.val) :
    iblk2 (F := Ideal) V c 2 t (ix2 r 0) = poolIds V c (ix2 n 0) := by
  obtain ⟨-, -, -, -, e0, e1⟩ := pool_idx_facts t
  show poolIds V c (((cfg2.win 2).blk t).view.emb (ix2 r 0)) = _
  refine congrArg _ (funext fun a => Fin.ext ?_)
  match a with
  | ⟨0, _⟩ => show win2_2.index t (0 : Fin 2) * 5000 + 1 * r.val = n.val; omega
  | ⟨1, _⟩ => show win2_2.index t (1 : Fin 2) * 1 + 1 * 0 = 0; omega

/-- The bias window's block is the whole bias at every point. -/
theorem pool_bias_apply (c : Dev nD) (t : Fin cfg2.N) (f : Fin 50) :
    iblk2 (F := Ideal) V c 1 t (ix2 0 f) = poolBias V c (ix2 0 f) := by
  obtain ⟨-, -, e0, e1, -, -⟩ := pool_idx_facts t
  show poolBias V c (((cfg2.win 1).blk t).view.emb (ix2 0 f)) = _
  refine congrArg _ (funext fun a => Fin.ext ?_)
  match a with
  | ⟨0, _⟩ => show win2_1.index t (0 : Fin 2) * 1 + 1 * 0 = 0; omega
  | ⟨1, _⟩ => show win2_1.index t (1 : Fin 2) * 50 + 1 * f.val = f.val; omega

/-! ## The accumulator, point by point -/

/-- One node's term of the pooled sum at (g, f): the one-hot entry of the node's id times its row plus the bias. -/
def poolTerm (c : Dev nD) (g : Fin 256) (f : Fin 50) (n : Fin 100000) : EReal :=
  hot (poolIds V c (ix2 n 0)) g
    * (poolRows V c (ix2 n f) + poolBias V c (ix2 0 f))

/-- The term at a node number, zero past the last node. -/
def poolTermN (c : Dev nD) (g : Fin 256) (f : Fin 50) (n : ℕ) : EReal :=
  if h : n < 100000 then poolTerm V c g f ⟨n, h⟩ else 0

/-- What the body at point t adds to the accumulator at (g, f): the terms of nodes 5000 t onward. -/
theorem pool_step (c : Dev nD) (t : Fin cfg2.N) (acc : Vec Ideal S256x50 .f32) (g : Fin 256) (f : Fin 50) :
    k2_pay2 (iblk2 (F := Ideal) V c 0 t) (iblk2 (F := Ideal) V c 1 t) (iblk2 (F := Ideal) V c 2 t) acc (ix2 g f)
      = acc (ix2 g f) + ∑ r : Fin 5000, poolTermN V c g f (5000 * t.val + r.val) := by
  refine (pay2_apply _ _ _ _ g f).trans ?_
  refine congrArg (acc (ix2 g f) + ·) (Finset.sum_congr rfl fun r _ => ?_)
  have ht : t.val < 20 := t.isLt.trans_eq N_2
  have hlt : 5000 * t.val + r.val < 100000 := by have := r.isLt; omega
  unfold poolTermN
  rw [dif_pos hlt]
  unfold poolTerm
  rw [pool_rows_apply V c t r f ⟨_, hlt⟩ rfl, pool_ids_apply V c t r ⟨_, hlt⟩ rfl, pool_bias_apply V c t f]

/-- After point k the accumulator holds, at (g, f), the terms of the blocks up to k. -/
theorem acc_partial (c : Dev nD) (g : Fin 256) (f : Fin 50) : ∀ (k : ℕ) (hk : k < cfg2.N),
    accAt2 (F := Ideal) V c k hk (ix2 g f) = ∑ t ∈ Finset.range (k + 1), ∑ r : Fin 5000, poolTermN V c g f (5000 * t + r.val)
  | 0, hk => by
    rw [accAt2_zero]
    refine (pool_step V c ⟨0, hk⟩ _ g f).trans ?_
    rw [pay1_apply, zero_add, Finset.sum_range_one]
  | k + 1, hk => by
    rw [accAt2_succ]
    refine (pool_step V c ⟨k + 1, hk⟩ _ g f).trans ?_
    rw [acc_partial c g f k (Nat.lt_of_succ_lt hk), Finset.sum_range_succ _ (k + 1)]

/-- After the last point the accumulator holds, at (g, f), the sum over all nodes of the one-hot entry of the node's id
    times its row plus the bias. -/
theorem acc_apply (c : Dev nD) (h19 : 19 < cfg2.N) (g : Fin 256) (f : Fin 50) :
    accAt2 (F := Ideal) V c 19 h19 (ix2 g f) = ∑ n : Fin 100000, hot (poolIds V c (ix2 n 0)) g * (poolRows V c (ix2 n f) + poolBias V c (ix2 0 f)) := by
  rw [acc_partial V c g f 19 h19]
  show ∑ t ∈ Finset.range 20, ∑ r : Fin 5000, poolTermN V c g f (5000 * t + r.val) = ∑ n : Fin 100000, poolTerm V c g f n
  rw [sum_nodes_blocks, ← Fin.sum_univ_eq_sum_range (fun t => ∑ r : Fin 5000, poolTermN V c g f (5000 * t + r.val)) 20]
  refine Finset.sum_congr rfl fun t _ => Finset.sum_congr rfl fun r _ => ?_
  unfold poolTermN
  rw [dif_pos]

end Cert.KernelIdeal.Hand

end
-- ==== Proof.LibScatterRead.lean ====
/-
  Host scatters and gathers read at an index, at the extended reals: what `x.at[idx].add(u)` and `x[idx]` over
  rows hold at one element, as a sum over the updates that land there / as the operand's row at the clamped index.
  General lemmas over any sizes; they import no program.
-/
import Idealize.ShloMosaic.Lib.ValueIdx
import Idealize.ShloMosaic.PureOps.Ideal.Laws

noncomputable section

open scoped BigOperators

namespace Idealize.ShloMosaic.ScatterRead

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) :=
  (Equiv.sum_comp (idxEquiv1 (n := n)).symm f).symm

/-- An update lands at operand index `i` exactly when, on every operand axis, its window's start plus its window
    coordinate is `i`'s coordinate there (the start read signed: a sum that is negative or past the axis's end is no
    coordinate of any `i`, and the update is dropped). -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show d.start j idx a + (d.window j a : ℤ) = ((d.start j idx a + (d.window j a : ℤ)).toNat : ℤ)
      omega
    · intro hi
      funext a
      apply Fin.ext
      show (d.start j idx a + (d.window j a : ℤ)).toNat = (i a).val
      have := hi a
      omega
  · next h =>
    constructor
    · intro h'
      cases h'
    · intro hi
      exfalso
      apply h
      intro a
      have := hi a
      have := (i a).isLt
      omega

/-- The dimension numbers of a row scatter: the updates' axis 1 is the window, going to the operand's axis 1; the
    operand's axis 0 is inserted and is the one the scatter index names; the index vector is the column's axis 1. -/
abbrev rowsDims (N M D : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Where update `(v, k')` of a row scatter lands: at `(g, k)` exactly when `v`'s index, read signed, is `g` and
    `k' = k` (the window starts at row = the index, column 0, and the window coordinate is `k'` on the column axis). -/
theorem rows_resultIdx?_iff {N M D w : Nat} (wf : ScatterDims.WF ⟨2, ![N, D]⟩ ⟨2, ![M, 1]⟩ ⟨2, ![M, D]⟩ [1] [0] [0] 1)
    (idx : IVec ⟨2, ![M, 1]⟩ w) (v : Fin M) (k' : Fin D) (g : Fin N) (k : Fin D) :
    (rowsDims N M D wf).resultIdx? (ix2 v k') idx = some (ix2 g k)
      ↔ (idx (ix2 v (0 : Fin 1))).toInt = (g.val : ℤ) ∧ k' = k := by
  rw [resultIdx?_eq_some_iff]
  -- the scatter index of update `(v, k')` is read at `(v, 0)`
  have hsi : (rowsDims N M D wf).siIdx (ix2 v k') ⟨0, Nat.one_pos⟩ = ix2 v (0 : Fin 1) := by
    funext b
    match b with
    | ⟨0, _⟩ => rfl
    | ⟨1, _⟩ => rfl
  -- starts and window coordinates on the two operand axes
  have e0 : (rowsDims N M D wf).start (ix2 v k') idx 0 = (idx (ix2 v (0 : Fin 1))).toInt := by rw [← hsi]; rfl
  have e1 : (rowsDims N M D wf).start (ix2 v k') idx 1 = 0 := rfl
  have w0 : (rowsDims N M D wf).window (ix2 v k') 0 = 0 := rfl
  have w1 : (rowsDims N M D wf).window (ix2 v k') 1 = k'.val := rfl
  constructor
  · intro h
    have h0 : (rowsDims N M D wf).start (ix2 v k') idx 0 + ((rowsDims N M D wf).window (ix2 v k') 0 : ℤ) = (g.val : ℤ) := h 0
    have h1 : (rowsDims N M D wf).start (ix2 v k') idx 1 + ((rowsDims N M D wf).window (ix2 v k') 1 : ℤ) = (k.val : ℤ) := h 1
    rw [e0, w0] at h0
    rw [e1, w1] at h1
    refine ⟨by simpa using h0, Fin.ext ?_⟩
    omega
  · rintro ⟨hg, rfl⟩
    have t0 : (rowsDims N M D wf).start (ix2 v k') idx 0 + ((rowsDims N M D wf).window (ix2 v k') 0 : ℤ) = (g.val : ℤ) := by
      rw [e0, w0, hg]; simp
    have t1 : (rowsDims N M D wf).start (ix2 v k') idx 1 + ((rowsDims N M D wf).window (ix2 v k') 1 : ℤ) = (k'.val : ℤ) := by
      rw [e1, w1]; simp
    intro a
    match a with
    | ⟨0, _⟩ => exact t0
    | ⟨1, _⟩ => exact t1

/-- A row scatter-add (`x.at[idx].add(u)` over the first axis of a matrix, the indices an [M × 1] column): element
    `(g, k)` of the result is the operand's plus the sum of the updates' column-`k` entries of the rows `v` whose
    index, read signed, is `g`; a row whose index is outside `[0, N)` lands nowhere. -/
theorem scatterAdd_rows_apply {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0])
    (hiv : d.indexVectorDim = 1)
    (x : (⟨2, ![N, D]⟩ : Shape).Idx → EReal) (idx : IVec ⟨2, ![M, 1]⟩ w) (upd : (⟨2, ![M, D]⟩ : Shape).Idx → EReal)
    (g : Fin N) (k : Fin D) :
    Ideal.hostScatterAdd d x idx upd (ix2 g k)
      = x (ix2 g k) + ∑ v ∈ Finset.univ.filter (fun v : Fin M => (idx (ix2 v (0 : Fin 1))).toInt = (g.val : ℤ)), upd (ix2 v k) := by
  obtain ⟨uw, iw, sd, iv, wf⟩ := d
  dsimp only at huw hiw hsd hiv
  subst huw hiw hsd hiv
  show x (ix2 g k) + ∑ j ∈ Finset.univ.filter (fun j => (rowsDims N M D wf).resultIdx? j idx = some (ix2 g k)), upd j = _
  congr 1
  -- the sum over the updates `(v, k')` that land at `(g, k)`, as a double sum over rows and columns
  rw [Finset.sum_filter, Finset.sum_filter, sum_idx2]
  refine Finset.sum_congr rfl fun v _ => ?_
  simp only [rows_resultIdx?_iff]
  by_cases hv : (idx (ix2 v (0 : Fin 1))).toInt = (g.val : ℤ)
  · simp [hv]
  · simp [hv]

/-- The dimension numbers of a flat scatter: the updates have no window axis; the operand's one axis is inserted and
    is the one the scatter index names; the index vector is the column's axis 1. -/
abbrev flatDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where update `v` of a flat scatter lands: at `g` exactly when `v`'s index, read signed, is `g` (the window is
    the one element at the index). -/
theorem flat_resultIdx?_iff {N M w : Nat} (wf : ScatterDims.WF ⟨1, ![N]⟩ ⟨2, ![M, 1]⟩ ⟨1, ![M]⟩ [] [0] [0] 1)
    (idx : IVec ⟨2, ![M, 1]⟩ w) (v : Fin M) (g : Fin N) :
    (flatDims N M wf).resultIdx? (ix1 v) idx = some (ix1 g) ↔ (idx (ix2 v (0 : Fin 1))).toInt = (g.val : ℤ) := by
  rw [resultIdx?_eq_some_iff]
  -- the scatter index of update `v` is read at `(v, 0)`
  have hsi : (flatDims N M wf).siIdx (ix1 v) ⟨0, Nat.one_pos⟩ = ix2 v (0 : Fin 1) := by
    funext b
    match b with
    | ⟨0, _⟩ => rfl
    | ⟨1, _⟩ => rfl
  have e0 : (flatDims N M wf).start (ix1 v) idx 0 = (idx (ix2 v (0 : Fin 1))).toInt := by rw [← hsi]; rfl
  have w0 : (flatDims N M wf).window (ix1 v) 0 = 0 := rfl
  constructor
  · intro h
    have h0 : (flatDims N M wf).start (ix1 v) idx 0 + ((flatDims N M wf).window (ix1 v) 0 : ℤ) = (g.val : ℤ) := h 0
    rw [e0, w0] at h0
    simpa using h0
  · intro hg
    have t0 : (flatDims N M wf).start (ix1 v) idx 0 + ((flatDims N M wf).window (ix1 v) 0 : ℤ) = (g.val : ℤ) := by
      rw [e0, w0, hg]; simp
    intro a
    match a with
    | ⟨0, _⟩ => exact t0

/-- A flat scatter-add (`x.at[idx].add(u)` over a vector): element `g` is the operand's plus the sum of the updates
    whose index, read signed, is `g`. -/
theorem scatterAdd_flat_apply {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![M, 1]⟩ w) (upd : (⟨1, ![M]⟩ : Shape).Idx → EReal)
    (g : Fin N) :
    Ideal.hostScatterAdd d x idx upd (ix1 g)
      = x (ix1 g) + ∑ v ∈ Finset.univ.filter (fun v : Fin M => (idx (ix2 v (0 : Fin 1))).toInt = (g.val : ℤ)), upd (ix1 v) := by
  obtain ⟨uw, iw, sd, iv, wf⟩ := d
  dsimp only at huw hiw hsd hiv
  subst huw hiw hsd hiv
  show x (ix1 g) + ∑ j ∈ Finset.univ.filter (fun j => (flatDims N M wf).resultIdx? j idx = some (ix1 g)), upd j = _
  congr 1
  -- the updates' index set is its one coordinate's range
  rw [Finset.sum_filter, Finset.sum_filter, sum_idx1]
  refine Finset.sum_congr rfl fun v _ => ?_
  simp only [flat_resultIdx?_iff]

/-- A row gather (`x[idx]` over the first axis of a matrix, the indices an [M × 1] column): row `e` of the result
    is the operand's row at `e`'s index read signed and clamped into `[0, N − 1]`. -/
theorem gather_rows_apply {α : Type} {N M D w : Nat} (hN : 0 < N) (d : GatherDims ⟨2, ![N, D]⟩ ⟨2, ![M, 1]⟩ ⟨2, ![M, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![M, 1]⟩ w) (e : Fin M) (k : Fin D) :
    Host.gather d x idx (ix2 e k) = x (ix2 (⟨min (idx (ix2 e (0 : Fin 1))).toInt.toNat (N - 1), by omega⟩ : Fin N) k) := by
  obtain ⟨od, cd, ob, sb, sm, iv, ss, wf⟩ := d
  dsimp only at hoff hcoll hob hsb hsim hivd hss
  subst hoff hcoll hob hsb hsim hivd hss
  unfold Host.gather
  congr 1
  funext a
  apply Fin.ext
  match a with
  | ⟨0, _⟩ =>
    -- the row axis: collapsed, start-indexed; the start index of result `(e, k)` is read at `(e, 0)`
    have hsi : (GatherDims.mk (s := ⟨2, ![N, D]⟩) (si := ⟨2, ![M, 1]⟩) (t := ⟨2, ![M, D]⟩) [1] [0] [] [] [0] 1 ![1, D] wf).siIdx
        (ix2 e k) ⟨0, Nat.one_pos⟩ = ix2 e (0 : Fin 1) := by
      funext b
      match b with
      | ⟨0, _⟩ => rfl
      | ⟨1, _⟩ => rfl
    show min (idx _).toInt.toNat (N - 1) + 0 + 0 = min (idx (ix2 e (0 : Fin 1))).toInt.toNat (N - 1)
    rw [← hsi]; rfl
  | ⟨1, _⟩ =>
    -- the column axis: kept, not start-indexed: start 0, offset coordinate `k`
    show 0 + 0 + k.val = k.val
    omega

end Idealize.ShloMosaic.ScatterRead

end
-- ==== Proof.KernelIdeal.PoolRef.lean ====
/- The reference's pooling, as a value at the extended reals: a row scatter-add of the node rows into a zero
   256 × 50 table by graph id holds, at (g, f), the sum over all nodes n of [id n = g] * (row n at f). -/
import proofs.«415449_j35734127903067_1_alg».proof.ReferenceIdeal
import proofs.«415449_j35734127903067_1_alg».proof.Proof.LibScatterRead
import proofs.«415449_j35734127903067_1_alg».proof.Proof.KernelIdeal.PoolPay

set_option maxRecDepth 16384

noncomputable section

open scoped BigOperators

namespace Cert.KernelIdeal.Hand

open Idealize.ShloMosaic Idealize.ShloMosaic.ValueIdx

variable [Cert.ReferenceIdeal.Facts₀]

/-- The reference's pooled table at an element: the sum over all nodes of the one-hot entry times the node's row. -/
theorem scatter_pool_apply (z : FVec Ideal Cert.ReferenceIdeal.S256x50 .f32) (hz : ∀ i, z i = 0)
    (ids : IVec Cert.ReferenceIdeal.S100000x1 32) (h : FVec Ideal Cert.ReferenceIdeal.S100000x50 .f32) (g : Fin 256) (f : Fin 50) :
    Host.scatterAdd (F := Ideal) Cert.ReferenceIdeal.scatter_S256x50_S100000x1_S100000x50_1_0_0_1 z ids h (ix2 g f)
      = ∑ n : Fin 100000, hot (ids (ix2 n 0)) g * h (ix2 n f) := by
  show Ideal.hostScatterAdd _ z ids h (ix2 g f) = _
  rw [ScatterRead.scatterAdd_rows_apply _ rfl rfl rfl rfl, hz, zero_add, Finset.sum_filter]
  refine Finset.sum_congr rfl fun n _ => ?_
  unfold hot
  by_cases hn : (ids (ix2 n 0)).toInt = (g.val : ℤ)
  · rw [if_pos hn, if_pos ((hot_iff_toInt _ g).2 hn), one_mul]
  · rw [if_neg hn, if_neg (fun e => hn ((hot_iff_toInt _ g).1 e)), zero_mul]

end Cert.KernelIdeal.Hand

end
-- ==== Proof.KernelIdeal.PoolEq.lean ====
/- The pooling launch's accumulator after the last point is the reference's pooled table: both hold, at (g, f), the sum
   over all nodes n of [id n = g] times node n's biased row at f — the launch as a one-hot matrix product accumulated
   over twenty blocks of nodes, the reference as a row scatter-add into a zero table. -/
import proofs.«415449_j35734127903067_1_alg».proof.Proof.KernelIdeal.PoolAcc
import proofs.«415449_j35734127903067_1_alg».proof.Proof.KernelIdeal.PoolRef

set_option maxRecDepth 16384

noncomputable section

open scoped BigOperators

namespace Cert.KernelIdeal.Hand

open Cert.KernelIdeal Cert.KernelIdeal.Gen
open Idealize.ShloMosaic Idealize.ShloMosaic.TcCoe
open Idealize.SL.Sem
open Idealize.ShloMosaic.ValueIdx

-- the TensorCore's buffer contents when the region is entered
variable (V : (c : Dev nD) → (b : Ref sig .tc) → Buf (Elt Ideal) ((c : Thread nD τ).loc b))

variable [Cert.ReferenceIdeal.Facts₀]

/-- Where the launch's id column is the reference's and its rows plus the bias are the reference's rows, the accumulator
    after the last point is the reference's scatter-add of those rows into a zero table. -/
theorem acc_eq_ref (c : Dev nD) (z : FVec Ideal Cert.ReferenceIdeal.S256x50 .f32) (hz : ∀ i, z i = 0)
    (ids : IVec Cert.ReferenceIdeal.S100000x1 32) (h : FVec Ideal Cert.ReferenceIdeal.S100000x50 .f32)
    (hids : ∀ n : Fin 100000, poolIds V c (ix2 n 0) = ids (ix2 n 0))
    (hh : ∀ (n : Fin 100000) (f : Fin 50), poolRows V c (ix2 n f) + poolBias V c (ix2 0 f) = h (ix2 n f)) :
    accAt2 (F := Ideal) V c 19 lt19
      = Host.scatterAdd (F := Ideal) Cert.ReferenceIdeal.scatter_S256x50_S100000x1_S100000x50_1_0_0_1 z ids h := by
  funext j
  obtain ⟨g, f, rfl⟩ : ∃ (g : Fin 256) (f : Fin 50), j = ix2 g f := ⟨j 0, j 1, eq_ix2 j⟩
  rw [acc_apply V c lt19 g f]
  refine Eq.trans ?_ (scatter_pool_apply z hz ids h g f).symm
  refine Finset.sum_congr rfl fun n _ => ?_
  rw [hids, hh]

end Cert.KernelIdeal.Hand

end
-- ==== Proof.RefRead.lean ====
/- The reference program's run and its stage-by-stage reading, gathered under one name for the modules that
   compare the two programs' results. -/
import proofs.«415449_j35734127903067_1_alg».proof.Proof.Gen.ReferenceIdeal.Run
import proofs.«415449_j35734127903067_1_alg».proof.Proof.Gen.ReferenceIdeal.Read
-- ==== Proof.KernelIdeal.HostVal.lean ====
/- The kernel program's boundary values against the reference's stages, at the exact instance.
   Both programs apply the same host operations around the dense products: the symmetric normalisation of the edge list
   (degrees by a scatter-add of ones, their inverse square roots gathered at both ends of every edge and multiplied), and for
   each layer a gather of the node rows at the edges' sources, a scaling by the edge weights and a scatter-add at the
   destinations. This module walks the kernel program's seven boundaries and shows, buffer by buffer, that what a launch reads
   and what it leaves are the reference's stages of the same arguments: the first launch's output is the reference's first
   product, the second's the product of the biased aggregate, and the third's the pooled rows through the four linear layers. -/
import proofs.«415449_j35734127903067_1_alg».proof.Proof.KernelIdeal.Run
import proofs.«415449_j35734127903067_1_alg».proof.Proof.KernelIdeal.Dot01
import proofs.«415449_j35734127903067_1_alg».proof.Proof.KernelIdeal.Tail2
import proofs.«415449_j35734127903067_1_alg».proof.Proof.KernelIdeal.PoolEq
import proofs.«415449_j35734127903067_1_alg».proof.Proof.RefRead

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-! ## What the earlier boundaries keep -/

theorem Q1_kept (b : Ref sig .tc) (h0 : b ∉ hostOps0_W) : Q1 m ρ c (Proc.devRef .tc b) = m ((c : Thread nD τ).loc b) :=
  (StableHlo.after_of_writes_sub hostOps0 _ hostOps0_writes h0).trans rfl

theorem Q3_of_Q1 (b : Ref sig .tc) (h1 : b ∉ hostOps1_W) (n0 : b ≠ main_v27) :
    Q3 m ρ c (Proc.devRef .tc b) = Q1 m ρ c (Proc.devRef .tc b) :=
  (StableHlo.after_of_writes_sub hostOps1 _ hostOps1_writes h1).trans (Q2_keep m ρ c b n0)

theorem Q5_of_Q1 (b : Ref sig .tc) (h1 : b ∉ hostOps1_W) (h2 : b ∉ hostOps2_W) (n0 : b ≠ main_v27) (n1 : b ≠ main_v42) :
    Q5 m ρ c (Proc.devRef .tc b) = Q1 m ρ c (Proc.devRef .tc b) :=
  (StableHlo.after_of_writes_sub hostOps2 _ hostOps2_writes h2).trans ((Q4_keep m ρ c b n1).trans (Q3_of_Q1 m ρ c b h1 n0))

/-! ## The first host stretch: the edge lists with self loops, and the edge weights -/

theorem src_eq : Q1 m ρ c (Proc.devRef .tc main_v3) = Cert.ReferenceIdeal.Read.val_main_v3 (F := Ideal) (m ((c.tc : Thread nD τ).loc main_arg1)) := by
  show StableHlo.after hostOps0 (Q0 m ρ c) (Proc.devRef .tc main_v3) = _
  after_results
  rfl

theorem dst_eq : Q1 m ρ c (Proc.devRef .tc main_v6) = Cert.ReferenceIdeal.Read.val_main_v6 (F := Ideal) (m ((c.tc : Thread nD τ).loc main_arg1)) := by
  show StableHlo.after hostOps0 (Q0 m ρ c) (Proc.devRef .tc main_v6) = _
  after_results
  rfl

set_option maxHeartbeats 2000000 in
theorem norm_eq : Q1 m ρ c (Proc.devRef .tc main_v26) = Cert.ReferenceIdeal.Read.val_main_v26 (F := Ideal) (m ((c.tc : Thread nD τ).loc main_arg1)) := by
  show StableHlo.after hostOps0 (Q0 m ρ c) (Proc.devRef .tc main_v26) = _
  after_results
  unfold Cert.ReferenceIdeal.Read.val_main_v26 Cert.ReferenceIdeal.Read.val_main_v25 Cert.ReferenceIdeal.Read.val_main_v24 Cert.ReferenceIdeal.Read.val_main_v23 Cert.ReferenceIdeal.Read.val_main_v22 Cert.ReferenceIdeal.Read.val_main_v21 Cert.ReferenceIdeal.Read.val_main_c_3 Cert.ReferenceIdeal.Read.val_main_v20 Cert.ReferenceIdeal.Read.val_main_v19 Cert.ReferenceIdeal.Read.val_main_c_2 Cert.ReferenceIdeal.Read.val_main_v18 Cert.ReferenceIdeal.Read.val_main_v17 Cert.ReferenceIdeal.Read.val_main_v16 Cert.ReferenceIdeal.Read.val_main_v15 Cert.ReferenceIdeal.Read.val_main_v14 Cert.ReferenceIdeal.Read.val_main_c_1 Cert.ReferenceIdeal.Read.val_main_v13 Cert.ReferenceIdeal.Read.val_main_v12 Cert.ReferenceIdeal.Read.val_main_c Cert.ReferenceIdeal.Read.val_main_v11 Cert.ReferenceIdeal.Read.val_main_v10 Cert.ReferenceIdeal.Read.val_main_v9 Cert.ReferenceIdeal.Read.val_main_v8 Cert.ReferenceIdeal.Read.val_main_cst_0 Cert.ReferenceIdeal.Read.val_main_v7 Cert.ReferenceIdeal.Read.val_main_cst Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0
  rfl

/-! ## The first launch: the first layer's product -/

theorem arg_at1 (b : Ref sig .tc) (h0 : b ∉ hostOps0_W) : QV1 m ρ c b = m ((c : Thread nD τ).loc b) := Q1_kept m ρ c b h0

theorem prod1_eq : Q2 m ρ c (Proc.devRef .tc main_v27) = Cert.ReferenceIdeal.Read.val_main_v27 (F := Ideal) (m ((c.tc : Thread nD τ).loc main_arg0)) (m ((c.tc : Thread nD τ).loc main_arg3)) := by
  have h := (Q2_arr m ρ c 2).trans (res0_eq_ref (QV1 m ρ) c)
  have e0 : feat0 (QV1 m ρ) c = m ((c.tc : Thread nD τ).loc main_arg0) := arg_at1 m ρ c main_arg0 (by decide)
  have e3 : wts0 (QV1 m ρ) c = m ((c.tc : Thread nD τ).loc main_arg3) := arg_at1 m ρ c main_arg3 (by decide)
  rw [e0, e3] at h
  exact h

/-! ## The second host stretch: the first layer's aggregate -/

theorem agg1_eq : Q3 m ρ c (Proc.devRef .tc main_v40) = Cert.ReferenceIdeal.Read.val_main_v40 (F := Ideal) (m ((c.tc : Thread nD τ).loc main_arg0)) (m ((c.tc : Thread nD τ).loc main_arg1)) (m ((c.tc : Thread nD τ).loc main_arg3)) := by
  have e3 : Q2 m ρ c (Proc.devRef .tc main_v3) = Cert.ReferenceIdeal.Read.val_main_v3 (F := Ideal) (m ((c.tc : Thread nD τ).loc main_arg1)) :=
    (Q2_keep m ρ c main_v3 (by decide)).trans (src_eq m ρ c)
  have e6 : Q2 m ρ c (Proc.devRef .tc main_v6) = Cert.ReferenceIdeal.Read.val_main_v6 (F := Ideal) (m ((c.tc : Thread nD τ).loc main_arg1)) :=
    (Q2_keep m ρ c main_v6 (by decide)).trans (dst_eq m ρ c)
  have e26 : Q2 m ρ c (Proc.devRef .tc main_v26) = Cert.ReferenceIdeal.Read.val_main_v26 (F := Ideal) (m ((c.tc : Thread nD τ).loc main_arg1)) :=
    (Q2_keep m ρ c main_v26 (by decide)).trans (norm_eq m ρ c)
  have e27 := prod1_eq m ρ c
  show StableHlo.after hostOps1 (Q2 m ρ c) (Proc.devRef .tc main_v40) = _
  after_results
  rw [e3, e6, e26, e27]
  rfl

/-- The first bias as the second launch finds it: a one-row matrix whose entries are the vector's. -/
theorem bias1_row (k : Fin 60) : (QV3 m ρ c main_v41 : S1x60.Idx → EReal) (ix2 0 k) = (m ((c.tc : Thread nD τ).loc main_arg4) : S60.Idx → EReal) (ix1 k) := by
  show StableHlo.after hostOps1 (Q2 m ρ c) (Proc.devRef .tc main_v41) (ix2 0 k) = _
  after_results
  show shapeCast S1x60 (Q2 m ρ c (Proc.devRef .tc main_arg4)) shapeCasts_S60_S1x60 (ix2 0 k) = _
  rw [Q2_keep m ρ c main_arg4 (by decide), Q1_kept m ρ c main_arg4 (by decide)]
  exact row_of_vec _ _ k

/-! ## The second launch: the second layer's product of the biased aggregate -/

theorem arg_at3 (b : Ref sig .tc) (h0 : b ∉ hostOps0_W) (h1 : b ∉ hostOps1_W) (n0 : b ≠ main_v27) :
    QV3 m ρ c b = m ((c : Thread nD τ).loc b) := (Q3_of_Q1 m ρ c b h1 n0).trans (Q1_kept m ρ c b h0)

theorem prod2_eq : Q4 m ρ c (Proc.devRef .tc main_v42) = Cert.ReferenceIdeal.Read.val_main_v44 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (Q4_arr m ρ c 3).trans (res1_eq_ref (QV3 m ρ) c (Cert.ReferenceIdeal.Read.val_main_v40 (F := Ideal) (m ((c.tc : Thread nD τ).loc main_arg0)) (m ((c.tc : Thread nD τ).loc main_arg1)) (m ((c.tc : Thread nD τ).loc main_arg3))) (m ((c.tc : Thread nD τ).loc main_arg4)) (m ((c.tc : Thread nD τ).loc main_arg5))
    (agg1_eq m ρ c) (bias1_row m ρ c) (arg_at3 m ρ c main_arg5 (by decide) (by decide) (by decide)))

/-! ## The third host stretch: the second layer's aggregate, and the small arrays as rows -/

theorem agg2_eq : Q5 m ρ c (Proc.devRef .tc main_v55) = Cert.ReferenceIdeal.Read.val_main_v57 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  have e3 : Q4 m ρ c (Proc.devRef .tc main_v3) = Cert.ReferenceIdeal.Read.val_main_v3 (F := Ideal) (m ((c.tc : Thread nD τ).loc main_arg1)) :=
    (Q4_keep m ρ c main_v3 (by decide)).trans ((Q3_of_Q1 m ρ c main_v3 (by decide) (by decide)).trans (src_eq m ρ c))
  have e6 : Q4 m ρ c (Proc.devRef .tc main_v6) = Cert.ReferenceIdeal.Read.val_main_v6 (F := Ideal) (m ((c.tc : Thread nD τ).loc main_arg1)) :=
    (Q4_keep m ρ c main_v6 (by decide)).trans ((Q3_of_Q1 m ρ c main_v6 (by decide) (by decide)).trans (dst_eq m ρ c))
  have e26 : Q4 m ρ c (Proc.devRef .tc main_v26) = Cert.ReferenceIdeal.Read.val_main_v26 (F := Ideal) (m ((c.tc : Thread nD τ).loc main_arg1)) :=
    (Q4_keep m ρ c main_v26 (by decide)).trans ((Q3_of_Q1 m ρ c main_v26 (by decide) (by decide)).trans (norm_eq m ρ c))
  have e42 := prod2_eq m ρ c
  show StableHlo.after hostOps2 (Q4 m ρ c) (Proc.devRef .tc main_v55) = _
  after_results
  rw [e3, e6, e26, e42]
  rfl

theorem Q4_arg (b : Ref sig .tc) (h0 : b ∉ hostOps0_W) (h1 : b ∉ hostOps1_W) (n0 : b ≠ main_v27) (n1 : b ≠ main_v42) :
    Q4 m ρ c (Proc.devRef .tc b) = m ((c : Thread nD τ).loc b) :=
  (Q4_keep m ρ c b n1).trans ((Q3_of_Q1 m ρ c b h1 n0).trans (Q1_kept m ρ c b h0))

/-- A vector of length n recast as an n × 1 column reads the vector at the row. -/
theorem col_of_vec {α : Type} {n : Nat} (b : (⟨1, ![n]⟩ : Shape).Idx → α) (h : (⟨1, ![n]⟩ : Shape).ShapeCasts ⟨2, ![n, 1]⟩) (q : Fin n) :
    shapeCast ⟨2, ![n, 1]⟩ b h (ix2 q (0 : Fin 1)) = b (ix1 q) :=
  shapeCast_apply b h (ix2 q (0 : Fin 1)) (ix1 q) (by
    rw [Shape.rowMajor_val_one, Shape.rowMajor_val_two]
    show q.val = q.val * 1 + 0
    omega)

/-- The graph ids as the third launch finds them: a one-column matrix whose entries are the vector's. -/
theorem ids_col (n : Fin 100000) : (QV5 m ρ c main_v56 : S100000x1.Idx → BitVec 32) (ix2 n 0) = (m ((c.tc : Thread nD τ).loc main_arg2) : S100000.Idx → BitVec 32) (ix1 n) := by
  show StableHlo.after hostOps2 (Q4 m ρ c) (Proc.devRef .tc main_v56) (ix2 n 0) = _
  after_results
  show shapeCast S100000x1 (Q4 m ρ c (Proc.devRef .tc main_arg2)) shapeCasts_S100000_S100000x1 (ix2 n (0 : Fin 1)) = _
  rw [Q4_arg m ρ c main_arg2 (by decide) (by decide) (by decide) (by decide)]
  exact col_of_vec _ _ n

/-- The bias vectors as the third launch finds them: one-row matrices whose entries are the vectors'. -/

theorem row57 (j : Fin 50) : (QV5 m ρ c main_v57 : S1x50.Idx → EReal) (ix2 (0 : Fin 1) j) = (m ((c.tc : Thread nD τ).loc main_arg6) : S50.Idx → EReal) (ix1 j) := by
  show StableHlo.after hostOps2 (Q4 m ρ c) (Proc.devRef .tc main_v57) (ix2 (0 : Fin 1) j) = _
  after_results
  show shapeCast S1x50 (Q4 m ρ c (Proc.devRef .tc main_arg6)) shapeCasts_S50_S1x50 (ix2 (0 : Fin 1) j) = _
  rw [Q4_arg m ρ c main_arg6 (by decide) (by decide) (by decide) (by decide)]
  exact row_of_vec _ _ j

theorem row58 (j : Fin 30) : (QV5 m ρ c main_v58 : S1x30.Idx → EReal) (ix2 (0 : Fin 1) j) = (m ((c.tc : Thread nD τ).loc main_arg8) : S30.Idx → EReal) (ix1 j) := by
  show StableHlo.after hostOps2 (Q4 m ρ c) (Proc.devRef .tc main_v58) (ix2 (0 : Fin 1) j) = _
  after_results
  show shapeCast S1x30 (Q4 m ρ c (Proc.devRef .tc main_arg8)) shapeCasts_S30_S1x30 (ix2 (0 : Fin 1) j) = _
  rw [Q4_arg m ρ c main_arg8 (by decide) (by decide) (by decide) (by decide)]
  exact row_of_vec _ _ j

theorem row59 (j : Fin 20) : (QV5 m ρ c main_v59 : S1x20.Idx → EReal) (ix2 (0 : Fin 1) j) = (m ((c.tc : Thread nD τ).loc main_arg10) : S20.Idx → EReal) (ix1 j) := by
  show StableHlo.after hostOps2 (Q4 m ρ c) (Proc.devRef .tc main_v59) (ix2 (0 : Fin 1) j) = _
  after_results
  show shapeCast S1x20 (Q4 m ρ c (Proc.devRef .tc main_arg10)) shapeCasts_S20_S1x20 (ix2 (0 : Fin 1) j) = _
  rw [Q4_arg m ρ c main_arg10 (by decide) (by decide) (by decide) (by decide)]
  exact row_of_vec _ _ j

theorem row60 (j : Fin 10) : (QV5 m ρ c main_v60 : S1x10.Idx → EReal) (ix2 (0 : Fin 1) j) = (m ((c.tc : Thread nD τ).loc main_arg12) : S10.Idx → EReal) (ix1 j) := by
  show StableHlo.after hostOps2 (Q4 m ρ c) (Proc.devRef .tc main_v60) (ix2 (0 : Fin 1) j) = _
  after_results
  show shapeCast S1x10 (Q4 m ρ c (Proc.devRef .tc main_arg12)) shapeCasts_S10_S1x10 (ix2 (0 : Fin 1) j) = _
  rw [Q4_arg m ρ c main_arg12 (by decide) (by decide) (by decide) (by decide)]
  exact row_of_vec _ _ j

theorem row61 (j : Fin 1) : (QV5 m ρ c main_v61 : S1x1.Idx → EReal) (ix2 (0 : Fin 1) j) = (m ((c.tc : Thread nD τ).loc main_arg14) : S1.Idx → EReal) (ix1 j) := by
  show StableHlo.after hostOps2 (Q4 m ρ c) (Proc.devRef .tc main_v61) (ix2 (0 : Fin 1) j) = _
  after_results
  show shapeCast S1x1 (Q4 m ρ c (Proc.devRef .tc main_arg14)) shapeCasts_S1_S1x1 (ix2 (0 : Fin 1) j) = _
  rw [Q4_arg m ρ c main_arg14 (by decide) (by decide) (by decide) (by decide)]
  exact row_of_vec _ _ j

theorem arg_at5 (b : Ref sig .tc) (h0 : b ∉ hostOps0_W) (h1 : b ∉ hostOps1_W) (h2 : b ∉ hostOps2_W) (n0 : b ≠ main_v27) (n1 : b ≠ main_v42) :
    QV5 m ρ c b = m ((c : Thread nD τ).loc b) := (Q5_of_Q1 m ρ c b h1 h2 n0 n1).trans (Q1_kept m ρ c b h0)

/-! ## The third launch: the pooled rows through the four linear layers -/

/-- The accumulator after the last point is the reference's sum-pooling stage: both add, for every graph, the biased rows
    of the nodes whose id names it. -/
theorem pooled_eq : accAt2 (QV5 m ρ) c 19 lt19 = Cert.ReferenceIdeal.Read.val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine acc_eq_ref (QV5 m ρ) c (Cert.ReferenceIdeal.Read.val_main_v61 (F := Ideal)) ?_ (Cert.ReferenceIdeal.Read.val_main_v62 (F := Ideal) (m ((c.tc : Thread nD τ).loc main_arg2)))
    (Cert.ReferenceIdeal.Read.val_main_v60 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) ?_ ?_
  · intro i
    rw [Cert.ReferenceIdeal.Read.val_main_v61_apply, Cert.ReferenceIdeal.Read.val_main_cst_10_apply]
    exact Ideal.ofBits_zero_f32
  · intro n
    rw [Cert.ReferenceIdeal.Read.val_main_v62_apply]
    exact (ids_col m ρ c n).trans (congrArg _ (funext fun a => match a with | ⟨0, _⟩ => rfl))
  · intro n f
    rw [Cert.ReferenceIdeal.Read.val_main_v60_apply, Cert.ReferenceIdeal.Read.val_main_v59_apply, Cert.ReferenceIdeal.Read.val_main_v58_apply]
    have e55 : poolRows (QV5 m ρ) c = Cert.ReferenceIdeal.Read.val_main_v57 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := agg2_eq m ρ c
    have hrow : poolBias (QV5 m ρ) c (ix2 0 f) = (m ((c.tc : Thread nD τ).loc main_arg6) : S50.Idx → EReal) (ix1 f) := row57 m ρ c f
    have hi : (ix1 f : S50.Idx) = Cert.ReferenceIdeal.Read.idx_main_v58 (Cert.ReferenceIdeal.Read.idx_main_v59 (ix2 n f)) :=
      funext fun a => match a with | ⟨0, _⟩ => rfl
    rw [e55, hrow, Ideal.addf_def, ← hi]

theorem result_eq : (dat2 (QV5 m ρ) c).arrAt 11 cfg2.N = Cert.ReferenceIdeal.Read.val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine (out2_eq_ref (QV5 m ρ) c _ (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
    (pooled_eq m ρ c)
    (arg_at5 m ρ c main_arg7 (by decide) (by decide) (by decide) (by decide) (by decide))
    (arg_at5 m ρ c main_arg9 (by decide) (by decide) (by decide) (by decide) (by decide))
    (arg_at5 m ρ c main_arg11 (by decide) (by decide) (by decide) (by decide) (by decide))
    (arg_at5 m ρ c main_arg13 (by decide) (by decide) (by decide) (by decide) (by decide))
    (row58 m ρ c) (row59 m ρ c) (row60 m ρ c) (row61 m ρ c)).trans ?_
  unfold Cert.ReferenceIdeal.Read.val_main_v79 Cert.ReferenceIdeal.Read.val_main_v76 Cert.ReferenceIdeal.Read.val_main_v75 Cert.ReferenceIdeal.Read.val_main_v72 Cert.ReferenceIdeal.Read.val_main_v71 Cert.ReferenceIdeal.Read.val_main_v68 Cert.ReferenceIdeal.Read.val_main_v67 Cert.ReferenceIdeal.Read.val_main_v64
  rfl

end Cert.KernelIdeal.Hand

end
-- ==== Proof.lean ====
/- A two-layer graph convolution with sum pooling and a four-layer linear read-out, in two programs.

   Both programs first turn the edge list into weights: every node gets a self loop, a node's degree is the number of edges
   that end in it, and an edge from s to d weighs deg(s)^(-1/2) · deg(d)^(-1/2). A layer multiplies the node features by its
   weight matrix, then sets every node to the weighted sum of the rows at the sources of the edges that end in it, and adds
   the layer's bias. After two layers the rows of the nodes of each of the 256 graphs are added up, and the 256 × 50 result
   goes through four affine maps down to one number per graph.

   The reference does every step as one whole-array operation. The other program does the three dense steps in launches
   that walk row blocks: the first layer's product over ten blocks of 10000 rows; the second layer's product, with the first
   layer's bias added to each block as it is read, over ten blocks; and the pooling over twenty blocks of 5000 rows, as the
   product of the transposed one-hot matrix of the block's graph ids with the block's biased rows, accumulated in a buffer the
   launch keeps from block to block, the four affine maps applied at the last block. The gathers and scatter-adds around the
   launches are the reference's own operations.

   Over the extended reals the two agree with no condition on the inputs: a product of blocks of rows is the rows of the
   product, since each output row depends on its own input row only; the biases are added at the same places on both sides;
   and a one-hot entry is 0 or 1, so multiplying by it keeps a row or drops it (0 · x = 0 and 1 · x = x for every extended
   real x), which makes the sum over all nodes of one-hot times row the sum over the nodes of that graph — a scatter-add's
   value, whatever the order of its additions, addition being commutative and associative. An id outside [0, 256) matches
   no column on the one side and lands nowhere on the other.

   The frames of the two launching programs run the list of @main's six segments (host stretch, launch, three times) with
   each launch's blocks, staging contents and carried buffer named point by point; the arguments are written by no segment.
   The reference's frame is its run with the result dropped. The idealisation rewrote nothing, so `preserves` is trivial. -/
import proofs.«415449_j35734127903067_1_alg».proof.Defs
import proofs.«415449_j35734127903067_1_alg».proof.Proof.Gen.Kernel
import proofs.«415449_j35734127903067_1_alg».proof.Proof.Gen.KernelIdeal
import proofs.«415449_j35734127903067_1_alg».proof.Proof.Gen.ReferenceIdeal
import proofs.«415449_j35734127903067_1_alg».proof.Proof.Gen.Pre_finite_inputs
import proofs.«415449_j35734127903067_1_alg».proof.Proof.Kernel.Run
import proofs.«415449_j35734127903067_1_alg».proof.Proof.KernelIdeal.HostVal
import Idealize.ShloMosaic.Adequacy
import Idealize.ShloMosaic.Init

noncomputable section

namespace Cert.Proof

open Idealize.ShloMosaic Idealize.SL.Sem

/-- The word-level program runs to the end and leaves its arguments as launched. -/
theorem frame_p : Cert.frame_Kernel := fun m ρ _ => Cert.Kernel.Hand.frame m ρ

/-- So does its reading over the extended reals. -/
theorem frame_pi : Cert.frame_KernelIdeal := fun m ρ _ => Cert.KernelIdeal.Hand.frame m ρ

/-- The reference is a line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten for the exact reading. -/
theorem preserves : Cert.preserves_Kernel_KernelIdeal := trivial

/-- From memories that agree on the arguments both programs end with the same 256 numbers: the third launch's output array
    is the reference's last stage of the same arguments. -/
theorem algebraic : Cert.algebraic_KernelIdeal_ReferenceIdeal := by
  intro m ρ m' ρ' _ hagree
  refine ⟨fun c => (Cert.KernelIdeal.Hand.dat2 (Cert.KernelIdeal.Hand.QV5 m ρ) c).arrAt 11 Cert.KernelIdeal.cfg2.N,
    Cert.KernelIdeal.Hand.run_named m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14⟩ := hagree c
  rw [Cert.ReferenceIdeal.Read.val_main_v79_eq, a0, a1, a2, a3, a4, a5, a6, a7, a8, a9, a10, a11, a12, a13, a14]
  exact (Cert.KernelIdeal.Hand.result_eq m ρ c).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
